-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_c_12 : IVec S_ 32 := constantI S_ 32 0#32
  let main_v35 : IVec S1x1600000 32 := broadcastInDim S1x1600000 ![] bcast_S_S1x1600000 main_c_12
  let main_v36 : IVec S1x1600000 1 := cmpi .sge main_v34 main_v35
  let main_v37 : IVec S1x1600000 32 := (extractStridedSlice S1x1600000 ![0, 0] · slices_S2x1600000_S1x1600000_0_0) main_arg1
  let main_c_13 : IVec S_ 32 := constantI S_ 32 100000#32
  let main_v38 : IVec S1x1600000 32 := broadcastInDim S1x1600000 ![] bcast_S_S1x1600000 main_c_13
  let main_v39 : IVec S1x1600000 1 := cmpi .slt main_v37 main_v38
  let main_v40 : IVec S1x1600000 1 := andi main_v36 main_v39
  let main_c_14 : IVec S_ 1 := constantI S_ 1 1#1
  let main_v41 : IVec S_ 1 := (fun x v => Host.reduce IntOp.andi x v reducesTo_S1x1600000_S_d0_1 h_S_) main_v40 main_c_14
  let main_v42 : IVec S_ 1 := andi main_v33 main_v41
  main_v42

def fn_part1 {F : FTy → Type} [FloatOps F] (main_arg1 : IVec S2x1600000 32) (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩

abbrev nBuf : Space → Nat
  | .hbm => 90
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1, .i32⟩
  | .hbm, ⟨40, _⟩ => ⟨S_, .i32⟩
  | .hbm, ⟨41, _⟩ => ⟨S1700000x1, .i32⟩
  | .hbm, ⟨42, _⟩ => ⟨S1700000x1, .i1⟩
  | .hbm, ⟨43, _⟩ => ⟨S1x1, .i32⟩
  | .hbm, ⟨44, _⟩ => ⟨S1700000x1, .i32⟩
  | .hbm, ⟨45, _⟩ => ⟨S1700000x1, .i1⟩
  | .hbm, ⟨46, _⟩ => ⟨S1700000x1, .i1⟩
  | .hbm, ⟨47, _⟩ => ⟨S_, .i1⟩
  | .hbm, ⟨48, _⟩ => ⟨S1700000, .i1⟩
  | .hbm, ⟨49, _⟩ => ⟨S1700000x128, .f32⟩
  | .hbm, ⟨50, _⟩ => ⟨S1700000x128, .i1⟩
  | .hbm, ⟨51, _⟩ => ⟨S_, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1, .i32⟩
  | .hbm, ⟨69, _⟩ => ⟨S_, .i32⟩
  | .hbm, ⟨70, _⟩ => ⟨S1700000x1, .i32⟩
  | .hbm, ⟨71, _⟩ => ⟨S1700000x1, .i1⟩
  | .hbm, ⟨72, _⟩ => ⟨S1x1, .i32⟩
  | .hbm, ⟨73, _⟩ => ⟨S1700000x1, .i32⟩
  | .hbm, ⟨74, _⟩ => ⟨S1700000x1, .i1⟩
  | .hbm, ⟨75, _⟩ => ⟨S1700000x1, .i1⟩
  | .hbm, ⟨76, _⟩ => ⟨S_, .i1⟩
  | .hbm, ⟨77, _⟩ => ⟨S1700000, .i1⟩
  | .hbm, ⟨78, _⟩ => ⟨S1700000x128, .f32⟩
  | .hbm, ⟨79, _⟩ => ⟨S1700000x128, .i1⟩
  | .hbm, ⟨80, _⟩ => ⟨S_, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S1x16, .f32⟩
  | .hbm, ⟨89, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v23 : Ref sig .tc := ⟨.hbm, 82, rfl⟩
abbrev main_cst_4 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x16, .f32⟩
  | .hbm, ⟨95, _⟩ => ⟨S1x16, .f32⟩
  | .hbm, ⟨96, _⟩ => ⟨S100000x16, .f32⟩
  | .hbm, ⟨97, _⟩ => ⟨S100000x16, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x16, .f32⟩
  | .hbm, ⟨105, _⟩ => ⟨S100000x16, .f32⟩
  | .hbm, ⟨106, _⟩ => ⟨S100000x16, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x16, .f32⟩
  | .hbm, ⟨111, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.GcnMath.lean ====
/-
  A two-layer graph convolution followed by a row softmax, as plain functions on extended reals, in the two
  arrangements the certificate meets, and the law that joins them.

  The graph is given by three maps on the edges: `s e` is the row an edge reads, `t e` the (signed) row number it adds
  into — an edge adds into row `n` exactly when `t e = n`, and nowhere when `t e` is no row —, and `d e` the row at which
  the second arrangement looks its target's weight up. `dn n` is the weight of row `n` (one over the square root of
  its degree).

  First arrangement (weights taken out of the sums): a layer's transform is scaled by the SOURCE row's weight where it
  is produced, `scaled`; the neighbourhood sum `agg` adds the gathered rows; the TARGET row's weight, the bias and the
  rectifier are applied afterwards, `finish`.
  Second arrangement (weights inside the sums): each gathered row is multiplied by `dn (s e) * dn (d e)` before it is
  added, `layerInside`.

  They agree when `d e` is the row `e` adds into and every weight is non-negative and not +∞: a non-negative finite
  factor distributes over any sum of extended reals (`sum_mul_of_nonneg_ne_top`), and multiplication is associative.
-/
import Idealize.ShloMosaic.PureOps.Ideal

noncomputable section

namespace Gcn

open Finset Idealize.ShloMosaic

variable {N Ed : ℕ}

/-- A dense transform: row `n` of `X` against column `j` of `W`. -/
def lin {K J : ℕ} (X : Fin N → Fin K → EReal) (W : Fin K → Fin J → EReal) (n : Fin N) (j : Fin J) : EReal :=
  ∑ k : Fin K, X n k * W k j

/-- The neighbourhood sum: over the edges that add into row `n`, the row of `P` each one reads. -/
def agg {J : ℕ} (s : Fin Ed → Fin N) (t : Fin Ed → ℤ) (P : Fin N → Fin J → EReal) (n : Fin N) (j : Fin J) : EReal :=
  ∑ e ∈ univ.filter (fun e : Fin Ed => t e = (n.val : ℤ)), P (s e) j

/-- Every row multiplied by its own weight. -/
def scaled {J : ℕ} (dn : Fin N → EReal) (H : Fin N → Fin J → EReal) (n : Fin N) (j : Fin J) : EReal :=
  H n j * dn n

/-- The target row's weight, the bias and the rectifier, applied to a neighbourhood sum. -/
def finish {J : ℕ} (dn : Fin N → EReal) (A : Fin N → Fin J → EReal) (b : Fin J → EReal) (n : Fin N) (j : Fin J) : EReal :=
  max (A n j * dn n + b j) 0

/-- One layer with both weights inside the sum. -/
def layerInside {K J : ℕ} (s : Fin Ed → Fin N) (t : Fin Ed → ℤ) (d : Fin Ed → Fin N) (dn : Fin N → EReal)
    (X : Fin N → Fin K → EReal) (W : Fin K → Fin J → EReal) (b : Fin J → EReal) (n : Fin N) (j : Fin J) : EReal :=
  max ((∑ e ∈ univ.filter (fun e : Fin Ed => t e = (n.val : ℤ)), lin X W (s e) j * (dn (s e) * dn (d e))) + b j) 0

/-- One layer with the weights taken out of the sum. -/
def layerOutside {K J : ℕ} (s : Fin Ed → Fin N) (t : Fin Ed → ℤ) (dn : Fin N → EReal)
    (X : Fin N → Fin K → EReal) (W : Fin K → Fin J → EReal) (b : Fin J → EReal) : Fin N → Fin J → EReal :=
  finish dn (agg s t (scaled dn (lin X W))) b

/-- A row's softmax, shifted by the row's maximum. -/
def softmaxRow {C : ℕ} (L : Fin C → EReal) (c : Fin C) : EReal :=
  Ideal.div (Ideal.exp (L c - univ.fold max ⊥ L)) (∑ c' : Fin C, Ideal.exp (L c' - univ.fold max ⊥ L))

/-- The classifier on top of a hidden layer `X2`: a dense transform, a bias, the row softmax. -/
def classify {K C : ℕ} (X2 : Fin N → Fin K → EReal) (Wl : Fin K → Fin C → EReal) (bl : Fin C → EReal)
    (n : Fin N) (c : Fin C) : EReal :=
  softmaxRow (fun c' => lin X2 Wl n c' + bl c') c

/-- The whole network, weights taken out of the sums. -/
def netOutside {K H C : ℕ} (s : Fin Ed → Fin N) (t : Fin Ed → ℤ) (dn : Fin N → EReal)
    (X : Fin N → Fin K → EReal) (W1 : Fin K → Fin H → EReal) (b1 : Fin H → EReal)
    (W2 : Fin H → Fin H → EReal) (b2 : Fin H → EReal) (Wl : Fin H → Fin C → EReal) (bl : Fin C → EReal) :
    Fin N → Fin C → EReal :=
  classify (layerOutside s t dn (layerOutside s t dn X W1 b1) W2 b2) Wl bl

/-- The whole network, weights inside the sums. -/
def netInside {K H C : ℕ} (s : Fin Ed → Fin N) (t : Fin Ed → ℤ) (d : Fin Ed → Fin N) (dn : Fin N → EReal)
    (X : Fin N → Fin K → EReal) (W1 : Fin K → Fin H → EReal) (b1 : Fin H → EReal)
    (W2 : Fin H → Fin H → EReal) (b2 : Fin H → EReal) (Wl : Fin H → Fin C → EReal) (bl : Fin C → EReal) :
    Fin N → Fin C → EReal :=
  classify (layerInside s t d dn (layerInside s t d dn X W1 b1) W2 b2) Wl bl

/-- A non-negative factor that is not +∞ distributes over a finite sum of extended reals, whatever the summands. -/
theorem sum_mul_of_nonneg_ne_top {ι : Type} (S : Finset ι) (a : ι → EReal) {x : EReal} (h0 : 0 ≤ x) (ht : x ≠ ⊤) :
    (∑ i ∈ S, a i) * x = ∑ i ∈ S, a i * x := by
  classical
  induction S using Finset.induction_on with
  | empty => simp
  | insert i S hi ih =>
    rw [Finset.sum_insert hi, Finset.sum_insert hi, EReal.right_distrib_of_nonneg_of_ne_top h0 ht, ih]

/-- One layer: the two arrangements agree. -/
theorem layerInside_eq_layerOutside {K J : ℕ} (s : Fin Ed → Fin N) (t : Fin Ed → ℤ) (d : Fin Ed → Fin N)
    (dn : Fin N → EReal) (hd : ∀ e n, t e = ((n : Fin N).val : ℤ) → d e = n) (hdn : ∀ n, 0 ≤ dn n ∧ dn n ≠ ⊤)
    (X : Fin N → Fin K → EReal) (W : Fin K → Fin J → EReal) (b : Fin J → EReal) :
    layerInside s t d dn X W b = layerOutside s t dn X W b := by
  funext n j
  unfold layerInside layerOutside finish agg scaled
  rw [sum_mul_of_nonneg_ne_top _ _ (hdn n).1 (hdn n).2]
  congr 2
  refine Finset.sum_congr rfl fun e he => ?_
  rw [hd e n (Finset.mem_filter.1 he).2, mul_assoc]

/-- The whole network: the two arrangements agree. -/
theorem netInside_eq_netOutside {K H C : ℕ} (s : Fin Ed → Fin N) (t : Fin Ed → ℤ) (d : Fin Ed → Fin N)
    (dn : Fin N → EReal) (hd : ∀ e n, t e = ((n : Fin N).val : ℤ) → d e = n) (hdn : ∀ n, 0 ≤ dn n ∧ dn n ≠ ⊤)
    (X : Fin N → Fin K → EReal) (W1 : Fin K → Fin H → EReal) (b1 : Fin H → EReal)
    (W2 : Fin H → Fin H → EReal) (b2 : Fin H → EReal) (Wl : Fin H → Fin C → EReal) (bl : Fin C → EReal) :
    netInside s t d dn X W1 b1 W2 b2 Wl bl = netOutside s t dn X W1 b1 W2 b2 Wl bl := by
  unfold netInside netOutside
  rw [layerInside_eq_layerOutside s t d dn hd hdn, layerInside_eq_layerOutside s t d dn hd hdn]

/-- The weight `if 0 < y then 1/√y else 0` is non-negative and not +∞, for every extended real `y`. -/
theorem weight_nonneg_ne_top (y : EReal) :
    0 ≤ (if 0 < y then Ideal.rsqrt y else 0) ∧ (if 0 < y then Ideal.rsqrt y else 0) ≠ ⊤ := by
  by_cases h : 0 < y
  · rw [if_pos h]
    induction y using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.2 hr.le), if_neg hr.ne']
      exact ⟨by exact_mod_cast (inv_nonneg.2 (Real.sqrt_nonneg r)), EReal.coe_ne_top _⟩
  · rw [if_neg h]
    exact ⟨le_refl 0, EReal.zero_ne_top⟩

end Gcn

end
-- ==== Proof.LibGather2.lean ====
/-
  Two readings of stablehlo.gather at an index, for any extents.

  `gather_rows`: whole rows of a rank-2 table [N, C] taken at an [E, 1] column of start ids (what `table[ids]` lowers
  to): entry (e, c) of the result is the table at row clamp(ids e) and column c, where the id is read as a signed
  word and clamped into [0, N − 1].
  `gather_pairs`: single entries of a rank-2 table [N, R] taken at an [E, 2] matrix of (row, column) ids (what
  `table[i, j]` lowers to): entry e of the result is the table at (clamp(i e), clamp(j e)), each id clamped into
  its own axis.
-/
import Idealize.ShloMosaic.PureOps.ShapeOps
import Idealize.ShloMosaic.PureOps.Dims
import Idealize.ShloMosaic.Lib.ValueIdx

namespace IndexOpsLib

open Idealize.ShloMosaic Idealize.ShloMosaic.ValueIdx

/-- A start id read signed and clamped into [0, N − 1]. -/
def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  -- a batch axis of the result is not its offset axis 1, so it is axis 0, where the index holds e
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- an offset axis of the result is axis 1, where the index holds c
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  -- operand axis 0: collapsed and start-indexed, the clamped id
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  -- operand axis 1: an offset axis with no start index, the result's column
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_pairs {α : Type} {N R E w : Nat} (hN : 0 < N) (hR : 0 < R)
    (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1)
    (x : (⟨2, ![N, R]⟩ : Shape).Idx → α) (idx : IVec ⟨2, ![E, 2]⟩ w) (e : Fin E) :
    Host.gather d x idx (ix1 e)
      = x (ix2 (clampRow N hN (idx (ix2 e (0 : Fin 2)))) (clampRow R hR (idx (ix2 e (1 : Fin 2))))) := by
  -- the result's one axis holds e
  have hj : ∀ X : Fin 1, ((ix1 e : (⟨1, ![E]⟩ : Shape).Idx) X).val = e.val := fun X => by
    have hX : X = 0 := Subsingleton.elim _ _
    subst hX; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry e is read at (e, k)
  have hsi : ∀ (n : Nat) (hn : n < d.startIndexMap.length) (k : Fin 2), n = k.val →
      d.siIdx (ix1 e) ⟨n, hn⟩ = ix2 e k := by
    intro n hn k hnk
    funext b
    match b with
    | ⟨0, _⟩ =>
      unfold GatherDims.siIdx
      rw [dif_neg (by rw [hivd]; simp)]
      unfold GatherDims.siCoord
      apply Fin.ext
      simp only [Fin.val_cast]
      exact hj _
    | ⟨1, _⟩ =>
      unfold GatherDims.siIdx
      rw [dif_pos (by rw [hivd])]
      apply Fin.ext
      exact hnk
  -- operand axis 0: the clamped row id
  have h0 : (d.operandIdx (ix1 e) idx (0 : Fin 2)).val = (clampRow N hN (idx (ix2 e (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix2 e 0)).toInt.toNat (N - 1)
    rw [hsl 0, hsi _ _ 0 hi]
  -- operand axis 1: the clamped column id
  have h1 : (d.operandIdx (ix1 e) idx (1 : Fin 2)).val = (clampRow R hR (idx (ix2 e (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix2 e 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib
-- ==== Proof.GcnIndex.lean ====
/-
  The graph maps of `GcnMath` read off two vectors of 32-bit words, one entry per edge, and the arrays of a
  certificate read as plain functions of their coordinates.

  `srcRow`: the row an edge reads is its source word read signed and clamped into the table (what a gather does with
  a start index). `tgtInt`: the row it adds into is its target word read signed and NOT clamped (what a scatter does:
  a word that names no row adds nowhere).
-/
import Idealize.ShloMosaic.Lib.ValueIdx
import proofs.«407854_j1202590843008_2_alg».proof.Proof.LibGather2

namespace Gcn

open Idealize.ShloMosaic Idealize.ShloMosaic.ValueIdx

/-- A rank-2 array as a function of its two coordinates. -/
def arr2 {α : Type} {a b : ℕ} (f : (⟨2, ![a, b]⟩ : Shape).Idx → α) (p : Fin a) (q : Fin b) : α := f (ix2 p q)

/-- A rank-1 array as a function of its coordinate. -/
def arr1 {α : Type} {a : ℕ} (f : (⟨1, ![a]⟩ : Shape).Idx → α) (p : Fin a) : α := f (ix1 p)

/-- The row an edge reads: its source word, read signed and clamped into the table's rows. -/
def srcRow {Ed : ℕ} (N : ℕ) (hN : 0 < N) (srcW : (⟨1, ![Ed]⟩ : Shape).Idx → BitVec 32) (e : Fin Ed) : Fin N :=
  IndexOpsLib.clampRow N hN (srcW (ix1 e))

/-- The row number an edge adds into: its target word read signed (a number that names no row adds nowhere). -/
def tgtInt {Ed : ℕ} (dstW : (⟨1, ![Ed]⟩ : Shape).Idx → BitVec 32) (e : Fin Ed) : ℤ := (dstW (ix1 e)).toInt

end Gcn
-- ==== Proof.KRegion0.lean ====
/-
  The first region's result. Each of its twenty grid points takes 5000 rows of the node features, multiplies them
  by the whole first weight matrix (a matrix product into a zero accumulator: a plain sum over the 128 features),
  scales every row by that row's weight, and writes the 5000 rows back; the blocks tile the array, so entry (n, j) of
  the array the region leaves is `(∑ k, x n k * w k j) * weight n`.
-/
import proofs.«407854_j1202590843008_2_alg».proof.Proof.Gen.KernelIdeal.Frame
import proofs.«407854_j1202590843008_2_alg».proof.Proof.GcnMath
import proofs.«407854_j1202590843008_2_alg».proof.Proof.GcnIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem

/- the TensorCore's buffer contents when the region is entered -/
variable (V : (c : Dev nD) → (b : Ref sig .tc) → Buf (Elt Ideal) ((c : Thread nD τ).loc b))

/-- Row `n`'s weight, read off the [100000, 1] column the region is handed. -/
abbrev weight (c : Dev nD) (n : Fin 100000) : EReal := (V c main_v15 : S100000x1.Idx → EReal) (ix2 n (0 : Fin 1))

/-- The zero offsets of a whole-block access, as the constant function. -/
theorem zero_offsets : (![0, 0] : Fin 2 → Nat) = fun _ => 0 := funext fun a => by fin_cases a <;> rfl

/-! ## The matrix product of a block: which entries of the two factors an output entry meets -/

/-- The left factor is met in the output entry's own row, -/
theorem left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the column the sum runs over; -/
theorem left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right factor at the row the sum runs over, -/
theorem right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output entry's own column. -/
theorem right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a [5000,128] × [128,128] product accumulated into zero: the plain sum over the 128 inner indices. -/
theorem product_entry {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact left_row _ _
    | ⟨1, _⟩ => exact (left_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (right_row _ _).trans hk
    | ⟨1, _⟩ => exact right_col _ _)
  rw [el, er]

/-! ## One column broadcast over many -/

/-- An [a, 1] array broadcast to [a, b] reads, at (p, c), the operand's one column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry -/

/-- Entry (p, q) of what the body stores: row p of the first block against column q of the second, times row p's weight. -/
theorem payload_entry (x0 : Vec Ideal S5000x128 .f32) (x1 : Vec Ideal S128x128 .f32) (x2 : Vec Ideal S5000x1 .f32) (p : Fin 5000) (q : Fin 128) :
    (k0_pay1 (F := Ideal) x0 x1 x2 : S5000x128.Idx → EReal) (ix2 p q)
      = (∑ k : Fin 128, (x0 : S5000x128.Idx → EReal) (ix2 p k) * (x1 : S128x128.Idx → EReal) (ix2 k q)) * (x2 : S5000x1.Idx → EReal) (ix2 p (0 : Fin 1)) := by
  unfold k0_pay1
  rw [mulf_apply, product_entry, shapeCast_self, broadcastTo_a1_ab_apply]
  rfl

/-! ## The array the region leaves, as one function of the arrays it finds -/

/-- The three arrays the region reads, as functions of their indices: the node features, -/
abbrev features (c : Dev nD) : S100000x128.Idx → EReal := V c main_arg0
/-- the weight matrix, -/
abbrev matrix (c : Dev nD) : S128x128.Idx → EReal := V c main_arg2
/-- the column of row weights. -/
abbrev column (c : Dev nD) : S100000x1.Idx → EReal := V c main_v15

/-- Entry (n, j): row n of the features against column j of the weight matrix, times row n's weight. -/
abbrev entry (c : Dev nD) (n : Fin 100000) (j : Fin 128) : EReal :=
  (∑ k : Fin 128, features V c (ix2 n k) * matrix V c (ix2 k j)) * column V c (ix2 n (0 : Fin 1))

/-- The same as a function of the array's index. -/
def transformed (c : Dev nD) : S100000x128.Idx → EReal :=
  fun i => entry V c ⟨(i 0).val, idx2_lt0 i⟩ ⟨(i 1).val, idx2_lt1 i⟩

/-- It is read at an index through the index's coordinates. -/
theorem transformed_apply (c : Dev nD) (i : S100000x128.Idx) (n : Fin 100000) (j : Fin 128) (hn : (i 0).val = n.val) (hj : (i 1).val = j.val) :
    transformed V c i = entry V c n j := by
  have e0 : (⟨(i 0).val, idx2_lt0 i⟩ : Fin 100000) = n := Fin.ext hn
  have e1 : (⟨(i 1).val, idx2_lt1 i⟩ : Fin 128) = j := Fin.ext hj
  show entry V c ⟨(i 0).val, idx2_lt0 i⟩ ⟨(i 1).val, idx2_lt1 i⟩ = _
  rw [e0, e1]

/-! ## The blocks: where each grid point's windows sit in their arrays -/

/-- The block indices, decided over the twenty grid points: the row-blocked windows (features, weight column, output)
    are at block row t, column block 0; the weight matrix is whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's feature block is row 5000 t + p of the features. -/
theorem features_block (c : Dev nD) (t : Fin cfg0.N) (p : Fin 5000) (k : Fin 128) (n : Fin 100000) (hn : n.val = 5000 * t.val + p.val) :
    (iblk0 V c 0 t : S5000x128.Idx → EReal) (ix2 p k) = (V c main_arg0 : S100000x128.Idx → EReal) (ix2 n k) := by
  obtain ⟨h0, h1, -⟩ := block_indices t
  unfold iblk0
  rw [View.read_apply]
  show (V c main_arg0 : S100000x128.Idx → EReal) _ = _
  congr 1
  funext a; apply Fin.ext
  match a with
  | ⟨0, _⟩ => show win0_0.index t (0 : Fin 2) * 5000 + 1 * p.val = n.val; rw [h0, hn]; omega
  | ⟨1, _⟩ => show win0_0.index t (1 : Fin 2) * 128 + 1 * k.val = k.val; rw [h1]; omega

/-- Every point's weight-matrix block is the whole matrix. -/
theorem matrix_block (c : Dev nD) (t : Fin cfg0.N) (k : Fin 128) (q : Fin 128) :
    (iblk0 V c 1 t : S128x128.Idx → EReal) (ix2 k q) = (V c main_arg2 : S128x128.Idx → EReal) (ix2 k q) := by
  obtain ⟨-, -, h0, h1, -⟩ := block_indices t
  unfold iblk0
  rw [View.read_apply]
  show (V c main_arg2 : S128x128.Idx → EReal) _ = _
  congr 1
  funext a; apply Fin.ext
  match a with
  | ⟨0, _⟩ => show win0_1.index t (0 : Fin 2) * 128 + 1 * k.val = k.val; rw [h0]; omega
  | ⟨1, _⟩ => show win0_1.index t (1 : Fin 2) * 128 + 1 * q.val = q.val; rw [h1]; omega

/-- Row p of point t's block of the weight column is row 5000 t + p of the column. -/
theorem weight_block (c : Dev nD) (t : Fin cfg0.N) (p : Fin 5000) (n : Fin 100000) (hn : n.val = 5000 * t.val + p.val) :
    (iblk0 V c 2 t : S5000x1.Idx → EReal) (ix2 p (0 : Fin 1)) = (V c main_v15 : S100000x1.Idx → EReal) (ix2 n (0 : Fin 1)) := by
  obtain ⟨-, -, -, -, h0, h1, -⟩ := block_indices t
  unfold iblk0
  rw [View.read_apply]
  show (V c main_v15 : S100000x1.Idx → EReal) _ = _
  congr 1
  funext a; apply Fin.ext
  match a with
  | ⟨0, _⟩ => show win0_2.index t (0 : Fin 2) * 5000 + 1 * p.val = n.val; rw [h0, hn]; omega
  | ⟨1, _⟩ => show win0_2.index t (1 : Fin 2) * 1 + 1 * 0 = 0; rw [h1]

/-! ## What a grid point writes back -/

/-- Point t writes back rows 5000 t … 5000 t + 4999 of `transformed`. -/
theorem flushed_eq (c : Dev nD) (t : Fin cfg0.N) :
    (dat0 V c).flushed 3 t = ((cfg0.win 3).blk t).view.read (Elt Ideal) (transformed V c) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets, View.ld_unit_zero (S := S5000x1) zero_offsets]
  obtain ⟨-, -, -, -, -, -, h0, h1⟩ := block_indices t
  have ht : t.val < 20 := lt_of_lt_of_eq t.isLt (show cfg0.N = 20 from N_0)
  funext y
  obtain ⟨p, q, rfl⟩ : ∃ (p : Fin 5000) (q : Fin 128), y = ix2 p q := ⟨y 0, y 1, eq_ix2 y⟩
  rw [View.read_apply]
  show (k0_pay1 (F := Ideal) (iblk0 V c 0 t) (iblk0 V c 1 t) (iblk0 V c 2 t) : S5000x128.Idx → EReal) (ix2 p q)
    = transformed V c (((cfg0.win 3).blk t).view.emb (ix2 p q))
  have hp : p.val < 5000 := p.isLt
  have e : transformed V c (((cfg0.win 3).blk t).view.emb (ix2 p q)) = entry V c ⟨5000 * t.val + p.val, by omega⟩ q :=
    transformed_apply V c _ _ _
      (show win0_3.index t (0 : Fin 2) * 5000 + 1 * p.val = 5000 * t.val + p.val by rw [h0]; omega)
      (show win0_3.index t (1 : Fin 2) * 128 + 1 * q.val = q.val by rw [h1]; omega)
  rw [e]
  refine (payload_entry (iblk0 V c 0 t) (iblk0 V c 1 t) (iblk0 V c 2 t) p q).trans ?_
  congr 1
  · refine Finset.sum_congr rfl fun k _ => ?_
    rw [features_block V c t p k ⟨5000 * t.val + p.val, by omega⟩ rfl, matrix_block V c t k q]
  · exact weight_block V c t p ⟨5000 * t.val + p.val, by omega⟩ rfl

/-! ## The blocks tile the array -/

/-- An index of the array is in point t's output block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row r is in the block of point r / 5000, which writes its block back. -/
theorem covered (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, h0, h1⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [h0, ht]; omega
  | ⟨1, _⟩ =>
    show win0_3.index t (1 : Fin 2) * 128 ≤ (i 1).val ∧ (i 1).val < win0_3.index t (1 : Fin 2) * 128 + 128
    rw [h1]; omega

/-- So the output array ends holding `transformed`. -/
theorem array_eq (c : Dev nD) : (dat0 V c).arrAt 3 cfg0.N = transformed V c :=
  (dat0 V c).arrAt_eq_of_cover 3 (transformed V c) (fun t _ => flushed_eq V c t) covered

/-- Entry (n, j) of the array region 0 leaves in its output window. -/
theorem value (c : Dev nD) (n : Fin 100000) (j : Fin 128) :
    ((dat0 V c).arrAt 3 cfg0.N : S100000x128.Idx → EReal) (ix2 n j)
      = Gcn.scaled (weight V c)
          (Gcn.lin (Gcn.arr2 (V c main_arg0 : S100000x128.Idx → EReal)) (Gcn.arr2 (V c main_arg2 : S128x128.Idx → EReal))) n j := by
  rw [array_eq V c, transformed_apply V c (ix2 n j) n j rfl rfl]
  rfl

end Cert.KernelIdeal.Region0

end
-- ==== Proof.KRegion1.lean ====
/-
  The second region's result. Each grid point takes 5000 rows of the first neighbourhood sum, finishes the first
  layer on them (the row's weight, the bias, the rectifier), multiplies by the whole second weight matrix, scales
  every row by its weight again and writes the rows back; entry (n, j) of the array the region leaves is
  `(∑ k, max (a n k * weight n + b k) 0 * w k j) * weight n`.
-/
import proofs.«407854_j1202590843008_2_alg».proof.Proof.Gen.KernelIdeal.Frame
import proofs.«407854_j1202590843008_2_alg».proof.Proof.GcnMath
import proofs.«407854_j1202590843008_2_alg».proof.Proof.GcnIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem

/- the TensorCore's buffer contents when the region is entered -/
variable (V : (c : Dev nD) → (b : Ref sig .tc) → Buf (Elt Ideal) ((c : Thread nD τ).loc b))

/-- Row `n`'s weight, read off the [100000, 1] column the region is handed. -/
abbrev weight (c : Dev nD) (n : Fin 100000) : EReal := (V c main_v15 : S100000x1.Idx → EReal) (ix2 n (0 : Fin 1))

/-! ## One block's arithmetic, entry by entry -/

/-- A column `[a, 1]` spread over `b` columns reads, at `(p, c)`, the column's entry of row `p`. -/
theorem column_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left factor of the product of a `[5000, 128]` block with a `[128, 128]` matrix is read in the row of the
    result's entry … -/
theorem left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the summation index; -/
theorem left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right factor in the row the summation index names … -/
theorem right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the column of the result's entry. -/
theorem right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a `[5000, 128]` block with a `[128, 128]` matrix, added to zero: entry `(p, q)` is row `p` of the
    block against column `q` of the matrix. -/
theorem product_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact left_row _ _
    | ⟨1, _⟩ => exact (left_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (right_row _ _).trans hk
    | ⟨1, _⟩ => exact right_col _ _)
  rw [el, er]

/-- What one grid point computes from its blocks, at entry `(p, q)`: the rectified, biased, weighted row `p` against
    column `q` of the matrix, weighted again by row `p`'s weight. -/
theorem block_apply (x0 : FVec Ideal S5000x128 .f32) (x1 : FVec Ideal S5000x1 .f32) (x2 : FVec Ideal S1x128 .f32)
    (x3 : FVec Ideal S128x128 .f32) (p : Fin 5000) (q : Fin 128) :
    (k1_pay1 (F := Ideal) x0 x1 x2 x3 x1 : S5000x128.Idx → EReal) (ix2 p q)
      = (∑ k : Fin 128, max (x0 (ix2 p k) * x1 (ix2 p (0 : Fin 1)) + x2 (ix2 (0 : Fin 1) k)) 0 * x3 (ix2 k q))
          * x1 (ix2 p (0 : Fin 1)) := by
  unfold k1_pay1
  rw [mulf_apply, column_spread_apply, shapeCast_self, product_apply]
  have hzero : Scalar.ofBits (F := Ideal) .f32 0x00000000#32 = (0 : EReal) := Ideal.ofBits_zero_f32
  simp only [truncf_apply, maximumf_apply, addf_apply, mulf_apply, column_spread_apply, broadcastTo_1b_ab_apply,
    shapeCast_self, broadcast_apply, hzero]

/-! ## The whole array, as one function of the four arrays the region reads -/

/-- Entry `(n, j)`: row `n` of `a`, weighted, biased and rectified, against column `j` of `w`, weighted again. -/
def entry (a : S100000x128.Idx → EReal) (d : S100000x1.Idx → EReal) (b : S1x128.Idx → EReal)
    (w : S128x128.Idx → EReal) (n : Fin 100000) (j : Fin 128) : EReal :=
  (∑ k : Fin 128, max (a (ix2 n k) * d (ix2 n (0 : Fin 1)) + b (ix2 (0 : Fin 1) k)) 0 * w (ix2 k j)) * d (ix2 n (0 : Fin 1))

/-- The array of those entries. -/
def result (a : S100000x128.Idx → EReal) (d : S100000x1.Idx → EReal) (b : S1x128.Idx → EReal)
    (w : S128x128.Idx → EReal) : S100000x128.Idx → EReal :=
  fun i => entry a d b w ⟨(i 0).val, idx2_lt0 i⟩ ⟨(i 1).val, idx2_lt1 i⟩

/-! ## From the blocks to the array -/

theorem zero_offsets : (![0, 0] : Fin 2 → Nat) = fun _ => 0 := funext fun a => by fin_cases a <;> rfl

/-- Where the grid points' blocks lie: the blocks of rows move with the output's, 5000 rows a point; the bias row and
    the matrix are whole at every point; the output's 20 blocks stay inside the array. -/
theorem block_places : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 19 ∧ win1_4.index t (1 : Fin 2) = 0 :=
  (by decide +kernel : ∀ t : Fin grid1.N, _)

/-- Every one of the 20 blocks of rows is some point's. -/
theorem block_of_rows : ∀ r : Fin 20, ∃ t : Fin cfg1.N, win1_4.index t = ![r.val, 0] :=
  (by decide +kernel : ∀ r : Fin 20, ∃ t : Fin grid1.N, win1_4.index t = ![r.val, 0])

/-- Row `p` of point `t`'s block of the neighbourhood sum is row `n` of the array, `n` = 5000 × the block + `p`. -/
theorem rows_block (c : Dev nD) (t : Fin cfg1.N) (p : Fin 5000) (k : Fin 128) (n : Fin 100000)
    (hn : n.val = win1_4.index t (0 : Fin 2) * 5000 + p.val) :
    (iblk1 V c 0 t : S5000x128.Idx → EReal) (ix2 p k) = (V c main_v20 : S100000x128.Idx → EReal) (ix2 n k) := by
  obtain ⟨e0, e1, -⟩ := block_places t
  unfold iblk1
  show (V c main_v20 : S100000x128.Idx → EReal) (((cfg1.win 0).blk t).view.emb (ix2 p k)) = _
  refine congrArg (V c main_v20 : S100000x128.Idx → EReal) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- Row `p` of point `t`'s block of the weights is row `n` of the column. -/
theorem weights_block (c : Dev nD) (t : Fin cfg1.N) (p : Fin 5000) (n : Fin 100000)
    (hn : n.val = win1_4.index t (0 : Fin 2) * 5000 + p.val) :
    (iblk1 V c 1 t : S5000x1.Idx → EReal) (ix2 p (0 : Fin 1)) = (V c main_v15 : S100000x1.Idx → EReal) (ix2 n (0 : Fin 1)) := by
  obtain ⟨-, -, e0, e1, -⟩ := block_places t
  unfold iblk1
  show (V c main_v15 : S100000x1.Idx → EReal) (((cfg1.win 1).blk t).view.emb (ix2 p (0 : Fin 1))) = _
  refine congrArg (V c main_v15 : S100000x1.Idx → EReal) (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

/-- The bias row's block is the whole row at every point. -/
theorem bias_block (c : Dev nD) (t : Fin cfg1.N) (k : Fin 128) :
    (iblk1 V c 2 t : S1x128.Idx → EReal) (ix2 (0 : Fin 1) k) = (V c main_v21 : S1x128.Idx → EReal) (ix2 (0 : Fin 1) k) := by
  obtain ⟨-, -, -, -, e0, e1, -⟩ := block_places t
  unfold iblk1
  show (V c main_v21 : S1x128.Idx → EReal) (((cfg1.win 2).blk t).view.emb (ix2 (0 : Fin 1) k)) = _
  refine congrArg (V c main_v21 : S1x128.Idx → EReal) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The matrix's block is the whole matrix at every point. -/
theorem matrix_block (c : Dev nD) (t : Fin cfg1.N) (k : Fin 128) (q : Fin 128) :
    (iblk1 V c 3 t : S128x128.Idx → EReal) (ix2 k q) = (V c main_arg4 : S128x128.Idx → EReal) (ix2 k q) := by
  obtain ⟨-, -, -, -, -, -, e0, e1, -⟩ := block_places t
  unfold iblk1
  show (V c main_arg4 : S128x128.Idx → EReal) (((cfg1.win 3).blk t).view.emb (ix2 k q)) = _
  refine congrArg (V c main_arg4 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What point `t` writes back is its 5000 rows of `result` of the arrays the region finds. -/
theorem written_eq (c : Dev nD) (t : Fin cfg1.N) :
    (dat1 V c).flushed 4 t = ((cfg1.win 4).blk t).view.read (Elt Ideal)
      (result (V c main_v20) (V c main_v15) (V c main_v21) (V c main_arg4)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  obtain ⟨-, -, -, -, -, -, -, -, e0, e1⟩ := block_places t
  funext y
  obtain ⟨p, q, rfl⟩ : ∃ (p : Fin 5000) (q : Fin 128), y = ix2 p q := ⟨y 0, y 1, eq_ix2 y⟩
  have hlt : win1_4.index t (0 : Fin 2) * 5000 + p.val < 100000 := by have := p.isLt; omega
  show (k1_pay1 (F := Ideal) (iblk1 V c 0 t) (iblk1 V c 1 t) (iblk1 V c 2 t) (iblk1 V c 3 t) (iblk1 V c 1 t) : S5000x128.Idx → EReal) (ix2 p q)
    = result (V c main_v20) (V c main_v15) (V c main_v21) (V c main_arg4) (((cfg1.win 4).blk t).view.emb (ix2 p q))
  refine (block_apply (iblk1 V c 0 t) (iblk1 V c 1 t) (iblk1 V c 2 t) (iblk1 V c 3 t) p q).trans ?_
  have hr : result (V c main_v20) (V c main_v15) (V c main_v21) (V c main_arg4) (((cfg1.win 4).blk t).view.emb (ix2 p q))
      = entry (V c main_v20) (V c main_v15) (V c main_v21) (V c main_arg4) ⟨win1_4.index t (0 : Fin 2) * 5000 + p.val, hlt⟩ q := by
    unfold result
    congr 1
    · refine Fin.ext ?_
      show win1_4.index t (0 : Fin 2) * 5000 + 1 * p.val = win1_4.index t (0 : Fin 2) * 5000 + p.val
      omega
    · refine Fin.ext ?_
      show win1_4.index t (1 : Fin 2) * 128 + 1 * q.val = q.val
      omega
  rw [hr, weights_block V c t p ⟨win1_4.index t (0 : Fin 2) * 5000 + p.val, hlt⟩ rfl]
  unfold entry
  refine congrArg (· * _) (Finset.sum_congr rfl fun k _ => ?_)
  rw [rows_block V c t p k ⟨win1_4.index t (0 : Fin 2) * 5000 + p.val, hlt⟩ rfl, bias_block V c t k, matrix_block V c t k q]

/-- An index of the array is in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v22).slice (win1_4.rect t)).set ↔ _
  rw [View.set_slice_whole, Rect.mem_set_unit]
  exact Iff.rfl

/-- Every entry of the array is written: row `r` by the point whose block is `r / 5000`. -/
theorem all_written (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  obtain ⟨t, ht⟩ := block_of_rows ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array the region leaves is `result` of the arrays it finds. -/
theorem array_eq (c : Dev nD) :
    (dat1 V c).arrAt 4 cfg1.N = result (V c main_v20) (V c main_v15) (V c main_v21) (V c main_arg4) :=
  (dat1 V c).arrAt_eq_of_cover 4 (result (V c main_v20) (V c main_v15) (V c main_v21) (V c main_arg4))
    (fun t _ => written_eq V c t) all_written

/-- Entry (n, j) of the array region 1 leaves in its output window. -/
theorem value (c : Dev nD) (n : Fin 100000) (j : Fin 128) :
    ((dat1 V c).arrAt 4 cfg1.N : S100000x128.Idx → EReal) (ix2 n j)
      = Gcn.scaled (weight V c)
          (Gcn.lin
            (Gcn.finish (weight V c) (Gcn.arr2 (V c main_v20 : S100000x128.Idx → EReal))
              (fun k : Fin 128 => (V c main_v21 : S1x128.Idx → EReal) (ix2 (0 : Fin 1) k)))
            (Gcn.arr2 (V c main_arg4 : S128x128.Idx → EReal))) n j := by
  refine (congrFun (array_eq V c) (ix2 n j)).trans ?_
  unfold result entry Gcn.scaled Gcn.lin Gcn.finish Gcn.arr2
  rfl

end Cert.KernelIdeal.Region1

end
-- ==== Proof.KRegion2.lean ====
/-
  The third region's result. Each grid point takes 5000 rows of the second neighbourhood sum, finishes the second
  layer on them, multiplies by the classifier matrix, adds the classifier bias and takes each row's softmax
  (shifted by the row's maximum); entry (n, c) of the array the region leaves is that softmax.
-/
import proofs.«407854_j1202590843008_2_alg».proof.Proof.Gen.KernelIdeal.Frame
import proofs.«407854_j1202590843008_2_alg».proof.Proof.GcnMath
import proofs.«407854_j1202590843008_2_alg».proof.Proof.GcnIndex
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem

/- the TensorCore's buffer contents when the region is entered -/
variable (V : (c : Dev nD) → (b : Ref sig .tc) → Buf (Elt Ideal) ((c : Thread nD τ).loc b))

/-- Row `n`'s weight, read off the [100000, 1] column the region is handed. -/
abbrev weight (c : Dev nD) (n : Fin 100000) : EReal := (V c main_v15 : S100000x1.Idx → EReal) (ix2 n (0 : Fin 1))

/-! ## Layout operations the body uses, read at an index -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two row reductions of the softmax -/

/-- The index a reduction over the second axis inserts: row `p`, column `k`. -/
theorem lift_row (p : Fin 5000) (k : Fin 16) :
    reduces_S5000x16_S5000.lift (ix1 p) k = ix2 p k := by
  funext a; apply Fin.ext; fin_cases a <;> rfl

/-- A row's maximum: the fold of `max` from −∞ over the row's 16 entries. -/
theorem rowMax_apply (v : FVec Ideal S5000x16 .f32) (p : Fin 5000) :
    multiReduction (F := Ideal) .maximumf [1] S5000 v 0xFF800000#32 reduces_S5000x16_S5000 (.inl rfl) rfl (ix1 p)
      = (Finset.univ : Finset (Fin 16)).fold max ⊥ (fun k => v (ix2 p k)) := by
  refine (Ideal.multiReduction_maximumf_single v 0xFF800000#32 reduces_S5000x16_S5000 (.inl rfl) rfl (ix1 p)).trans ?_
  have hb : (FloatOps.ofBits .f32 0xFF800000#32 : Ideal .f32) = ⊥ := by
    show Ideal.ofBits .f32 0xFF800000#32 = ⊥
    simp [Ideal.ofBits, Ideal.ieee]
  have hf : (v ∘ reduces_S5000x16_S5000.lift (ix1 p)) = fun k : Fin 16 => v (ix2 p k) :=
    funext fun k => congrArg v (lift_row p k)
  rw [hb]
  exact congrArg (fun f : Fin 16 → EReal => Finset.fold max ⊥ f (Finset.univ : Finset (Fin 16))) hf

/-- A row's sum over its 16 entries. -/
theorem rowSum_apply (v : FVec Ideal S5000x16 .f32) (p : Fin 5000) :
    multiReduction (F := Ideal) .add [1] S5000 v 0x00000000#32 reduces_S5000x16_S5000 (.inl rfl) rfl (ix1 p)
      = ∑ k : Fin 16, v (ix2 p k) := by
  refine (Ideal.multiReduction_add_single v 0x00000000#32 reduces_S5000x16_S5000 (.inl rfl) rfl (ix1 p)).trans ?_
  exact Finset.sum_congr rfl fun k _ => congrArg v (lift_row p k)

/-! ## The classifier product: row `p` of the hidden block against column `q` of the classifier matrix -/

theorem lhs_classifier_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_classifier_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_classifier_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_classifier_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The product into a zero accumulator, at entry `(p, q)`: the sum over the 128 hidden columns. -/
theorem classifier_matmul_apply (l : FVec Ideal S5000x128 .bf16) (r : FVec Ideal S128x16 .bf16) (p : Fin 5000) (q : Fin 16) :
    matmul dot_S5000x128_S128x16_S5000x16_1_0_0_1_n_n none l r (constant (F := Ideal) S5000x16 .f32 0x00000000#32) (ix2 p q)
      = ∑ k : Fin 128, l (ix2 p k) * r (ix2 k q) := by
  refine (Ideal.matmul_constant_zero_apply dot_S5000x128_S128x16_S5000x16_1_0_0_1_n_n none l r (ix2 p q)).trans ?_
  rw [← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact lhs_classifier_0 _ _
    | ⟨1, _⟩ => exact (lhs_classifier_1 _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (rhs_classifier_0 _ _).trans hk
    | ⟨1, _⟩ => exact rhs_classifier_1 _ _)
  rw [el, er]

/-! ## The body's arithmetic, in three stages, each read at an index -/

/-- The second layer finished on a block: each row times its weight, plus the bias, rectified. -/
def hiddenVec (x0 : Vec Ideal S5000x128 .f32) (x1 : Vec Ideal S5000x1 .f32) (x2 : Vec Ideal S1x128 .f32) : FVec Ideal S5000x128 .f32 :=
  maximumf (addf (mulf (shapeCast S5000x128 x0 shapeCasts_S5000x128_S5000x128) (broadcastTo S5000x128 (shapeCast S5000x1 x1 shapeCasts_S5000x1_S5000x1) broadcasts_S5000x1_S5000x128)) (broadcastTo S5000x128 (shapeCast S1x128 x2 shapeCasts_S1x128_S1x128) broadcasts_S1x128_S5000x128)) (broadcast S5000x128 (Scalar.ofBits .f32 0x00000000#32))

theorem hiddenVec_apply (x0 : Vec Ideal S5000x128 .f32) (x1 : Vec Ideal S5000x1 .f32) (x2 : Vec Ideal S1x128 .f32) (p : Fin 5000) (k : Fin 128) :
    hiddenVec x0 x1 x2 (ix2 p k) = max (x0 (ix2 p k) * x1 (ix2 p (0 : Fin 1)) + x2 (ix2 (0 : Fin 1) k)) 0 := by
  unfold hiddenVec
  rw [maximumf_apply, addf_apply, mulf_apply, broadcast_apply, shapeCast_self, shapeCast_self, shapeCast_self,
    broadcastTo_a1_ab_apply, broadcastTo_1b_ab_apply]
  show max _ (Ideal.ofBits .f32 0x00000000#32) = _
  rw [Ideal.ofBits_zero_f32]

/-- The classifier's logits on a block: the hidden rows against the classifier matrix, plus the classifier bias. -/
def logitsVec (x0 : Vec Ideal S5000x128 .f32) (x1 : Vec Ideal S5000x1 .f32) (x2 : Vec Ideal S1x128 .f32) (x3 : Vec Ideal S128x16 .f32) (x4 : Vec Ideal S1x16 .f32) : FVec Ideal S5000x16 .f32 :=
  addf (matmul dot_S5000x128_S128x16_S5000x16_1_0_0_1_n_n none (truncf .bf16 (hiddenVec x0 x1 x2) bitsLt_bf16_f32) (truncf .bf16 x3 bitsLt_bf16_f32) (constant S5000x16 .f32 0x00000000#32)) (broadcastTo S5000x16 (shapeCast S1x16 x4 shapeCasts_S1x16_S1x16) broadcasts_S1x16_S5000x16)

theorem logitsVec_apply (x0 : Vec Ideal S5000x128 .f32) (x1 : Vec Ideal S5000x1 .f32) (x2 : Vec Ideal S1x128 .f32) (x3 : Vec Ideal S128x16 .f32) (x4 : Vec Ideal S1x16 .f32) (p : Fin 5000) (q : Fin 16) :
    logitsVec x0 x1 x2 x3 x4 (ix2 p q)
      = (∑ k : Fin 128, max (x0 (ix2 p k) * x1 (ix2 p (0 : Fin 1)) + x2 (ix2 (0 : Fin 1) k)) 0 * x3 (ix2 k q)) + x4 (ix2 (0 : Fin 1) q) := by
  unfold logitsVec
  rw [addf_apply, classifier_matmul_apply, shapeCast_self, broadcastTo_1b_ab_apply]
  refine congrArg (· + x4 (ix2 (0 : Fin 1) q)) (Finset.sum_congr rfl fun k _ => ?_)
  rw [truncf_apply, truncf_apply, hiddenVec_apply]

/-- A row's maximum, spread back over the row. -/
def rowMaxSpread (L : FVec Ideal S5000x16 .f32) : FVec Ideal S5000x16 .f32 :=
  broadcastTo S5000x16 (shapeCast S5000x1 (multiReduction .maximumf [1] S5000 L 0xFF800000#32 reduces_S5000x16_S5000 (.inl rfl) rfl) shapeCasts_S5000_S5000x1) broadcasts_S5000x1_S5000x16

theorem rowMaxSpread_apply (L : FVec Ideal S5000x16 .f32) (p : Fin 5000) (q : Fin 16) :
    rowMaxSpread L (ix2 p q) = (Finset.univ : Finset (Fin 16)).fold max ⊥ (fun k => L (ix2 p k)) :=
  (broadcastTo_a1_ab_apply _ _ p q).trans ((shapeCast_a_a1_apply _ _ p 0).trans (rowMax_apply L p))

/-- A row's sum, spread back over the row. -/
def rowSumSpread (E : FVec Ideal S5000x16 .f32) : FVec Ideal S5000x16 .f32 :=
  broadcastTo S5000x16 (shapeCast S5000x1 (multiReduction .add [1] S5000 E 0x00000000#32 reduces_S5000x16_S5000 (.inl rfl) rfl) shapeCasts_S5000_S5000x1) broadcasts_S5000x1_S5000x16

theorem rowSumSpread_apply (E : FVec Ideal S5000x16 .f32) (p : Fin 5000) (q : Fin 16) :
    rowSumSpread E (ix2 p q) = ∑ k : Fin 16, E (ix2 p k) :=
  (broadcastTo_a1_ab_apply _ _ p q).trans ((shapeCast_a_a1_apply _ _ p 0).trans (rowSum_apply E p))

/-- Each row's softmax, shifted by the row's maximum. -/
def softmaxVec (L : FVec Ideal S5000x16 .f32) : FVec Ideal S5000x16 .f32 :=
  divf (exp (subf L (rowMaxSpread L))) (rowSumSpread (exp (subf L (rowMaxSpread L))))

theorem softmaxVec_apply (L : FVec Ideal S5000x16 .f32) (p : Fin 5000) (q : Fin 16) :
    softmaxVec L (ix2 p q) = Gcn.softmaxRow (fun c' : Fin 16 => L (ix2 p c')) q := by
  have he : ∀ k : Fin 16, exp (subf L (rowMaxSpread L)) (ix2 p k)
      = Ideal.exp (L (ix2 p k) - (Finset.univ : Finset (Fin 16)).fold max ⊥ (fun k => L (ix2 p k))) := fun k => by
    show FloatOps.exp (subf L (rowMaxSpread L) (ix2 p k)) = _
    rw [Ideal.exp_def, subf_apply, rowMaxSpread_apply]
  unfold softmaxVec Gcn.softmaxRow
  rw [divf_apply, rowSumSpread_apply, he q]
  exact congrArg (Ideal.div _) (Finset.sum_congr rfl fun k _ => he k)

/-- The body's payload is those three stages. -/
theorem pay_eq (x0 : Vec Ideal S5000x128 .f32) (x1 : Vec Ideal S5000x1 .f32) (x2 : Vec Ideal S1x128 .f32) (x3 : Vec Ideal S128x16 .f32) (x4 : Vec Ideal S1x16 .f32) :
    k2_pay1 (F := Ideal) x0 x1 x2 x3 x4 = softmaxVec (logitsVec x0 x1 x2 x3 x4) := rfl

/-- The logits of row `p` of a block, from the block's entries. -/
def blockLogit (x0 : Vec Ideal S5000x128 .f32) (x1 : Vec Ideal S5000x1 .f32) (x2 : Vec Ideal S1x128 .f32) (x3 : Vec Ideal S128x16 .f32) (x4 : Vec Ideal S1x16 .f32)
    (p : Fin 5000) (q : Fin 16) : EReal :=
  (∑ k : Fin 128, max (x0 (ix2 p k) * x1 (ix2 p (0 : Fin 1)) + x2 (ix2 (0 : Fin 1) k)) 0 * x3 (ix2 k q)) + x4 (ix2 (0 : Fin 1) q)

/-- THE PAYLOAD AT AN INDEX: entry `(p, q)` is the softmax of row `p`'s logits at `q`. -/
theorem pay_apply (x0 : Vec Ideal S5000x128 .f32) (x1 : Vec Ideal S5000x1 .f32) (x2 : Vec Ideal S1x128 .f32) (x3 : Vec Ideal S128x16 .f32) (x4 : Vec Ideal S1x16 .f32)
    (p : Fin 5000) (q : Fin 16) :
    k2_pay1 (F := Ideal) x0 x1 x2 x3 x4 (ix2 p q) = Gcn.softmaxRow (blockLogit x0 x1 x2 x3 x4 p) q := by
  rw [pay_eq, softmaxVec_apply]
  exact congrArg (Gcn.softmaxRow · q) (funext fun c' => logitsVec_apply x0 x1 x2 x3 x4 p c')

/-! ## From blocks to the array -/

theorem hz : (![0, 0] : Fin 2 → Nat) = fun _ => 0 := funext fun a => by fin_cases a <;> rfl

/-- The printed index maps, decided over the grid: the three windows cut in 5000-row blocks (the neighbourhood sum,
    the weights, the output) are at block row `t` at point `t`; the three whole-array windows are at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block of the neighbourhood sum is row `5000 t + p` of the array. -/
theorem blk0_apply (c : Dev nD) (t : Fin cfg2.N) (p : Fin 5000) (k : Fin 128) (n : Fin 100000) (hn : n.val = t.val * 5000 + p.val) :
    (iblk2 V c 0 t : Vec Ideal S5000x128 .f32) (ix2 p k) = (V c main_v26 : S100000x128.Idx → EReal) (ix2 n k) := by
  obtain ⟨e0, e1, -⟩ := idx_facts t
  show (V c main_v26 : S100000x128.Idx → EReal) (((cfg2.win 0).blk t).view.emb (ix2 p k)) = _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- Row `p` of point `t`'s block of the weights is row `5000 t + p` of the column. -/
theorem blk1_apply (c : Dev nD) (t : Fin cfg2.N) (p : Fin 5000) (n : Fin 100000) (hn : n.val = t.val * 5000 + p.val) :
    (iblk2 V c 1 t : Vec Ideal S5000x1 .f32) (ix2 p (0 : Fin 1)) = (V c main_v15 : S100000x1.Idx → EReal) (ix2 n (0 : Fin 1)) := by
  obtain ⟨-, -, e0, e1, -⟩ := idx_facts t
  show (V c main_v15 : S100000x1.Idx → EReal) (((cfg2.win 1).blk t).view.emb (ix2 p (0 : Fin 1))) = _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 1 + 1 * 0 = 0; rw [e1]

/-- The bias window's block is the whole bias row, at every point. -/
theorem blk2_apply (c : Dev nD) (t : Fin cfg2.N) (k : Fin 128) :
    (iblk2 V c 2 t : Vec Ideal S1x128 .f32) (ix2 (0 : Fin 1) k) = (V c main_v27 : S1x128.Idx → EReal) (ix2 (0 : Fin 1) k) := by
  obtain ⟨-, -, -, -, e0, e1, -⟩ := idx_facts t
  show (V c main_v27 : S1x128.Idx → EReal) (((cfg2.win 2).blk t).view.emb (ix2 (0 : Fin 1) k)) = _
  congr 1
  funext a
  apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

/-- The classifier matrix's block is the whole matrix, at every point. -/
theorem blk3_apply (c : Dev nD) (t : Fin cfg2.N) (k : Fin 128) (q : Fin 16) :
    (iblk2 V c 3 t : Vec Ideal S128x16 .f32) (ix2 k q) = (V c main_arg6 : S128x16.Idx → EReal) (ix2 k q) := by
  obtain ⟨-, -, -, -, -, -, e0, e1, -⟩ := idx_facts t
  show (V c main_arg6 : S128x16.Idx → EReal) (((cfg2.win 3).blk t).view.emb (ix2 k q)) = _
  congr 1
  funext a
  apply Fin.ext
  match a with
  | ⟨0, _⟩ => show win2_3.index t (0 : Fin 2) * 128 + 1 * k.val = k.val; rw [e0]; omega
  | ⟨1, _⟩ => show win2_3.index t (1 : Fin 2) * 16 + 1 * q.val = q.val; rw [e1]; omega

/-- The classifier bias's block is the whole bias row, at every point. -/
theorem blk4_apply (c : Dev nD) (t : Fin cfg2.N) (q : Fin 16) :
    (iblk2 V c 4 t : Vec Ideal S1x16 .f32) (ix2 (0 : Fin 1) q) = (V c main_v28 : S1x16.Idx → EReal) (ix2 (0 : Fin 1) q) := by
  obtain ⟨-, -, -, -, -, -, -, -, e0, e1, -⟩ := idx_facts t
  show (V c main_v28 : S1x16.Idx → EReal) (((cfg2.win 4).blk t).view.emb (ix2 (0 : Fin 1) q)) = _
  congr 1
  funext a
  apply Fin.ext
  match a with
  | ⟨0, _⟩ => show win2_4.index t (0 : Fin 2) * 1 + 1 * 0 = 0; rw [e0]
  | ⟨1, _⟩ => show win2_4.index t (1 : Fin 2) * 16 + 1 * q.val = q.val; rw [e1]; omega

/-- The payload on blocks that are rows of five arrays: entry `(p, q)` is the classifier on the finished second
    layer at the array row `n` that block row `p` is. -/
theorem entry_of_blocks (x0 : Vec Ideal S5000x128 .f32) (x1 : Vec Ideal S5000x1 .f32) (x2 : Vec Ideal S1x128 .f32) (x3 : Vec Ideal S128x16 .f32) (x4 : Vec Ideal S1x16 .f32)
    (A0 : S100000x128.Idx → EReal) (A1 : S100000x1.Idx → EReal) (A2 : S1x128.Idx → EReal) (A3 : S128x16.Idx → EReal) (A4 : S1x16.Idx → EReal)
    (p : Fin 5000) (n : Fin 100000)
    (h0 : ∀ k : Fin 128, x0 (ix2 p k) = A0 (ix2 n k)) (h1 : x1 (ix2 p (0 : Fin 1)) = A1 (ix2 n (0 : Fin 1)))
    (h2 : ∀ k : Fin 128, x2 (ix2 (0 : Fin 1) k) = A2 (ix2 (0 : Fin 1) k)) (h3 : ∀ (k : Fin 128) (q : Fin 16), x3 (ix2 k q) = A3 (ix2 k q))
    (h4 : ∀ q : Fin 16, x4 (ix2 (0 : Fin 1) q) = A4 (ix2 (0 : Fin 1) q)) (q : Fin 16) :
    k2_pay1 (F := Ideal) x0 x1 x2 x3 x4 (ix2 p q)
      = Gcn.classify (Gcn.finish (fun n : Fin 100000 => A1 (ix2 n (0 : Fin 1))) (Gcn.arr2 A0) (fun k : Fin 128 => A2 (ix2 (0 : Fin 1) k)))
          (Gcn.arr2 A3) (fun k : Fin 16 => A4 (ix2 (0 : Fin 1) k)) n q := by
  rw [pay_apply]
  unfold Gcn.classify
  refine congrArg (Gcn.softmaxRow · q) (funext fun c' => ?_)
  unfold blockLogit Gcn.lin Gcn.finish Gcn.arr2
  rw [h4 c']
  refine congrArg (· + A4 (ix2 (0 : Fin 1) c')) (Finset.sum_congr rfl fun k _ => ?_)
  rw [h0 k, h1, h2 k, h3 k c']

/-- The classifier on the finished second layer, as a function of the row and the class. -/
def classified (c : Dev nD) : Fin 100000 → Fin 16 → EReal :=
  Gcn.classify
    (Gcn.finish (weight V c) (Gcn.arr2 (V c main_v26 : S100000x128.Idx → EReal))
      (fun k : Fin 128 => (V c main_v27 : S1x128.Idx → EReal) (ix2 (0 : Fin 1) k)))
    (Gcn.arr2 (V c main_arg6 : S128x16.Idx → EReal))
    (fun k : Fin 16 => (V c main_v28 : S1x16.Idx → EReal) (ix2 (0 : Fin 1) k))

/-- The array the region leaves: that function at an index's two coordinates. -/
def result (c : Dev nD) : S100000x16.Idx → EReal := fun i => classified V c ⟨(i 0).val, idx2_lt0 i⟩ ⟨(i 1).val, idx2_lt1 i⟩

/-- Entry `j` of what point `t` leaves in the output's staging buffer is `result` where the block's entry `j` sits. -/
theorem writeBack_entry (c : Dev nD) (t : Fin cfg2.N) (j : S5000x16.Idx) :
    k2_pay1 (F := Ideal) (iblk2 V c 0 t) (iblk2 V c 1 t) (iblk2 V c 2 t) (iblk2 V c 3 t) (iblk2 V c 4 t) j
      = result V c (((cfg2.win 5).blk t).view.emb j) := by
  obtain ⟨p, q, rfl⟩ : ∃ (p : Fin 5000) (q : Fin 16), j = ix2 p q := ⟨j 0, j 1, eq_ix2 j⟩
  obtain ⟨-, -, -, -, -, -, -, -, -, -, e0, e1⟩ := idx_facts t
  have hN : grid2.N = 20 := N_2
  have ht : t.val < grid2.N := t.isLt
  have hp : p.val < 5000 := p.isLt
  have hrow : t.val * 5000 + p.val < 100000 := by rw [hN] at ht; omega
  have key : k2_pay1 (F := Ideal) (iblk2 V c 0 t) (iblk2 V c 1 t) (iblk2 V c 2 t) (iblk2 V c 3 t) (iblk2 V c 4 t) (ix2 p q)
      = classified V c ⟨t.val * 5000 + p.val, hrow⟩ q :=
    entry_of_blocks (iblk2 V c 0 t) (iblk2 V c 1 t) (iblk2 V c 2 t) (iblk2 V c 3 t) (iblk2 V c 4 t)
      (V c main_v26) (V c main_v15) (V c main_v27) (V c main_arg6) (V c main_v28) p ⟨t.val * 5000 + p.val, hrow⟩
      (fun k => blk0_apply V c t p k ⟨t.val * 5000 + p.val, hrow⟩ rfl) (blk1_apply V c t p ⟨t.val * 5000 + p.val, hrow⟩ rfl)
      (fun k => blk2_apply V c t k) (fun k q => blk3_apply V c t k q) (fun q => blk4_apply V c t q) q
  refine key.trans (congrArg₂ (classified V c) (Fin.ext ?_) (Fin.ext ?_))
  · show t.val * 5000 + p.val = win2_5.index t (0 : Fin 2) * 5000 + 1 * p.val
    rw [e0]; omega
  · show q.val = win2_5.index t (1 : Fin 2) * 16 + 1 * q.val
    rw [e1]; omega

/-- WHAT POINT `t` WRITES BACK is block `t` of `result`. -/
theorem writeBack_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S1x128) hz,
    View.ld_unit_zero (S := S128x16) hz, View.ld_unit_zero (S := S1x16) hz]
  funext j
  exact writeBack_entry V c t j

/-- An index of the array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v29).slice (win2_5.rect t)).set ↔ _
  rw [View.set_slice_whole, Rect.mem_set_unit]
  exact Iff.rfl

/-- Every index of the array is in the block of the point its row names: row `r` is in block `r / 5000`. -/
theorem covered (i : S100000x16.Idx) :
    ∃ t : Fin cfg2.N, (cfg2.win 5).flush t = true ∧ i ∈ ((cfg2.win 5).blk t).view.set := by
  have hi0 : (i 0).val < 100000 := idx2_lt0 i
  have hi1 : (i 1).val < 16 := idx2_lt1 i
  have hN : grid2.N = 20 := N_2
  have ht : (i 0).val / 5000 < grid2.N := by rw [hN]; omega
  obtain ⟨-, -, -, -, -, -, -, -, -, -, e0, e1⟩ := idx_facts ⟨(i 0).val / 5000, ht⟩
  have htv : (⟨(i 0).val / 5000, ht⟩ : Fin cfg2.N).val = (i 0).val / 5000 := rfl
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0, htv]; omega
  | ⟨1, _⟩ =>
    show win2_5.index ⟨(i 0).val / 5000, ht⟩ (1 : Fin 2) * 16 ≤ (i 1).val ∧ (i 1).val < win2_5.index ⟨(i 0).val / 5000, ht⟩ (1 : Fin 2) * 16 + 16
    rw [e1]; omega

/-- THE ARRAY after the run is `result`: every point writes its block of it back, and the blocks cover the array. -/
theorem final (c : Dev nD) : (dat2 V c).arrAt 5 cfg2.N = result V c :=
  (dat2 V c).arrAt_eq_of_cover 5 (result V c) (fun t _ => writeBack_eq V c t) covered

/-- Entry (n, c') of the array region 2 leaves in its output window. -/
theorem value (c : Dev nD) (n : Fin 100000) (c' : Fin 16) :
    ((dat2 V c).arrAt 5 cfg2.N : S100000x16.Idx → EReal) (ix2 n c')
      = Gcn.classify
          (Gcn.finish (weight V c) (Gcn.arr2 (V c main_v26 : S100000x128.Idx → EReal))
            (fun k : Fin 128 => (V c main_v27 : S1x128.Idx → EReal) (ix2 (0 : Fin 1) k)))
          (Gcn.arr2 (V c main_arg6 : S128x16.Idx → EReal))
          (fun k : Fin 16 => (V c main_v28 : S1x16.Idx → EReal) (ix2 (0 : Fin 1) k)) n c' := by
  exact congrFun (final V c) (ix2 n c')

end Cert.KernelIdeal.Region2

end
-- ==== Proof.KKeep.lean ====
/-
  What the regions are handed besides the neighbourhood sums: the weights as a [100000, 1] column (a reshape of the
  weight vector, untouched from the first region's entry to the last's), each bias as a [1, k] row (a reshape of
  the bias argument), and the weight matrices (arguments nothing writes).
-/
import proofs.«407854_j1202590843008_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Keep

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edges' source words as the host builds them before the first region. -/
abbrev srcW (c : Dev nD) : S1700000.Idx → BitVec 32 := W3 m ρ c (Proc.devRef .tc main_v3)
/-- The edges' target words as the host builds them before the first region. -/
abbrev dstW (c : Dev nD) : S1700000.Idx → BitVec 32 := W3 m ρ c (Proc.devRef .tc main_v6)
/-- The rows' weights as the host computes them before the first region. -/
abbrev dinv (c : Dev nD) (n : Fin 100000) : EReal := (W3 m ρ c (Proc.devRef .tc main_v14) : S100000.Idx → EReal) (ix1 n)

/-! ## A buffer no operation of a stretch writes -/

/-- No operation of the named stretch writes the buffer: each operation's result buffer is another reference. -/
local macro "unwritten " s:ident : tactic =>
  `(tactic| (refine List.forall_iff_forall_mem.mp ?_
             simp only [$s:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## A reshape read at an index -/

/-- A vector reshaped to a one-column matrix: entry (n, 0) of the column is entry n of the vector. -/
theorem column_apply {α : Type} {a : ℕ} (x : (⟨1, ![a]⟩ : Shape).Idx → α) (h : (⟨1, ![a]⟩ : Shape).ShapeCasts ⟨2, ![a, 1]⟩)
    (n : Fin a) : shapeCast ⟨2, ![a, 1]⟩ x h (ix2 n (0 : Fin 1)) = x (ix1 n) :=
  shapeCast_apply x h _ _ (by
    rw [Shape.rowMajor_val_two, Shape.rowMajor_val_one]
    show n.val = n.val * 1 + 0
    omega)

/-! ## The weight column -/

/-- The reshape that ends the host's prologue: the column it writes, at (n, 0), is the weight vector at n, over
    any contents before it. -/
theorem column_after (W : Valuation τ sig (Elt Ideal)) (n : Fin 100000) :
    (StableHlo.after hostOps0_2 W (Proc.devRef .tc main_v15) : S100000x1.Idx → EReal) (ix2 n (0 : Fin 1))
      = (StableHlo.after hostOps0_2 W (Proc.devRef .tc main_v14) : S100000.Idx → EReal) (ix1 n) := by
  have e15 : (StableHlo.after hostOps0_2 W (Proc.devRef .tc main_v15) : S100000x1.Idx → EReal)
      = fun i => shapeCast S100000x1 (W (Proc.devRef .tc main_v14) : S100000.Idx → EReal) shapeCasts_S100000_S100000x1 i := by
    after_results; rfl
  have e14 : StableHlo.after hostOps0_2 W (Proc.devRef .tc main_v14) = W (Proc.devRef .tc main_v14) :=
    StableHlo.after_of_forall_not_mem (b := Proc.devRef .tc main_v14) _ _ (by unwritten hostOps0_2)
  rw [e15, e14]
  exact column_apply _ _ n

/-- At the first region's entry the weight column holds the weights. -/
theorem weight3 (c : Dev nD) (n : Fin 100000) :
    (V3 m ρ c main_v15 : S100000x1.Idx → EReal) (ix2 n (0 : Fin 1)) = dinv m ρ c n :=
  column_after (W2 m ρ c) n

/-- The weight column is carried unchanged from the first region's entry to the second's: the first region reads
    it through an input window and the host operations between write other buffers. -/
theorem column_6_3 (c : Dev nD) : W6 m ρ c (Proc.devRef .tc main_v15) = W3 m ρ c (Proc.devRef .tc main_v15) :=
  calc W6 m ρ c (Proc.devRef .tc main_v15)
    _ = W5 m ρ c (Proc.devRef .tc main_v15) := StableHlo.after_of_forall_not_mem (b := Proc.devRef .tc main_v15) _ _ (by unwritten hostOps1_1)
    _ = W4 m ρ c (Proc.devRef .tc main_v15) := StableHlo.after_of_forall_not_mem (b := Proc.devRef .tc main_v15) _ _ (by unwritten hostOps1)
    _ = W3 m ρ c (Proc.devRef .tc main_v15) := (W4_arr m ρ c 2).trans (((dat0 (V3 m ρ) c).arrAt_in 2 rfl _).trans (A_eq0 (V3 m ρ) c 2))

/-- The weight column is carried unchanged from the second region's entry to the third's: the second region reads
    it through an input window and the host operations between write other buffers. -/
theorem column_9_6 (c : Dev nD) : W9 m ρ c (Proc.devRef .tc main_v15) = W6 m ρ c (Proc.devRef .tc main_v15) :=
  calc W9 m ρ c (Proc.devRef .tc main_v15)
    _ = W8 m ρ c (Proc.devRef .tc main_v15) := StableHlo.after_of_forall_not_mem (b := Proc.devRef .tc main_v15) _ _ (by unwritten hostOps2_1)
    _ = W7 m ρ c (Proc.devRef .tc main_v15) := StableHlo.after_of_forall_not_mem (b := Proc.devRef .tc main_v15) _ _ (by unwritten hostOps2)
    _ = W6 m ρ c (Proc.devRef .tc main_v15) := (W7_arr m ρ c 1).trans (((dat1 (V6 m ρ) c).arrAt_in 1 rfl _).trans (A_eq1 (V6 m ρ) c 1))

/-- At the second region's entry the weight column holds the weights. -/
theorem weight6 (c : Dev nD) (n : Fin 100000) :
    (V6 m ρ c main_v15 : S100000x1.Idx → EReal) (ix2 n (0 : Fin 1)) = dinv m ρ c n := by
  have h : (V6 m ρ c main_v15 : S100000x1.Idx → EReal) = V3 m ρ c main_v15 := column_6_3 m ρ c
  rw [h]
  exact weight3 m ρ c n
/-- At the third region's entry the weight column holds the weights. -/
theorem weight9 (c : Dev nD) (n : Fin 100000) :
    (V9 m ρ c main_v15 : S100000x1.Idx → EReal) (ix2 n (0 : Fin 1)) = dinv m ρ c n := by
  have h : (V9 m ρ c main_v15 : S100000x1.Idx → EReal) = V6 m ρ c main_v15 := column_9_6 m ρ c
  rw [h]
  exact weight6 m ρ c n

/-! ## The argument buffers: nothing writes one -/

/-- The node features and the first weight matrix at the first region's entry are the arguments. -/
theorem arg0_3 (c : Dev nD) : V3 m ρ c main_arg0 = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (by unwritten hostOps0_2)
    _ = W1 m ρ c (Proc.devRef .tc main_arg0) := StableHlo.after_of_forall_not_mem (b := Proc.devRef .tc main_arg0) _ _ (by unwritten hostOps0_1)
    _ = W0 m ρ c (Proc.devRef .tc main_arg0) := StableHlo.after_of_forall_not_mem (b := Proc.devRef .tc main_arg0) _ _ (by unwritten hostOps0)
    _ = m ((c : Thread nD τ).loc main_arg0) := rfl
theorem arg2_3 (c : Dev nD) : V3 m ρ c main_arg2 = m ((c.tc : Thread nD τ).loc main_arg2) :=
  calc W3 m ρ c (Proc.devRef .tc main_arg2)
    _ = W2 m ρ c (Proc.devRef .tc main_arg2) := StableHlo.after_of_forall_not_mem (b := Proc.devRef .tc main_arg2) _ _ (by unwritten hostOps0_2)
    _ = W1 m ρ c (Proc.devRef .tc main_arg2) := StableHlo.after_of_forall_not_mem (b := Proc.devRef .tc main_arg2) _ _ (by unwritten hostOps0_1)
    _ = W0 m ρ c (Proc.devRef .tc main_arg2) := StableHlo.after_of_forall_not_mem (b := Proc.devRef .tc main_arg2) _ _ (by unwritten hostOps0)
    _ = m ((c : Thread nD τ).loc main_arg2) := rfl
/-- The second weight matrix at the second region's entry is the argument. -/
theorem arg4_6 (c : Dev nD) : V6 m ρ c main_arg4 = m ((c.tc : Thread nD τ).loc main_arg4) :=
  calc W6 m ρ c (Proc.devRef .tc main_arg4)
    _ = W5 m ρ c (Proc.devRef .tc main_arg4) := StableHlo.after_of_forall_not_mem (b := Proc.devRef .tc main_arg4) _ _ (by unwritten hostOps1_1)
    _ = W4 m ρ c (Proc.devRef .tc main_arg4) := StableHlo.after_of_forall_not_mem (b := Proc.devRef .tc main_arg4) _ _ (by unwritten hostOps1)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by unwritten hostOps0_2)
    _ = W1 m ρ c (Proc.devRef .tc main_arg4) := StableHlo.after_of_forall_not_mem (b := Proc.devRef .tc main_arg4) _ _ (by unwritten hostOps0_1)
    _ = W0 m ρ c (Proc.devRef .tc main_arg4) := StableHlo.after_of_forall_not_mem (b := Proc.devRef .tc main_arg4) _ _ (by unwritten hostOps0)
    _ = m ((c : Thread nD τ).loc main_arg4) := rfl
/-- The classifier matrix at the third region's entry is the argument. -/
theorem arg6_9 (c : Dev nD) : V9 m ρ c main_arg6 = m ((c.tc : Thread nD τ).loc main_arg6) :=
  calc W9 m ρ c (Proc.devRef .tc main_arg6)
    _ = W10 m ρ c (Proc.devRef .tc main_arg6) := ((W10_arr m ρ c 3).trans (((dat2 (V9 m ρ) c).arrAt_in 3 rfl _).trans (A_eq2 (V9 m ρ) c 3))).symm
    _ = m ((c : Thread nD τ).loc main_arg6) := W10_main_arg6 m ρ c

/-- The first bias argument, just before the host reshapes it for the second region, is the launch memory's. -/
theorem arg3_5 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (by unwritten hostOps1)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (by unwritten hostOps0_2)
    _ = W1 m ρ c (Proc.devRef .tc main_arg3) := StableHlo.after_of_forall_not_mem (b := Proc.devRef .tc main_arg3) _ _ (by unwritten hostOps0_1)
    _ = W0 m ρ c (Proc.devRef .tc main_arg3) := StableHlo.after_of_forall_not_mem (b := Proc.devRef .tc main_arg3) _ _ (by unwritten hostOps0)
    _ = m ((c : Thread nD τ).loc main_arg3) := rfl
/-- The second bias argument, just before the host reshapes it for the third region, is the launch memory's. -/
theorem arg5_8 (c : Dev nD) : W8 m ρ c (Proc.devRef .tc main_arg5) = m ((c : Thread nD τ).loc main_arg5) :=
  calc W8 m ρ c (Proc.devRef .tc main_arg5)
    _ = W9 m ρ c (Proc.devRef .tc main_arg5) := (StableHlo.after_of_forall_not_mem (b := Proc.devRef .tc main_arg5) _ _ (by unwritten hostOps2_1)).symm
    _ = W10 m ρ c (Proc.devRef .tc main_arg5) := (W10_of_ne m ρ c main_arg5 (by decide)).symm
    _ = m ((c : Thread nD τ).loc main_arg5) := W10_main_arg5 m ρ c
/-- The classifier's bias argument, just before the host reshapes it for the third region, is the launch memory's. -/
theorem arg7_8 (c : Dev nD) : W8 m ρ c (Proc.devRef .tc main_arg7) = m ((c : Thread nD τ).loc main_arg7) :=
  calc W8 m ρ c (Proc.devRef .tc main_arg7)
    _ = W9 m ρ c (Proc.devRef .tc main_arg7) := (StableHlo.after_of_forall_not_mem (b := Proc.devRef .tc main_arg7) _ _ (by unwritten hostOps2_1)).symm
    _ = W10 m ρ c (Proc.devRef .tc main_arg7) := (W10_of_ne m ρ c main_arg7 (by decide)).symm
    _ = m ((c : Thread nD τ).loc main_arg7) := W10_main_arg7 m ρ c

/-! ## The biases as rows -/

/-- The reshape that ends the host stretch before the second region: the row it writes, at (0, k), is the first
    bias argument at k, over any contents before the stretch. -/
theorem row1_after (W : Valuation τ sig (Elt Ideal)) (k : Fin 128) :
    (StableHlo.after hostOps1_1 W (Proc.devRef .tc main_v21) : S1x128.Idx → EReal) (ix2 (0 : Fin 1) k)
      = (W (Proc.devRef .tc main_arg3) : S128.Idx → EReal) (ix1 k) := by
  have e : (StableHlo.after hostOps1_1 W (Proc.devRef .tc main_v21) : S1x128.Idx → EReal)
      = fun i => shapeCast S1x128 (W (Proc.devRef .tc main_arg3) : S128.Idx → EReal) shapeCasts_S128_S1x128 i := by
    after_results; rfl
  rw [e]
  exact shapeCast_a_1a_apply _ _ (0 : Fin 1) k
/-- The last reshape but one of the host stretch before the third region: the row it writes, at (0, k), is the
    second bias argument at k, over any contents before the stretch. -/
theorem row2_after (W : Valuation τ sig (Elt Ideal)) (k : Fin 128) :
    (StableHlo.after hostOps2_1 W (Proc.devRef .tc main_v27) : S1x128.Idx → EReal) (ix2 (0 : Fin 1) k)
      = (W (Proc.devRef .tc main_arg5) : S128.Idx → EReal) (ix1 k) := by
  have e : (StableHlo.after hostOps2_1 W (Proc.devRef .tc main_v27) : S1x128.Idx → EReal)
      = fun i => shapeCast S1x128 (W (Proc.devRef .tc main_arg5) : S128.Idx → EReal) shapeCasts_S128_S1x128 i := by
    after_results; rfl
  rw [e]
  exact shapeCast_a_1a_apply _ _ (0 : Fin 1) k
/-- The last reshape of the host stretch before the third region: the row it writes, at (0, k), is the
    classifier's bias argument at k, over any contents before the stretch. -/
theorem rowl_after (W : Valuation τ sig (Elt Ideal)) (k : Fin 16) :
    (StableHlo.after hostOps2_1 W (Proc.devRef .tc main_v28) : S1x16.Idx → EReal) (ix2 (0 : Fin 1) k)
      = (W (Proc.devRef .tc main_arg7) : S16.Idx → EReal) (ix1 k) := by
  have e : (StableHlo.after hostOps2_1 W (Proc.devRef .tc main_v28) : S1x16.Idx → EReal)
      = fun i => shapeCast S1x16 (W (Proc.devRef .tc main_arg7) : S16.Idx → EReal) shapeCasts_S16_S1x16 i := by
    after_results; rfl
  rw [e]
  exact shapeCast_a_1a_apply _ _ (0 : Fin 1) k

/-- The first bias as the second region is handed it: the argument as a row. -/
theorem bias1 (c : Dev nD) (k : Fin 128) :
    (V6 m ρ c main_v21 : S1x128.Idx → EReal) (ix2 (0 : Fin 1) k)
      = (m ((c.tc : Thread nD τ).loc main_arg3) : S128.Idx → EReal) (ix1 k) := by
  have h : (W5 m ρ c (Proc.devRef .tc main_arg3) : S128.Idx → EReal) = m ((c.tc : Thread nD τ).loc main_arg3) := arg3_5 m ρ c
  rw [← h]
  exact row1_after (W5 m ρ c) k
/-- The second bias as the third region is handed it: the argument as a row. -/
theorem bias2 (c : Dev nD) (k : Fin 128) :
    (V9 m ρ c main_v27 : S1x128.Idx → EReal) (ix2 (0 : Fin 1) k)
      = (m ((c.tc : Thread nD τ).loc main_arg5) : S128.Idx → EReal) (ix1 k) := by
  have h : (W8 m ρ c (Proc.devRef .tc main_arg5) : S128.Idx → EReal) = m ((c.tc : Thread nD τ).loc main_arg5) := arg5_8 m ρ c
  rw [← h]
  exact row2_after (W8 m ρ c) k
/-- The classifier's bias as the third region is handed it: the argument as a row. -/
theorem biasl (c : Dev nD) (k : Fin 16) :
    (V9 m ρ c main_v28 : S1x16.Idx → EReal) (ix2 (0 : Fin 1) k)
      = (m ((c.tc : Thread nD τ).loc main_arg7) : S16.Idx → EReal) (ix1 k) := by
  have h : (W8 m ρ c (Proc.devRef .tc main_arg7) : S16.Idx → EReal) = m ((c.tc : Thread nD τ).loc main_arg7) := arg7_8 m ρ c
  rw [← h]
  exact rowl_after (W8 m ρ c) k

end Cert.KernelIdeal.Keep

end
-- ==== Proof.LibScatter.lean ====
/-
  A reading of the host's accumulating float scatter at an index, at the ideal values, for any extents.

  `scatterAdd_rows`: whole rows of an [E, C] array of updates added into an [N, C] operand at the rows an [E, 1] column
  of ids names (what `operand.at[ids].add(updates)`, a segment sum, lowers to): entry (n, c) of the result is the
  operand's entry plus the sum, over the updates `e` whose id read as a SIGNED word is exactly `n`, of `updates (e, c)`.
  The id is not clamped: an update whose id names no row is dropped.
-/
import Idealize.ShloMosaic.PureOps.Ideal
import Idealize.ShloMosaic.PureOps.Dims
import Idealize.ShloMosaic.Lib.ValueIdx

namespace IndexOpsLib

open Idealize.ShloMosaic Idealize.ShloMosaic.ValueIdx

/-- An update lands at operand index `i` exactly when, on every axis, the signed start plus the window coordinate is
    `i`'s coordinate: being inside the operand is then automatic, and outside it no index is hit. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases hall : ∀ a, 0 ≤ d.start j idx a + d.window j a ∧ d.start j idx a + d.window j a < s.size a
  · rw [dif_pos hall]
    constructor
    · intro h a
      have hf := Option.some.inj h
      rw [← hf]
      have := (hall a).1
      show d.start j idx a + (d.window j a : ℤ) = (((d.start j idx a + (d.window j a : ℤ)).toNat : ℕ) : ℤ)
      omega
    · intro h
      congr 1
      funext a
      apply Fin.ext
      show (d.start j idx a + (d.window j a : ℤ)).toNat = (i a).val
      rw [h a]
      exact Int.toNat_natCast _
  · rw [dif_neg hall]
    constructor
    · intro h
      exact absurd h (by simp)
    · intro h
      exfalso
      apply hall
      intro a
      rw [h a]
      have hlt : ((i a).val : ℤ) < (s.size a : ℤ) := by exact_mod_cast (i a).isLt
      exact ⟨by omega, hlt⟩

/-- Where update (e, c) lands: at (n, c) when its id, read signed, is the row number `n`; nowhere otherwise. -/
theorem resultIdx?_rows {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : ℤ) ∧ c = c' := by
  -- a scatter axis of the updates is not their window axis 1, so it is axis 0, where the update index holds e
  have hscat : ∀ X : Fin 2, X ∈ d.uScatter → ((ix2 e c : (⟨2, ![E, C]⟩ : Shape).Idx) X).val = e.val := by
    intro X hX
    have hX' : X ∉ d.updateWindowDims := by
      have := (List.mem_filter.1 hX).2
      simpa using this
    rw [huw] at hX'
    match X with
    | ⟨0, _⟩ => rfl
    | ⟨1, _⟩ => exact absurd (List.mem_singleton.mpr rfl) hX'
  -- a window axis of the updates is axis 1, where the update index holds c
  have hwin : ∀ X : Fin 2, X ∈ d.updateWindowDims → ((ix2 e c : (⟨2, ![E, C]⟩ : Shape).Idx) X).val = c.val := by
    intro X hX
    rw [huw] at hX
    have hX1 : X = 1 := List.mem_singleton.mp hX
    subst hX1; rfl
  -- the operand's kept axes are the ones that are not inserted
  have hsk : ∀ a : Fin 2, a ∈ d.sKept ↔ a ∉ d.insertedWindowDims := by
    intro a
    simp [ScatterDims.sKept, Shape.kept, List.mem_filter, List.mem_finRange]
  -- operand axis 0: mapped and inserted, the start is the signed id and the window coordinate is 0
  have hs0 : d.start (ix2 e c) idx (0 : Fin 2) = (idx (ix2 e (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact hscat _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e c) (0 : Fin 2) = 0 := by
    have hk : (0 : Fin 2) ∉ d.sKept := by rw [hsk, hiw]; simp
    unfold ScatterDims.window
    rw [dif_neg hk]
  -- operand axis 1: unmapped and kept, the start is 0 and the window coordinate is the update's column
  have hs1 : d.start (ix2 e c) idx (1 : Fin 2) = 0 := by
    have hm : (1 : Fin 2) ∉ d.scatterDimsToOperandDims := by rw [hsd]; simp
    unfold ScatterDims.start
    rw [dif_neg hm]
  have hw1 : d.window (ix2 e c) (1 : Fin 2) = c.val := by
    have hk : (1 : Fin 2) ∈ d.sKept := by rw [hsk, hiw]; simp
    unfold ScatterDims.window
    rw [dif_pos hk]
    exact hwin _ (List.getElem_mem _)
  rw [resultIdx?_eq_some_iff]
  constructor
  · intro h
    have h0 := h (0 : Fin 2)
    have h1 := h (1 : Fin 2)
    rw [hs0, hw0] at h0
    rw [hs1, hw1] at h1
    refine ⟨?_, ?_⟩
    · have : (((ix2 n c' : (⟨2, ![N, C]⟩ : Shape).Idx) (0 : Fin 2)).val : ℤ) = (n.val : ℤ) := rfl
      rw [this] at h0
      omega
    · have : (((ix2 n c' : (⟨2, ![N, C]⟩ : Shape).Idx) (1 : Fin 2)).val : ℤ) = (c'.val : ℤ) := rfl
      rw [this] at h1
      apply Fin.ext
      omega
  · rintro ⟨ht, hc⟩ a
    match a with
    | ⟨0, _⟩ =>
      show d.start (ix2 e c) idx (0 : Fin 2) + (d.window (ix2 e c) (0 : Fin 2) : ℤ) = (n.val : ℤ)
      rw [hs0, hw0, ht]; simp
    | ⟨1, _⟩ =>
      show d.start (ix2 e c) idx (1 : Fin 2) + (d.window (ix2 e c) (1 : Fin 2) : ℤ) = (c'.val : ℤ)
      rw [hs1, hw1, hc]; simp

/-- Entry (n, c) of the accumulating scatter of rows. -/
theorem scatterAdd_rows {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e (0 : Fin 1))).toInt = (n.val : ℤ)), upd (ix2 e c) := by
  unfold Ideal.hostScatterAdd
  congr 1
  -- the sum over update indices is the double sum over (e, c''), each filter an if-then-else
  rw [Finset.sum_filter, sum_idx2, Finset.sum_filter]
  apply Finset.sum_congr rfl
  intro e _
  -- in row e only the column c'' = c can land at (n, c), and it does exactly when the id of e is n
  by_cases ht : (idx (ix2 e (0 : Fin 1))).toInt = (n.val : ℤ)
  · rw [if_pos ht]
    have hcol : ∀ c'' : Fin C, (d.resultIdx? (ix2 e c'') idx = some (ix2 n c)) ↔ c'' = c := fun c'' => by
      rw [resultIdx?_rows d huw hiw hsd hivd]; exact ⟨fun h => h.2, fun h => ⟨ht, h⟩⟩
    simp only [hcol]
    rw [Finset.sum_ite_eq']
    simp
  · rw [if_neg ht]
    apply Finset.sum_eq_zero
    intro c'' _
    rw [if_neg]
    rw [resultIdx?_rows d huw hiw hsd hivd]
    exact fun h => ht h.1

end IndexOpsLib
-- ==== Proof.KAgg1.lean ====
/-
  The first neighbourhood sum as the host computes it between the first two regions: it gathers the rows of the
  array the first region wrote at the source words (a word that names no row would be filled in, but every source
  word names one) and adds them into a zero array at the target words; entry (n, j) is the sum, over the edges
  whose target word is n, of entry j of the row the edge reads.
-/
import proofs.«407854_j1202590843008_2_alg».proof.Proof.Gen.KernelIdeal.Frame
import proofs.«407854_j1202590843008_2_alg».proof.Proof.GcnMath
import proofs.«407854_j1202590843008_2_alg».proof.Proof.GcnIndex
import proofs.«407854_j1202590843008_2_alg».proof.Proof.LibScatter
import proofs.«407854_j1202590843008_2_alg».proof.Proof.LibGather2
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.Agg1

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edges' source words as the host builds them before the first region. -/
abbrev srcW (c : Dev nD) : S1700000.Idx → BitVec 32 := W3 m ρ c (Proc.devRef .tc main_v3)
/-- The edges' target words as the host builds them before the first region. -/
abbrev dstW (c : Dev nD) : S1700000.Idx → BitVec 32 := W3 m ρ c (Proc.devRef .tc main_v6)
/-- The rows' weights as the host computes them before the first region. -/
abbrev dinv (c : Dev nD) (n : Fin 100000) : EReal := (W3 m ρ c (Proc.devRef .tc main_v14) : S100000.Idx → EReal) (ix1 n)

/-! ## The two stretches as functions of the table and the two vectors of words

The first stretch takes rows of a table: the source words, a negative one moved up by the table's height, laid out
as a column of row numbers; one bit per edge saying that the number lies in the table; the rows of the table at the
clamped numbers, kept where the bit is set and filled in elsewhere. The second stretch adds the rows it is handed
into a zero array at the rows the target words name. -/

/-- The column of row numbers: a negative word is moved up by the table's height, the others are kept. -/
def wrapCol (s : S1700000.Idx → BitVec 32) : S1700000x1.Idx → BitVec 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- One bit per edge: its row number is at least 0 and at most 99999 (the conjunction taken along the unit axis). -/
def rowMask (col : S1700000x1.Idx → BitVec 32) : S1700000.Idx → BitVec 1 :=
  Host.reduce IntOp.andi
    (andi (cmpi .sge col (broadcastInDim S1700000x1 ![] bcast_S_S1700000x1 (constantI S_ 32 0#32)))
      (cmpi .sle col (broadcastInDim S1700000x1 ![0, 1] bcast_S1x1_S1700000x1_0_1
        (broadcastInDim S1x1 ![1] bcast_S1_S1x1_1 (constantI S1 32 99999#32)))))
    (constantI S_ 1 1#1) reducesTo_S1700000x1_S1700000_d1 h_S_

/-- The rows of a table at a column of row numbers, kept where an edge's bit is set and filled in elsewhere. -/
def maskedRows (P : S100000x128.Idx → EReal) (col : S1700000x1.Idx → BitVec 32) (mask : S1700000.Idx → BitVec 1) :
    S1700000x128.Idx → EReal :=
  select (broadcastInDim S1700000x128 ![0] bcast_S1700000_S1700000x128_0 mask)
    (Host.gather gather_S100000x128_S1700000x1_S1700000x128_1_0_n_n_0_1_1128 P col)
    (broadcastInDim S1700000x128 ![] bcast_S_S1700000x128 (constant (F := Ideal) S_ .f32 0x7FC00000#32))

/-- The rows the first stretch hands on: one row of the table per edge, at the edge's source word. -/
def takeRows (P : S100000x128.Idx → EReal) (s : S1700000.Idx → BitVec 32) : S1700000x128.Idx → EReal :=
  maskedRows P (wrapCol s) (rowMask (wrapCol s))

/-- The segment sum: rows added into a zero array at the rows a vector of words names. -/
def segSum (t : S1700000.Idx → BitVec 32) (U : S1700000x128.Idx → EReal) : S100000x128.Idx → EReal :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 t) U

/-- The zero array the segment sum starts from. -/
def zeroRows : S100000x128.Idx → EReal :=
  broadcastInDim S100000x128 ![] bcast_S_S100000x128 (constant (F := Ideal) S_ .f32 0x00000000#32)

/-! ## Words: a word that names a row compares as its value -/

/-- A non-negative word is not below zero. -/
theorem slt_zero_eq (w : BitVec 32) (h0 : 0 ≤ w.toInt) : IntOp.cmpi .slt w 0#32 = 0#1 := by
  have hz : (0#32 : BitVec 32).toInt = 0 := by decide
  have hb : w.slt 0#32 = false := by
    simp only [BitVec.slt, hz, decide_eq_false_iff_not]; omega
  show BitVec.ofBool (w.slt 0#32) = 0#1
  rw [hb]; rfl

/-- A non-negative word is at least zero. -/
theorem sge_zero_eq (w : BitVec 32) (h0 : 0 ≤ w.toInt) : IntOp.cmpi .sge w 0#32 = 1#1 := by
  have hz : (0#32 : BitVec 32).toInt = 0 := by decide
  have hb : (0#32 : BitVec 32).sle w = true := by
    simp only [BitVec.sle, hz, decide_eq_true_eq]; exact h0
  show BitVec.ofBool ((0#32 : BitVec 32).sle w) = 1#1
  rw [hb]; rfl

/-- A word below 100000 is at most 99999. -/
theorem sle_last_eq (w : BitVec 32) (h1 : w.toInt < 100000) : IntOp.cmpi .sle w 99999#32 = 1#1 := by
  have hz : (99999#32 : BitVec 32).toInt = 99999 := by decide
  have hb : w.sle 99999#32 = true := by
    simp only [BitVec.sle, hz, decide_eq_true_eq]; omega
  show BitVec.ofBool (w.sle 99999#32) = 1#1
  rw [hb]; rfl

/-- A conjunction of set bits, taken from a set bit, is set. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

/-- The conjunction of an array of set bits along any axes, taken from a set bit, is set everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ## The layouts of the two stretches, read at an entry -/

/-- A vector laid out as a column reads, at (e, 0), the vector at e. -/
theorem col_apply {α : Type} (v : S1700000.Idx → α) (e : Fin 1700000) :
    broadcastInDim S1700000x1 ![0] bcast_S1700000_S1700000x1_0 v (ix2 e (0 : Fin 1)) = v (ix1 e) :=
  broadcastInDim_apply _ _ v _ (ix1 e) fun a => by
    match a with
    | ⟨0, _⟩ => exact (if_neg (by intro h; change (1700000 : ℕ) = 1 at h; omega)).symm

/-- A vector repeated along the 128 columns reads, at (e, j), the vector at e. -/
theorem rows_apply {α : Type} (v : S1700000.Idx → α) (e : Fin 1700000) (j : Fin 128) :
    broadcastInDim S1700000x128 ![0] bcast_S1700000_S1700000x128_0 v (ix2 e j) = v (ix1 e) :=
  broadcastInDim_apply _ _ v _ (ix1 e) fun a => by
    match a with
    | ⟨0, _⟩ => exact (if_neg (by intro h; change (1700000 : ℕ) = 1 at h; omega)).symm

/-! ## The take, when every source word names a row -/

/-- The column of row numbers holds, at (e, 0), the e-th word itself when that word is not negative. -/
theorem wrapCol_apply (s : S1700000.Idx → BitVec 32) (e : Fin 1700000) (h0 : 0 ≤ (s (ix1 e)).toInt) :
    wrapCol s (ix2 e (0 : Fin 1)) = s (ix1 e) := by
  have hc : cmpi .slt s (broadcastInDim S1700000 ![] bcast_S_S1700000 (constantI S_ 32 0#32)) (ix1 e) = 0#1 :=
    slt_zero_eq _ h0
  unfold wrapCol
  rw [col_apply, select_apply, hc, select_zero]

/-- Every edge's bit is set when every row number of the column lies in the table. -/
theorem rowMask_eq_one (col : S1700000x1.Idx → BitVec 32)
    (hcol : ∀ e : Fin 1700000, 0 ≤ (col (ix2 e (0 : Fin 1))).toInt ∧ (col (ix2 e (0 : Fin 1))).toInt < 100000)
    (e : S1700000.Idx) : rowMask col e = 1#1 := by
  unfold rowMask
  apply reduce_andi_ones
  · rfl
  intro i
  obtain ⟨e', z, rfl⟩ : ∃ (e' : Fin 1700000) (z : Fin 1), i = ix2 e' z := ⟨i 0, i 1, eq_ix2 i⟩
  obtain rfl : z = 0 := Subsingleton.elim _ _
  show IntOp.andi (IntOp.cmpi .sge (col (ix2 e' (0 : Fin 1))) 0#32)
    (IntOp.cmpi .sle (col (ix2 e' (0 : Fin 1))) 99999#32) = 1#1
  rw [sge_zero_eq _ (hcol e').1, sle_last_eq _ (hcol e').2]
  decide

/-- Where an edge's bit is set, entry (e, j) is entry j of the table's row at the edge's clamped row number. -/
theorem maskedRows_apply (P : S100000x128.Idx → EReal) (col : S1700000x1.Idx → BitVec 32)
    (mask : S1700000.Idx → BitVec 1) (e : Fin 1700000) (j : Fin 128) (hm : mask (ix1 e) = 1#1) :
    maskedRows P col mask (ix2 e j)
      = P (ix2 (IndexOpsLib.clampRow 100000 (by decide) (col (ix2 e (0 : Fin 1)))) j) := by
  unfold maskedRows
  rw [select_apply, rows_apply, hm, select_one]
  exact IndexOpsLib.gather_rows (by decide) gather_S100000x128_S1700000x1_S1700000x128_1_0_n_n_0_1_1128
    rfl rfl rfl rfl rfl P col e j

/-- Entry (e, j) of the rows handed on is entry j of the row the e-th source word names. -/
theorem takeRows_apply (P : S100000x128.Idx → EReal) (s : S1700000.Idx → BitVec 32)
    (hs : ∀ e : Fin 1700000, 0 ≤ (s (ix1 e)).toInt ∧ (s (ix1 e)).toInt < 100000) (e : Fin 1700000) (j : Fin 128) :
    takeRows P s (ix2 e j) = P (ix2 (IndexOpsLib.clampRow 100000 (by decide) (s (ix1 e))) j) := by
  have hcol : ∀ e : Fin 1700000, 0 ≤ (wrapCol s (ix2 e (0 : Fin 1))).toInt ∧ (wrapCol s (ix2 e (0 : Fin 1))).toInt < 100000 :=
    fun e => by rw [wrapCol_apply s e (hs e).1]; exact hs e
  unfold takeRows
  rw [maskedRows_apply P _ _ e j (rowMask_eq_one _ hcol _), wrapCol_apply s e (hs e).1]

/-! ## The segment sum -/

/-- The zero array holds 0 everywhere. -/
theorem zeroRows_apply (i : S100000x128.Idx) : zeroRows i = 0 := Ideal.ofBits_zero_f32

/-- The accumulating scatter of rows into any array z, at any column c of row numbers: entry (n, j) is z's entry plus
    the sum, over the edges whose number is n, of entry (e, j) of the rows. -/
theorem scatter_read (z : S100000x128.Idx → EReal) (c : S1700000x1.Idx → BitVec 32) (u : S1700000x128.Idx → EReal)
    (n : Fin 100000) (j : Fin 128) :
    Host.scatterAdd (F := Ideal) (φ := .f32) scatter_S100000x128_S1700000x1_S1700000x128_1_0_0_1 z c u (ix2 n j)
      = z (ix2 n j)
        + ∑ e ∈ Finset.univ.filter (fun e : Fin 1700000 => (c (ix2 e (0 : Fin 1))).toInt = (n.val : ℤ)), u (ix2 e j) :=
  IndexOpsLib.scatterAdd_rows scatter_S100000x128_S1700000x1_S1700000x128_1_0_0_1 rfl rfl rfl rfl z c u n j

/-- The segment sum is that scatter into the zero array at the target words laid out as a column. -/
theorem segSum_eq (t : S1700000.Idx → BitVec 32) (U : S1700000x128.Idx → EReal) :
    segSum t U = Host.scatterAdd (F := Ideal) (φ := .f32) scatter_S100000x128_S1700000x1_S1700000x128_1_0_0_1 zeroRows
      (broadcastInDim S1700000x1 ![0] bcast_S1700000_S1700000x1_0 t) U := rfl

/-- Entry (n, j) of the segment sum is the sum, over the edges whose target word is n, of entry (e, j) of the rows. -/
theorem segSum_apply (t : S1700000.Idx → BitVec 32) (U : S1700000x128.Idx → EReal) (n : Fin 100000) (j : Fin 128) :
    segSum t U (ix2 n j)
      = ∑ e ∈ Finset.univ.filter (fun e : Fin 1700000 => (t (ix1 e)).toInt = (n.val : ℤ)), U (ix2 e j) := by
  rw [segSum_eq, scatter_read, zeroRows_apply, zero_add]
  refine Finset.sum_congr (Finset.ext fun e => ?_) fun _ _ => rfl
  simp only [Finset.mem_filter, Finset.mem_univ, true_and]
  rw [col_apply]

/-- The two stretches together: the neighbourhood sum of the table's rows. -/
theorem segSum_takeRows (P : S100000x128.Idx → EReal) (s t : S1700000.Idx → BitVec 32)
    (hs : ∀ e : Fin 1700000, 0 ≤ (s (ix1 e)).toInt ∧ (s (ix1 e)).toInt < 100000) (n : Fin 100000) (j : Fin 128) :
    segSum t (takeRows P s) (ix2 n j)
      = Gcn.agg (Gcn.srcRow 100000 (by decide) s) (Gcn.tgtInt t) (Gcn.arr2 P) n j := by
  rw [segSum_apply]
  unfold Gcn.agg
  refine Finset.sum_congr (Finset.ext fun e => ?_) fun e _ => ?_
  · simp only [Finset.mem_filter, Finset.mem_univ, true_and]
    exact Iff.rfl
  · exact takeRows_apply P s hs e j

/-! ## The first stretch is the take

Its twenty-three operations in three runs, each read over the buffers it starts from: the first eight build the
column of row numbers from the source words, the next ten the edges' bits from the column, the last five the rows
from the table, the column and the bits. A run leaves alone every buffer it does not write. -/

/-- After the first eight operations the column holds the wrapped source words. -/
theorem take_col (W : Valuation τ sig (Elt Ideal)) :
    (StableHlo.after (List.take 8 (hostOps1 (F := Ideal))) W (Proc.devRef .tc main_call1_v5) : S1700000x1.Idx → BitVec 32)
      = wrapCol (W (Proc.devRef .tc main_v3)) := by
  simp only [hostOps1, List.take_succ_cons, List.take_zero]
  after_results_simp
  simp only [StableHlo.TRef.ofBuf, StableHlo.TRef.toBuf, cast_eq]
  unfold wrapCol
  rfl

/-- The first eight operations leave the table alone. -/
theorem take_col_table (W : Valuation τ sig (Elt Ideal)) :
    StableHlo.after (List.take 8 (hostOps1 (F := Ideal))) W (Proc.devRef .tc main_v16) = W (Proc.devRef .tc main_v16) := by
  simp only [hostOps1, List.take_succ_cons, List.take_zero]
  after_results_simp

/-- After the next ten operations the edges' bits are those of the column. -/
theorem take_mask (W : Valuation τ sig (Elt Ideal)) :
    (StableHlo.after (List.take 10 (List.drop 8 (hostOps1 (F := Ideal)))) W (Proc.devRef .tc main_call1_v12) : S1700000.Idx → BitVec 1)
      = rowMask (W (Proc.devRef .tc main_call1_v5)) := by
  simp only [hostOps1, List.drop_succ_cons, List.drop_zero, List.take_succ_cons, List.take_zero]
  after_results_simp
  simp only [StableHlo.TRef.ofBuf, StableHlo.TRef.toBuf, cast_eq]
  unfold rowMask
  rfl

/-- Those ten operations leave the column alone … -/
theorem take_mask_col (W : Valuation τ sig (Elt Ideal)) :
    StableHlo.after (List.take 10 (List.drop 8 (hostOps1 (F := Ideal)))) W (Proc.devRef .tc main_call1_v5)
      = W (Proc.devRef .tc main_call1_v5) := by
  simp only [hostOps1, List.drop_succ_cons, List.drop_zero, List.take_succ_cons, List.take_zero]
  after_results_simp

/-- … and the table. -/
theorem take_mask_table (W : Valuation τ sig (Elt Ideal)) :
    StableHlo.after (List.take 10 (List.drop 8 (hostOps1 (F := Ideal)))) W (Proc.devRef .tc main_v16)
      = W (Proc.devRef .tc main_v16) := by
  simp only [hostOps1, List.drop_succ_cons, List.drop_zero, List.take_succ_cons, List.take_zero]
  after_results_simp

/-- After the last five operations the result holds the table's rows at the column, masked by the bits. -/
theorem take_rows (W : Valuation τ sig (Elt Ideal)) :
    (StableHlo.after (List.drop 10 (List.drop 8 (hostOps1 (F := Ideal)))) W (Proc.devRef .tc main_v17) : S1700000x128.Idx → EReal)
      = maskedRows (W (Proc.devRef .tc main_v16)) (W (Proc.devRef .tc main_call1_v5)) (W (Proc.devRef .tc main_call1_v12)) := by
  simp only [hostOps1, List.drop_succ_cons, List.drop_zero]
  after_results_simp
  simp only [StableHlo.TRef.ofBuf, StableHlo.TRef.toBuf, cast_eq]
  unfold maskedRows
  rfl

/-- The whole first stretch: from any starting contents, its result is the take of the table at the source words. -/
theorem after_take (W : Valuation τ sig (Elt Ideal)) :
    (StableHlo.after (hostOps1 (F := Ideal)) W (Proc.devRef .tc main_v17) : S1700000x128.Idx → EReal)
      = takeRows (W (Proc.devRef .tc main_v16)) (W (Proc.devRef .tc main_v3)) := by
  have hcut : (hostOps1 (F := Ideal)) = List.take 8 (hostOps1 (F := Ideal))
      ++ (List.take 10 (List.drop 8 (hostOps1 (F := Ideal))) ++ List.drop 10 (List.drop 8 (hostOps1 (F := Ideal)))) :=
    ((List.take_append_drop 8 (hostOps1 (F := Ideal))).symm).trans
      (congrArg (List.take 8 (hostOps1 (F := Ideal)) ++ ·) (List.take_append_drop 10 (List.drop 8 (hostOps1 (F := Ideal)))).symm)
  rw [hcut, StableHlo.after_append, StableHlo.after_append, take_rows, take_mask, take_mask_col, take_mask_table,
    take_col, take_col_table]
  rfl

/-! ## The second stretch is the segment sum -/

/-- From any starting contents, the second stretch's result is the segment sum of the rows it is handed at the target
    words. -/
theorem after_seg (W : Valuation τ sig (Elt Ideal)) :
    (StableHlo.after (hostOps1_1 (F := Ideal)) W (Proc.devRef .tc main_v20) : S100000x128.Idx → EReal)
      = segSum (W (Proc.devRef .tc main_v6)) (W (Proc.devRef .tc main_v17)) := by
  after_results
  rfl

/-! ## The buffer at the second region's entry -/

/-- The first region leaves the source words alone. -/
theorem src_carried (c : Dev nD) : W4 m ρ c (Proc.devRef .tc main_v3) = W3 m ρ c (Proc.devRef .tc main_v3) :=
  W4_of_ne m ρ c main_v3 (by decide)

/-- The first region and the first stretch leave the target words alone. -/
theorem dst_carried (c : Dev nD) : W5 m ρ c (Proc.devRef .tc main_v6) = W3 m ρ c (Proc.devRef .tc main_v6) :=
  calc W5 m ρ c (Proc.devRef .tc main_v6)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- The buffer the second region reads is the segment sum, at the target words, of the take of the first region's
    array at the source words. -/
theorem entry_buffer (c : Dev nD) :
    (V6 m ρ c main_v20 : S100000x128.Idx → EReal)
      = segSum (dstW m ρ c) (takeRows (V4 m ρ c main_v16) (srcW m ρ c)) := by
  show StableHlo.after (hostOps1_1 (F := Ideal)) (W5 m ρ c) (Proc.devRef .tc main_v20) = _
  rw [after_seg, dst_carried]
  show segSum _ (StableHlo.after (hostOps1 (F := Ideal)) (W4 m ρ c) (Proc.devRef .tc main_v17)) = _
  rw [after_take, src_carried]

/-- Entry (n, j) of the first neighbourhood sum, when every source word names a row. -/
theorem agg1 (c : Dev nD)
    (hsrc : ∀ e : Fin 1700000, 0 ≤ (srcW m ρ c (ix1 e)).toInt ∧ (srcW m ρ c (ix1 e)).toInt < 100000)
    (n : Fin 100000) (j : Fin 128) :
    (V6 m ρ c main_v20 : S100000x128.Idx → EReal) (ix2 n j)
      = Gcn.agg (Gcn.srcRow 100000 (by decide) (srcW m ρ c)) (Gcn.tgtInt (dstW m ρ c))
          (Gcn.arr2 (V4 m ρ c main_v16 : S100000x128.Idx → EReal)) n j := by
  rw [entry_buffer]
  exact segSum_takeRows _ _ _ hsrc n j

end Cert.KernelIdeal.Agg1

end
-- ==== Proof.KAgg2.lean ====
/-
  The second neighbourhood sum as the host computes it between the last two regions: it gathers the rows of the
  array the second region wrote at the source words and adds them into a zero array at the target words; entry
  (n, j) is the sum, over the edges whose target word is n, of entry j of the row the edge reads.
-/
import proofs.«407854_j1202590843008_2_alg».proof.Proof.Gen.KernelIdeal.Frame
import proofs.«407854_j1202590843008_2_alg».proof.Proof.GcnMath
import proofs.«407854_j1202590843008_2_alg».proof.Proof.GcnIndex
import proofs.«407854_j1202590843008_2_alg».proof.Proof.LibScatter
import proofs.«407854_j1202590843008_2_alg».proof.Proof.LibGather2
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.Agg2

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edges' source words as the host builds them before the first region. -/
abbrev srcW (c : Dev nD) : S1700000.Idx → BitVec 32 := W3 m ρ c (Proc.devRef .tc main_v3)
/-- The edges' target words as the host builds them before the first region. -/
abbrev dstW (c : Dev nD) : S1700000.Idx → BitVec 32 := W3 m ρ c (Proc.devRef .tc main_v6)
/-- The rows' weights as the host computes them before the first region. -/
abbrev dinv (c : Dev nD) (n : Fin 100000) : EReal := (W3 m ρ c (Proc.devRef .tc main_v14) : S100000.Idx → EReal) (ix1 n)

/-! ## Words: a word that names a row compares as its value -/

/-- A word read signed as a non-negative number is not below zero. -/
theorem slt_zero_of_nonneg (w : BitVec 32) (h0 : 0 ≤ w.toInt) : IntOp.cmpi .slt w 0#32 = 0#1 := by
  show BitVec.ofBool (w.slt 0#32) = 0#1
  have hz : (0#32 : BitVec 32).toInt = 0 := by decide
  have hb : w.slt 0#32 = false := by
    simp only [BitVec.slt, hz]
    exact decide_eq_false (by omega)
  rw [hb]; rfl

/-- A word read signed as a non-negative number is at least zero. -/
theorem sge_zero_of_nonneg (w : BitVec 32) (h0 : 0 ≤ w.toInt) : IntOp.cmpi .sge w 0#32 = 1#1 := by
  show BitVec.ofBool ((0#32 : BitVec 32).sle w) = 1#1
  have hz : (0#32 : BitVec 32).toInt = 0 := by decide
  have hb : (0#32 : BitVec 32).sle w = true := by
    simp only [BitVec.sle, hz]
    exact decide_eq_true h0
  rw [hb]; rfl

/-- A word read signed as a number below 100000 is at most 99999. -/
theorem sle_last_of_lt (w : BitVec 32) (h1 : w.toInt < 100000) : IntOp.cmpi .sle w 99999#32 = 1#1 := by
  show BitVec.ofBool (w.sle 99999#32) = 1#1
  have hz : (99999#32 : BitVec 32).toInt = 99999 := by decide
  have hb : w.sle 99999#32 = true := by
    simp only [BitVec.sle, hz]
    exact decide_eq_true (by omega)
  rw [hb]; rfl

/-! ## The two stretches as functions of the table and the two word vectors -/

/-- The source words with a negative one moved up by the table's height. -/
def wrapped (src : IVec S1700000 32) : IVec S1700000 32 :=
  select (cmpi .slt src (broadcastInDim S1700000 ![] bcast_S_S1700000 (constantI S_ 32 0#32)))
    (addi src (broadcastInDim S1700000 ![] bcast_S_S1700000 (constantI S_ 32 100000#32))) src

/-- The wrapped words as a column of start ids. -/
def startCol (src : IVec S1700000 32) : IVec S1700000x1 32 :=
  broadcastInDim S1700000x1 ![0] bcast_S1700000_S1700000x1_0 (wrapped src)

/-- Per entry of the column, whether the start id lies in [0, 99999]. -/
def inTableCol (src : IVec S1700000 32) : IVec S1700000x1 1 :=
  andi (cmpi .sge (startCol src) (broadcastInDim S1700000x1 ![] bcast_S_S1700000x1 (constantI S_ 32 0#32)))
    (cmpi .sle (startCol src)
      (broadcastInDim S1700000x1 ![0, 1] bcast_S1x1_S1700000x1_0_1 (broadcastInDim S1x1 ![1] bcast_S1_S1x1_1 (constantI S1 32 99999#32))))

/-- Per edge, whether its start id lies in the table: the conjunction over the column's unit axis. -/
def inTable (src : IVec S1700000 32) : IVec S1700000 1 :=
  Host.reduce IntOp.andi (inTableCol src) (constantI S_ 1 1#1) reducesTo_S1700000x1_S1700000_d1 h_S_

/-- The rows of a table taken at the source words: the gathered row where the id lies in the table, a fixed word
    elsewhere. -/
def takeRows (P : FVec Ideal S100000x128 .f32) (src : IVec S1700000 32) : FVec Ideal S1700000x128 .f32 :=
  select (broadcastInDim S1700000x128 ![0] bcast_S1700000_S1700000x128_0 (inTable src))
    (Host.gather gather_S100000x128_S1700000x1_S1700000x128_1_0_n_n_0_1_1128 P (startCol src))
    (broadcastInDim S1700000x128 ![] bcast_S_S1700000x128 (constant (F := Ideal) S_ .f32 0x7FC00000#32))

/-- The segment sum: the rows of `U` added into a zero array at the rows the target words name. -/
def segSum (dst : IVec S1700000 32) (U : FVec Ideal S1700000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst) U

/-! ## The term at an entry, when every source word names a row -/

/-- A left fold of `and` over one-bit words that are all 1, from 1, is 1. -/
theorem foldl_andi_ones {ι : Type} (l : List ι) (g : ι → BitVec 1) (hg : ∀ i, g i = 1#1) :
    l.foldl (fun r i => IntOp.andi r (g i)) 1#1 = 1#1 := by
  have h11 : IntOp.andi (1#1) (1#1) = 1#1 := by decide
  induction l with
  | nil => rfl
  | cons a l ih => rw [List.foldl_cons, hg a, h11]; exact ih

/-- A vector as a column reads, in row e, the vector at e. -/
theorem col_apply (v : IVec S1700000 32) (e : Fin 1700000) :
    broadcastInDim S1700000x1 ![0] bcast_S1700000_S1700000x1_0 v (ix2 e (0 : Fin 1)) = v (ix1 e) := by
  simp only [broadcastInDim]
  congr 1
  funext a
  match a with
  | ⟨0, _⟩ =>
    apply Fin.ext
    split
    · next h1 => change (1700000 : Nat) = 1 at h1; exact absurd h1 (by decide)
    · rfl

/-- A mask laid along the columns reads, at (e, j), the mask at e. -/
theorem maskCols_apply (v : IVec S1700000 1) (e : Fin 1700000) (j : Fin 128) :
    broadcastInDim S1700000x128 ![0] bcast_S1700000_S1700000x128_0 v (ix2 e j) = v (ix1 e) := by
  simp only [broadcastInDim]
  congr 1
  funext a
  match a with
  | ⟨0, _⟩ =>
    apply Fin.ext
    split
    · next h1 => change (1700000 : Nat) = 1 at h1; exact absurd h1 (by decide)
    · rfl

/-- Every index of a column is (a row, 0). -/
theorem col_idx (i : S1700000x1.Idx) : ∃ e : Fin 1700000, i = ix2 e (0 : Fin 1) :=
  ⟨i 0, funext fun a => match a with
    | ⟨0, _⟩ => rfl
    | ⟨1, _⟩ => Subsingleton.elim (α := Fin 1) _ _⟩

/-- A select of gathered rows under a mask that is set everywhere: entry (e, j) is the table at the row the start id
    of e names (read signed, clamped), column j. -/
theorem take_entry (P : FVec Ideal S100000x128 .f32) (mask : IVec S1700000 1) (idx : IVec S1700000x1 32)
    (fill : FVec Ideal S1700000x128 .f32) (hmask : ∀ k, mask k = 1#1) (e : Fin 1700000) (j : Fin 128) :
    select (broadcastInDim S1700000x128 ![0] bcast_S1700000_S1700000x128_0 mask)
        (Host.gather gather_S100000x128_S1700000x1_S1700000x128_1_0_n_n_0_1_1128 P idx) fill (ix2 e j)
      = P (ix2 (IndexOpsLib.clampRow 100000 (by decide) (idx (ix2 e (0 : Fin 1)))) j) := by
  rw [select_apply, maskCols_apply, hmask, select_one,
    IndexOpsLib.gather_rows (by decide) gather_S100000x128_S1700000x1_S1700000x128_1_0_n_n_0_1_1128 rfl rfl rfl rfl rfl]

/-- The accumulating scatter of rows into any operand, at any column of ids, of any updates: entry (n, j) is the
    operand's entry plus the sum over the updates whose id, read signed, is n. -/
theorem seg_entry (z : FVec Ideal S100000x128 .f32) (col : IVec S1700000x1 32) (U : FVec Ideal S1700000x128 .f32)
    (n : Fin 100000) (j : Fin 128) :
    Host.scatterAdd (F := Ideal) (φ := .f32) scatter_S100000x128_S1700000x1_S1700000x128_1_0_0_1 z col U (ix2 n j)
      = z (ix2 n j)
        + ∑ e ∈ Finset.univ.filter (fun e : Fin 1700000 => (col (ix2 e (0 : Fin 1))).toInt = (n.val : ℤ)), U (ix2 e j) :=
  IndexOpsLib.scatterAdd_rows scatter_S100000x128_S1700000x1_S1700000x128_1_0_0_1 rfl rfl rfl rfl z col U n j

/-- The zero array reads 0 everywhere. -/
theorem zeros_apply (i : S100000x128.Idx) :
    broadcastInDim S100000x128 ![] bcast_S_S100000x128 (constant (F := Ideal) S_ .f32 0x00000000#32) i = (0 : EReal) :=
  Ideal.ofBits_zero_f32

section Rows

variable (src : IVec S1700000 32)
  (hsrc : ∀ e : Fin 1700000, 0 ≤ (src (ix1 e)).toInt ∧ (src (ix1 e)).toInt < 100000)

include hsrc

/-- The wrap leaves a word that names a row. -/
theorem wrapped_apply (e : Fin 1700000) : wrapped src (ix1 e) = src (ix1 e) := by
  have hc : IntOp.cmpi .slt (src (ix1 e)) 0#32 = 0#1 := slt_zero_of_nonneg _ (hsrc e).1
  unfold wrapped
  rw [select_apply]
  show Scalar.select (IntOp.cmpi .slt (src (ix1 e)) 0#32) _ (src (ix1 e)) = src (ix1 e)
  rw [hc]
  exact select_zero _ _

/-- The column of start ids holds, in row e, the source word of edge e. -/
theorem startCol_apply (e : Fin 1700000) : startCol src (ix2 e (0 : Fin 1)) = src (ix1 e) := by
  unfold startCol
  rw [col_apply, wrapped_apply src hsrc]

/-- Every start id lies in the table. -/
theorem inTableCol_apply (i : S1700000x1.Idx) : inTableCol src i = 1#1 := by
  obtain ⟨e, rfl⟩ := col_idx i
  have h0 : IntOp.cmpi .sge (startCol src (ix2 e (0 : Fin 1))) 0#32 = 1#1 := by
    rw [startCol_apply src hsrc]; exact sge_zero_of_nonneg _ (hsrc e).1
  have h1 : IntOp.cmpi .sle (startCol src (ix2 e (0 : Fin 1))) 99999#32 = 1#1 := by
    rw [startCol_apply src hsrc]; exact sle_last_of_lt _ (hsrc e).2
  unfold inTableCol
  show IntOp.andi (IntOp.cmpi .sge (startCol src (ix2 e (0 : Fin 1))) 0#32)
      (IntOp.cmpi .sle (startCol src (ix2 e (0 : Fin 1))) 99999#32) = 1#1
  rw [h0, h1]
  decide

/-- … so the conjunction over the unit axis is 1 at every edge. -/
theorem inTable_apply (k : S1700000.Idx) : inTable src k = 1#1 := by
  unfold inTable
  rw [Host.reduce_eq_foldl]
  exact foldl_andi_ones _ (inTableCol src) (inTableCol_apply src hsrc)

/-- Entry (e, j) of the taken rows is the table at the row the source word of e names, column j. -/
theorem takeRows_apply (P : FVec Ideal S100000x128 .f32) (e : Fin 1700000) (j : Fin 128) :
    takeRows P src (ix2 e j) = P (ix2 (IndexOpsLib.clampRow 100000 (by decide) (src (ix1 e))) j) := by
  unfold takeRows
  rw [take_entry P (inTable src) (startCol src) _ (inTable_apply src hsrc), startCol_apply src hsrc]

end Rows

/-- Entry (n, j) of the segment sum of the taken rows is the neighbourhood sum. -/
theorem segSum_takeRows (P : FVec Ideal S100000x128 .f32) (src dst : IVec S1700000 32)
    (hsrc : ∀ e : Fin 1700000, 0 ≤ (src (ix1 e)).toInt ∧ (src (ix1 e)).toInt < 100000)
    (n : Fin 100000) (j : Fin 128) :
    segSum dst (takeRows P src) (ix2 n j)
      = Gcn.agg (Gcn.srcRow 100000 (by decide) src) (Gcn.tgtInt dst) (Gcn.arr2 P) n j := by
  unfold segSum
  rw [seg_entry, zeros_apply, zero_add]
  unfold Gcn.agg
  refine Finset.sum_congr (Finset.filter_congr fun e _ => ?_) fun e _ => ?_
  · rw [col_apply]; exact Iff.rfl
  · rw [takeRows_apply src hsrc]; rfl

/-! ## What the two stretches leave, from any starting contents -/

/-- The first stretch writes the column of start ids from its source words. -/
theorem head_idx (W : Valuation τ sig (Elt Ideal)) :
    (StableHlo.after hostOps2 W (Proc.devRef .tc main_call2_v5) : IVec S1700000x1 32)
      = startCol (W (Proc.devRef .tc main_v3)) := by
  after_results_simp
  simp only [StableHlo.TRef.ofBuf, StableHlo.TRef.toBuf, cast_eq]
  rfl

/-- The first stretch writes the per-edge mask from its source words. -/
theorem head_mask (W : Valuation τ sig (Elt Ideal)) :
    (StableHlo.after hostOps2 W (Proc.devRef .tc main_call2_v12) : IVec S1700000 1)
      = inTable (W (Proc.devRef .tc main_v3)) := by
  after_results_simp
  simp only [StableHlo.TRef.ofBuf, StableHlo.TRef.toBuf, cast_eq]
  rfl

/-- The stretch's last five operations (the gather, the mask laid along the columns, the fill word, the select),
    from any contents: the select of the gathered rows under the mask. -/
theorem take_tail (W : Valuation τ sig (Elt Ideal)) :
    (StableHlo.after (List.drop 18 hostOps2) W (Proc.devRef .tc main_v23) : FVec Ideal S1700000x128 .f32)
      = select (broadcastInDim S1700000x128 ![0] bcast_S1700000_S1700000x128_0 (W (Proc.devRef .tc main_call2_v12) : IVec S1700000 1))
          (Host.gather gather_S100000x128_S1700000x1_S1700000x128_1_0_n_n_0_1_1128
            (W (Proc.devRef .tc main_v22) : FVec Ideal S100000x128 .f32) (W (Proc.devRef .tc main_call2_v5) : IVec S1700000x1 32))
          (broadcastInDim S1700000x128 ![] bcast_S_S1700000x128 (constant (F := Ideal) S_ .f32 0x7FC00000#32)) := by
  simp only [hostOps2, List.drop_succ_cons, List.drop_zero]
  after_results
  simp only [StableHlo.TRef.ofBuf, StableHlo.TRef.toBuf, cast_eq]

/-- A buffer the last five operations do not write holds, after the first eighteen, what it holds after all. -/
theorem head_eq (W : Valuation τ sig (Elt Ideal)) (b : DevRef τ sig)
    (hb : ∀ op ∈ List.drop 18 (hostOps2 : List (HloOp τ sig (Elt Ideal))), b ∉ op.writes) :
    StableHlo.after (List.take 18 hostOps2) W b = StableHlo.after hostOps2 W b := by
  have hs : StableHlo.after hostOps2 W = StableHlo.after (List.drop 18 hostOps2) (StableHlo.after (List.take 18 hostOps2) W) := by
    rw [← StableHlo.after_append, List.take_append_drop]
  rw [hs, StableHlo.after_of_forall_not_mem _ _ hb]

/-- The first stretch leaves in its output the rows of its table taken at its source words. -/
theorem take_read (W : Valuation τ sig (Elt Ideal)) :
    (StableHlo.after hostOps2 W (Proc.devRef .tc main_v23) : FVec Ideal S1700000x128 .f32)
      = takeRows (W (Proc.devRef .tc main_v22)) (W (Proc.devRef .tc main_v3)) := by
  have hs : StableHlo.after hostOps2 W = StableHlo.after (List.drop 18 hostOps2) (StableHlo.after (List.take 18 hostOps2) W) := by
    rw [← StableHlo.after_append, List.take_append_drop]
  have h12 := head_eq W (Proc.devRef .tc main_call2_v12) (List.forall_iff_forall_mem.mp (by
      simp only [hostOps2, List.drop_succ_cons, List.drop_zero, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide)))
  have h5 := head_eq W (Proc.devRef .tc main_call2_v5) (List.forall_iff_forall_mem.mp (by
      simp only [hostOps2, List.drop_succ_cons, List.drop_zero, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide)))
  have h22 := head_eq W (Proc.devRef .tc main_v22) (List.forall_iff_forall_mem.mp (by
      simp only [hostOps2, List.drop_succ_cons, List.drop_zero, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide)))
  have h22' : StableHlo.after hostOps2 W (Proc.devRef .tc main_v22) = W (Proc.devRef .tc main_v22) :=
    StableHlo.after_of_forall_not_mem (b := Proc.devRef .tc main_v22) _ _ (List.forall_iff_forall_mem.mp (by
      simp only [hostOps2, List.drop_succ_cons, List.drop_zero, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide)))
  rw [hs, take_tail, h12, h5, h22, h22', head_mask, head_idx]
  rfl

/-- The second stretch leaves in its output the segment sum of the first one's output at the target words. -/
theorem scat_read (W : Valuation τ sig (Elt Ideal)) :
    (StableHlo.after hostOps2_1 W (Proc.devRef .tc main_v26) : FVec Ideal S100000x128 .f32)
      = segSum (W (Proc.devRef .tc main_v6)) (W (Proc.devRef .tc main_v23)) := by
  after_results
  rfl

/-- Entry (n, j) of the second neighbourhood sum, when every source word names a row. -/
theorem agg2 (c : Dev nD)
    (hsrc : ∀ e : Fin 1700000, 0 ≤ (srcW m ρ c (ix1 e)).toInt ∧ (srcW m ρ c (ix1 e)).toInt < 100000)
    (n : Fin 100000) (j : Fin 128) :
    (V9 m ρ c main_v26 : S100000x128.Idx → EReal) (ix2 n j)
      = Gcn.agg (Gcn.srcRow 100000 (by decide) (srcW m ρ c)) (Gcn.tgtInt (dstW m ρ c))
          (Gcn.arr2 (V7 m ρ c main_v22 : S100000x128.Idx → EReal)) n j := by
  -- the source words are carried unchanged from the first region's entry to the second one's exit
  have h3 : W7 m ρ c (Proc.devRef .tc main_v3) = W3 m ρ c (Proc.devRef .tc main_v3) :=
    calc W7 m ρ c (Proc.devRef .tc main_v3)
      _ = W6 m ρ c (Proc.devRef .tc main_v3) := W7_of_ne m ρ c main_v3 (by decide)
      _ = W5 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W3 m ρ c (Proc.devRef .tc main_v3) := W4_of_ne m ρ c main_v3 (by decide)
  -- and the target words as far as the second stretch
  have h6 : W8 m ρ c (Proc.devRef .tc main_v6) = W3 m ρ c (Proc.devRef .tc main_v6) :=
    calc W8 m ρ c (Proc.devRef .tc main_v6)
      _ = W7 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W6 m ρ c (Proc.devRef .tc main_v6) := W7_of_ne m ρ c main_v6 (by decide)
      _ = W5 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W3 m ρ c (Proc.devRef .tc main_v6) := W4_of_ne m ρ c main_v6 (by decide)
  -- the two stretches: the segment sum of the taken rows
  have e26 : (V9 m ρ c main_v26 : FVec Ideal S100000x128 .f32)
      = segSum (W8 m ρ c (Proc.devRef .tc main_v6)) (W8 m ρ c (Proc.devRef .tc main_v23)) := scat_read (W8 m ρ c)
  have e23 : (W8 m ρ c (Proc.devRef .tc main_v23) : FVec Ideal S1700000x128 .f32)
      = takeRows (W7 m ρ c (Proc.devRef .tc main_v22)) (W7 m ρ c (Proc.devRef .tc main_v3)) := take_read (W7 m ρ c)
  rw [e26, e23, h6, h3]
  exact segSum_takeRows _ _ _ hsrc n j

end Cert.KernelIdeal.Agg2

end
-- ==== Proof.KWalk.lean ====
/-
  The idealized kernel's result as a function of its arguments.

  @main is three regions among stretches of host operations. The first stretches build, from the edge list, the two
  vectors of edge words (sources, targets: the list's two rows, each followed by 0 … 99999 for the self loops) and
  the row weights; each region's array is what `Region0` / `Region1` / `Region2` say; and between two regions the
  host gathers the rows of the array just written at the source words and adds them at the target words — the
  neighbourhood sum `Gcn.agg`, once every source word names a row (the gather then fills nothing in).
  Chaining these, the result array is `Gcn.netOutside` of the arguments.
-/
import proofs.«407854_j1202590843008_2_alg».proof.Proof.KRegion0
import proofs.«407854_j1202590843008_2_alg».proof.Proof.KRegion1
import proofs.«407854_j1202590843008_2_alg».proof.Proof.KRegion2
import proofs.«407854_j1202590843008_2_alg».proof.Proof.KKeep
import proofs.«407854_j1202590843008_2_alg».proof.Proof.KAgg1
import proofs.«407854_j1202590843008_2_alg».proof.Proof.KAgg2

set_option maxRecDepth 16384

noncomputable section

namespace Cert.KernelIdeal.HostWalk

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edges' source words as the host builds them before the first region. -/
abbrev srcW (c : Dev nD) : S1700000.Idx → BitVec 32 := W3 m ρ c (Proc.devRef .tc main_v3)
/-- The edges' target words as the host builds them before the first region. -/
abbrev dstW (c : Dev nD) : S1700000.Idx → BitVec 32 := W3 m ρ c (Proc.devRef .tc main_v6)
/-- The rows' weights as the host computes them before the first region. -/
abbrev dinv (c : Dev nD) (n : Fin 100000) : EReal := (W3 m ρ c (Proc.devRef .tc main_v14) : S100000.Idx → EReal) (ix1 n)

/-- The result array, entry by entry, when every source word names a row. -/
theorem kernel_value (c : Dev nD)
    (hsrc : ∀ e : Fin 1700000, 0 ≤ (srcW m ρ c (ix1 e)).toInt ∧ (srcW m ρ c (ix1 e)).toInt < 100000)
    (n : Fin 100000) (c' : Fin 16) :
    (W10 m ρ c (Proc.devRef .tc main_v29) : S100000x16.Idx → EReal) (ix2 n c')
      = Gcn.netOutside (Gcn.srcRow 100000 (by decide) (srcW m ρ c)) (Gcn.tgtInt (dstW m ρ c)) (dinv m ρ c)
          (Gcn.arr2 (m ((c.tc : Thread nD τ).loc main_arg0) : S100000x128.Idx → EReal))
          (Gcn.arr2 (m ((c.tc : Thread nD τ).loc main_arg2) : S128x128.Idx → EReal))
          (Gcn.arr1 (m ((c.tc : Thread nD τ).loc main_arg3) : S128.Idx → EReal))
          (Gcn.arr2 (m ((c.tc : Thread nD τ).loc main_arg4) : S128x128.Idx → EReal))
          (Gcn.arr1 (m ((c.tc : Thread nD τ).loc main_arg5) : S128.Idx → EReal))
          (Gcn.arr2 (m ((c.tc : Thread nD τ).loc main_arg6) : S128x16.Idx → EReal))
          (Gcn.arr1 (m ((c.tc : Thread nD τ).loc main_arg7) : S16.Idx → EReal)) n c' := by
  -- the weight column every region is handed holds the weights
  have hw3 : Region0.weight (V3 m ρ) c = dinv m ρ c := funext fun p => Keep.weight3 m ρ c p
  have hw6 : Region1.weight (V6 m ρ) c = dinv m ρ c := funext fun p => Keep.weight6 m ρ c p
  have hw9 : Region2.weight (V9 m ρ) c = dinv m ρ c := funext fun p => Keep.weight9 m ρ c p
  -- the biases as rows are the bias arguments
  have hb1 : (fun k : Fin 128 => (V6 m ρ c main_v21 : S1x128.Idx → EReal) (ix2 (0 : Fin 1) k))
      = Gcn.arr1 (m ((c.tc : Thread nD τ).loc main_arg3) : S128.Idx → EReal) := funext fun k => Keep.bias1 m ρ c k
  have hb2 : (fun k : Fin 128 => (V9 m ρ c main_v27 : S1x128.Idx → EReal) (ix2 (0 : Fin 1) k))
      = Gcn.arr1 (m ((c.tc : Thread nD τ).loc main_arg5) : S128.Idx → EReal) := funext fun k => Keep.bias2 m ρ c k
  have hbl : (fun k : Fin 16 => (V9 m ρ c main_v28 : S1x16.Idx → EReal) (ix2 (0 : Fin 1) k))
      = Gcn.arr1 (m ((c.tc : Thread nD τ).loc main_arg7) : S16.Idx → EReal) := funext fun k => Keep.biasl m ρ c k
  -- the first region's array: the scaled transform of the node features
  have hP1 : Gcn.arr2 (V4 m ρ c main_v16 : S100000x128.Idx → EReal)
      = Gcn.scaled (dinv m ρ c)
          (Gcn.lin (Gcn.arr2 (m ((c.tc : Thread nD τ).loc main_arg0) : S100000x128.Idx → EReal))
            (Gcn.arr2 (m ((c.tc : Thread nD τ).loc main_arg2) : S128x128.Idx → EReal))) := by
    funext p q
    have h := Region0.value (V3 m ρ) c p q
    rw [hw3, Keep.arg0_3 m ρ c, Keep.arg2_3 m ρ c] at h
    exact (congrFun (hF0 m ρ c 3).symm (ix2 p q)).trans h
  -- the first neighbourhood sum
  have hA1 : Gcn.arr2 (V6 m ρ c main_v20 : S100000x128.Idx → EReal)
      = Gcn.agg (Gcn.srcRow 100000 (by decide) (srcW m ρ c)) (Gcn.tgtInt (dstW m ρ c))
          (Gcn.arr2 (V4 m ρ c main_v16 : S100000x128.Idx → EReal)) :=
    funext fun p => funext fun q => Agg1.agg1 m ρ c hsrc p q
  -- the second region's array: the first layer finished, transformed and scaled
  have hP2 : Gcn.arr2 (V7 m ρ c main_v22 : S100000x128.Idx → EReal)
      = Gcn.scaled (dinv m ρ c)
          (Gcn.lin
            (Gcn.finish (dinv m ρ c) (Gcn.arr2 (V6 m ρ c main_v20 : S100000x128.Idx → EReal))
              (Gcn.arr1 (m ((c.tc : Thread nD τ).loc main_arg3) : S128.Idx → EReal)))
            (Gcn.arr2 (m ((c.tc : Thread nD τ).loc main_arg4) : S128x128.Idx → EReal))) := by
    funext p q
    have h := Region1.value (V6 m ρ) c p q
    rw [hw6, hb1, Keep.arg4_6 m ρ c] at h
    exact (congrFun (hF1 m ρ c 4).symm (ix2 p q)).trans h
  -- the second neighbourhood sum
  have hA2 : Gcn.arr2 (V9 m ρ c main_v26 : S100000x128.Idx → EReal)
      = Gcn.agg (Gcn.srcRow 100000 (by decide) (srcW m ρ c)) (Gcn.tgtInt (dstW m ρ c))
          (Gcn.arr2 (V7 m ρ c main_v22 : S100000x128.Idx → EReal)) :=
    funext fun p => funext fun q => Agg2.agg2 m ρ c hsrc p q
  -- the third region's array: the second layer finished, the classifier, the row softmax
  have h := Region2.value (V9 m ρ) c n c'
  rw [hw9, hb2, hbl, Keep.arg6_9 m ρ c, hA2, hP2, hA1, hP1] at h
  unfold Gcn.netOutside Gcn.layerOutside
  exact (congrFun (hF2 m ρ c 5).symm (ix2 n c')).trans h

end Cert.KernelIdeal.HostWalk

end
-- ==== Proof.RefNorm.lean ====
/-
  The reference's edge weights. Every edge is weighted by the product of two row weights, its source's and its
  target's, each looked up in the weight vector by a gather: at the source word, and at the target word with a
  negative word wrapped by the table's length, both clamped into the table. Where every source word names a row
  the first is the weight of the row the edge reads; the second is the weight of the row `dRow e`, which is the row
  the edge adds into whenever it adds anywhere. Each weight is `if 0 < deg then 1/√deg else 0`: non-negative, not +∞.
-/
import proofs.«407854_j1202590843008_2_alg».proof.Proof.RefRead
import proofs.«407854_j1202590843008_2_alg».proof.Proof.GcnMath
import proofs.«407854_j1202590843008_2_alg».proof.Proof.GcnIndex
import proofs.«407854_j1202590843008_2_alg».proof.Proof.LibScatter
import proofs.«407854_j1202590843008_2_alg».proof.Proof.LibGather2
import Idealize.ShloMosaic.Lib.StableHlo.Predicate
import Idealize.ShloMosaic.Lib.Pipeline.Value
import Idealize.ShloMosaic.Lib.ValueIdx
import Idealize.ShloMosaic.PureOps.Ideal.Laws

noncomputable section

namespace Cert.ReferenceIdeal.RefNorm

open Cert.ReferenceIdeal Cert.ReferenceIdeal.Gen Cert.ReferenceIdeal.ReadP
open Idealize.ShloMosaic Idealize.ShloMosaic.TcCoe Idealize.ShloMosaic.ValueIdx Idealize.SL.Sem

/- the argument arrays, as the generated stage functions take them -/
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x16, .f32⟩ : BufTy).Contents (Elt Ideal)) (x7 : (⟨S16, .f32⟩ : BufTy).Contents (Elt Ideal))

/-- The row an edge reads. -/
abbrev s (e : Fin 1700000) : Fin 100000 := Gcn.srcRow 100000 (by decide) (val_main_v3 (F := Ideal) x1) e
/-- The row number an edge adds into. -/
abbrev t (e : Fin 1700000) : ℤ := Gcn.tgtInt (val_main_v6 (F := Ideal) x1) e
/-- Row `n`'s weight. -/
abbrev dn (n : Fin 100000) : EReal := val_main_v14 (F := Ideal) x1 (ix1 n)

/-- The row at which an edge's TARGET weight is looked up: the target word, a negative one wrapped by the table's
    length, read signed and clamped into the table. -/
def dRow (e : Fin 1700000) : Fin 100000 :=
  IndexOpsLib.clampRow 100000 (by decide) (val_main_v26 (F := Ideal) x1 (ix1 e))

/-! ## Words: the wrap of a word that is not negative, and the weight's select -/

/-- A word whose signed value is not negative is not below the zero word, so the wrap "add the table's length to a
    negative word" keeps it. -/
theorem wrap_of_nonneg (w : BitVec 32) (h0 : 0 ≤ w.toInt) :
    Scalar.select (IntOp.cmpi .slt w 0#32) (IntOp.addi w 100000#32) w = w := by
  have hs : w.slt 0#32 = false := by
    rw [BitVec.slt, decide_eq_false_iff_not, BitVec.toInt_zero]
    omega
  have hc : IntOp.cmpi .slt w 0#32 = 0#1 := by
    show BitVec.ofBool (w.slt 0#32) = 0#1
    rw [hs]; rfl
  rw [hc, select_zero]

/-- A word whose signed value is the row number `n` clamps to row `n`. -/
theorem clampRow_of_toInt (w : BitVec 32) (n : Fin 100000) (h : w.toInt = (n.val : ℤ)) :
    IndexOpsLib.clampRow 100000 (by decide) w = n := by
  apply Fin.ext
  show min w.toInt.toNat (100000 - 1) = n.val
  rw [h, Int.toNat_natCast]
  have := n.isLt
  omega

/-- The select "the reciprocal root where the count is positive, zero elsewhere", as an `if`. -/
theorem weight_select (y : EReal) :
    Scalar.select (Ideal.cmp .ogt y 0) (Ideal.rsqrt y) (0 : EReal) = if 0 < y then Ideal.rsqrt y else 0 := by
  show (if BitVec.ofBool (decide (0 < y)) = 1 then Ideal.rsqrt y else 0) = _
  by_cases h : 0 < y
  · rw [decide_eq_true h, if_pos h]; rfl
  · rw [decide_eq_false h, if_neg h]; rfl

/-! ## The wrapped words at an edge -/

/-- The wrapped target word at an edge: the target word, the table's length added where it is negative. -/
theorem tgtWrap_apply (e : Fin 1700000) :
    val_main_v26 (F := Ideal) x1 (ix1 e)
      = Scalar.select (IntOp.cmpi .slt (val_main_v6 (F := Ideal) x1 (ix1 e)) 0#32)
          (IntOp.addi (val_main_v6 (F := Ideal) x1 (ix1 e)) 100000#32) (val_main_v6 (F := Ideal) x1 (ix1 e)) := by
  rw [val_main_v26_apply, val_main_v23_apply, val_main_v25_apply, val_main_v22_apply, val_main_v24_apply,
    val_main_c_4_apply, val_main_c_5_apply]

/-- The wrapped source word at an edge: the source word, the table's length added where it is negative. -/
theorem srcWrap_apply (e : Fin 1700000) :
    val_main_v19 (F := Ideal) x1 (ix1 e)
      = Scalar.select (IntOp.cmpi .slt (val_main_v3 (F := Ideal) x1 (ix1 e)) 0#32)
          (IntOp.addi (val_main_v3 (F := Ideal) x1 (ix1 e)) 100000#32) (val_main_v3 (F := Ideal) x1 (ix1 e)) := by
  rw [val_main_v19_apply, val_main_v16_apply, val_main_v18_apply, val_main_v15_apply, val_main_v17_apply,
    val_main_c_apply, val_main_c_3_apply]

/-! ## The take: a rank-1 table read at a column of start words -/

/-- The rank-1 index at a coordinate, in its two spellings. -/
theorem ofFin_eq_ix1 {n : Nat} (k : Fin n) : Shape.Idx.ofFin k = ix1 k := by
  funext a
  have ha : a = 0 := Subsingleton.elim _ _
  subst ha
  exact Fin.ext rfl

/-- Row `p` of a column, in its two spellings. -/
theorem ixP_eq_ix2 {n : Nat} (p : Fin n) : StableHlo.Predicate.ixP p = ix2 p (0 : Fin 1) := by
  funext a
  match a with
  | ⟨0, _⟩ => rfl
  | ⟨1, _⟩ => rfl

/-- Entry `e` of the take reads the table at the start word of row `e` of the column, read signed and clamped into
    the table. -/
theorem take_weights {α : Type} (x : S100000.Idx → α) (idx : IVec S1700000x1 32) (e : Fin 1700000) :
    Host.gather gather_S100000_S1700000x1_S1700000_n_0_n_n_0_1_1 x idx (ix1 e)
      = x (ix1 (IndexOpsLib.clampRow 100000 (by decide) (idx (ix2 e (0 : Fin 1))))) := by
  have h := StableHlo.Predicate.gather_take gather_S100000_S1700000x1_S1700000_n_0_n_n_0_1_1 rfl rfl rfl rfl x idx e
    (by decide)
  rw [ofFin_eq_ix1, ofFin_eq_ix1] at h
  refine h.trans (congrArg x (congrArg ix1 (Fin.ext ?_)))
  show min (idx (StableHlo.Predicate.ixP e)).toInt.toNat (100000 - 1) = min (idx (ix2 e (0 : Fin 1))).toInt.toNat (100000 - 1)
  rw [ixP_eq_ix2]

/-- The column of wrapped source words, at row `e`. -/
theorem srcCol_apply (e : Fin 1700000) :
    val_main_v20 (F := Ideal) x1 (ix2 e (0 : Fin 1)) = val_main_v19 (F := Ideal) x1 (ix1 e) := by
  rw [val_main_v20_apply]
  congr 1
  funext a
  match a with
  | ⟨0, _⟩ => rfl

/-- The column of wrapped target words, at row `e`. -/
theorem tgtCol_apply (e : Fin 1700000) :
    val_main_v27 (F := Ideal) x1 (ix2 e (0 : Fin 1)) = val_main_v26 (F := Ideal) x1 (ix1 e) := by
  rw [val_main_v27_apply]
  congr 1
  funext a
  match a with
  | ⟨0, _⟩ => rfl

/-- An edge that adds into row `n` has its target weight looked up at row `n`. -/
theorem dRow_of_tgt (e : Fin 1700000) (n : Fin 100000) (h : t x1 e = (n.val : ℤ)) : dRow x1 e = n := by
  have hw : (val_main_v6 (F := Ideal) x1 (ix1 e)).toInt = (n.val : ℤ) := h
  unfold dRow
  rw [tgtWrap_apply, wrap_of_nonneg _ (by rw [hw]; exact Int.natCast_nonneg _)]
  exact clampRow_of_toInt _ n hw

/-- Every weight is non-negative and not +∞. -/
theorem dn_ok (n : Fin 100000) : 0 ≤ dn x1 n ∧ dn x1 n ≠ ⊤ := by
  have h : dn x1 n = (if 0 < val_main_v10 (F := Ideal) x1 (ix1 n) then Ideal.rsqrt (val_main_v10 (F := Ideal) x1 (ix1 n)) else 0) := by
    show val_main_v14 (F := Ideal) x1 (ix1 n) = _
    rw [val_main_v14_apply, val_main_v12_apply, val_main_v13_apply, val_main_v11_apply, val_main_cst_1_apply,
      val_main_call0_v1_apply, val_main_call0_v0_apply, val_main_cst_2_apply, Ideal.cmpf_def, Ideal.ofBits_def,
      Ideal.ofBits_zero_f32, Ideal.hostUnary_rsqrt_def]
    exact weight_select _
  rw [h]
  exact Gcn.weight_nonneg_ne_top _

/-- An edge's weight is its source row's weight times its target row's, when every source word names a row. -/
theorem norm_apply (hsrc : ∀ e : Fin 1700000, 0 ≤ (val_main_v3 (F := Ideal) x1 (ix1 e)).toInt ∧ (val_main_v3 (F := Ideal) x1 (ix1 e)).toInt < 100000) (e : Fin 1700000) :
    val_main_v29 (F := Ideal) x1 (ix1 e) = dn x1 (s x1 e) * dn x1 (dRow x1 e) := by
  -- the source weight: the take at the wrapped source word, which under `hsrc` is the source word
  have h21 : val_main_v21 (F := Ideal) x1 (ix1 e) = dn x1 (s x1 e) := by
    unfold val_main_v21
    rw [take_weights, srcCol_apply, srcWrap_apply, wrap_of_nonneg _ (hsrc e).1]
    rfl
  -- the target weight: the take at the wrapped target word
  have h28 : val_main_v28 (F := Ideal) x1 (ix1 e) = dn x1 (dRow x1 e) := by
    unfold val_main_v28
    rw [take_weights, tgtCol_apply]
    rfl
  rw [val_main_v29_apply, Ideal.mulf_def, h21, h28]

end Cert.ReferenceIdeal.RefNorm

end
-- ==== Proof.RefLayer1.lean ====
/-
  The reference's first layer: the node features against the first weight matrix, the rows gathered at the source
  words, each multiplied by its edge's weight, added into a zero array at the target words, plus the bias,
  rectified. With the edges' weights given as products of two row weights this is `Gcn.layerInside`.
-/
import proofs.«407854_j1202590843008_2_alg».proof.Proof.RefRead
import proofs.«407854_j1202590843008_2_alg».proof.Proof.GcnMath
import proofs.«407854_j1202590843008_2_alg».proof.Proof.GcnIndex
import proofs.«407854_j1202590843008_2_alg».proof.Proof.LibScatter
import proofs.«407854_j1202590843008_2_alg».proof.Proof.LibGather2
import Idealize.ShloMosaic.Lib.StableHlo.Predicate
import Idealize.ShloMosaic.Lib.Pipeline.Value
import Idealize.ShloMosaic.Lib.ValueIdx
import Idealize.ShloMosaic.PureOps.Ideal.Laws

noncomputable section

namespace Cert.ReferenceIdeal.RefLayer1

open Cert.ReferenceIdeal Cert.ReferenceIdeal.Gen Cert.ReferenceIdeal.ReadP
open Idealize.ShloMosaic Idealize.ShloMosaic.TcCoe Idealize.ShloMosaic.ValueIdx Idealize.SL.Sem

/- the argument arrays, as the generated stage functions take them -/
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x16, .f32⟩ : BufTy).Contents (Elt Ideal)) (x7 : (⟨S16, .f32⟩ : BufTy).Contents (Elt Ideal))

/-- The row an edge reads. -/
abbrev s (e : Fin 1700000) : Fin 100000 := Gcn.srcRow 100000 (by decide) (val_main_v3 (F := Ideal) x1) e
/-- The row number an edge adds into. -/
abbrev t (e : Fin 1700000) : ℤ := Gcn.tgtInt (val_main_v6 (F := Ideal) x1) e
/-- Row `n`'s weight. -/
abbrev dn (n : Fin 100000) : EReal := val_main_v14 (F := Ideal) x1 (ix1 n)

/-! ### Index equations: the composed index maps at explicit coordinates -/

/-- The column index (e, 0) of a [1700000, 1] column reads its vector at e (the wrapped source words). -/
theorem idx36_col (e : Fin 1700000) : idx_main_v36 (ix2 e (0 : Fin 1)) = ix1 e :=
  funext fun a => Fin.ext (by match a with | ⟨0, _⟩ => rfl)

/-- The column index (e, 0) reads its vector at e (the edges' weights). -/
theorem idx38_col (e : Fin 1700000) : idx_main_v38 (ix2 e (0 : Fin 1)) = ix1 e :=
  funext fun a => Fin.ext (by match a with | ⟨0, _⟩ => rfl)

/-- Entry (e, j) of the weights broadcast along the columns reads the column at (e, 0). -/
theorem idx39_row (e : Fin 1700000) (j : Fin 128) : idx_main_v39 (ix2 e j) = ix2 e (0 : Fin 1) :=
  funext fun a => Fin.ext (by match a with | ⟨0, _⟩ => rfl | ⟨1, _⟩ => rfl)

/-- The column index (e, 0) reads its vector at e (the target words). -/
theorem idx42_col (e : Fin 1700000) : idx_main_v42 (ix2 e (0 : Fin 1)) = ix1 e :=
  funext fun a => Fin.ext (by match a with | ⟨0, _⟩ => rfl)

/-- Entry (0, j) of the bias as a row reads the bias at j. -/
theorem idx44_row (j : Fin 128) : idx_main_v44 (ix2 (0 : Fin 1) j) = ix1 j :=
  funext fun a => Fin.ext (by match a with | ⟨0, _⟩ => rfl)

/-- Entry (n, j) of the bias broadcast along the rows reads the row at (0, j). -/
theorem idx45_col (n : Fin 100000) (j : Fin 128) : idx_main_v45 (ix2 n j) = ix2 (0 : Fin 1) j :=
  funext fun a => Fin.ext (by match a with | ⟨0, _⟩ => rfl | ⟨1, _⟩ => rfl)

/-- The dense transform's left factor at (r, j), summand k: entry (r, k). -/
theorem lidx30_at (r : Fin 100000) (j k : Fin 128) : lidx_main_v30 (ix2 r j) k = ix2 r k :=
  funext fun a => Fin.ext (by match a with | ⟨0, _⟩ => rfl | ⟨1, _⟩ => rfl)

/-- The dense transform's right factor at (r, j), summand k: entry (k, j). -/
theorem ridx30_at (r : Fin 100000) (j k : Fin 128) : ridx_main_v30 (ix2 r j) k = ix2 k j :=
  funext fun a => Fin.ext (by match a with | ⟨0, _⟩ => rfl | ⟨1, _⟩ => rfl)

/-! ### The stages, one entry at a time -/

/-- The dense transform: entry (r, j) is row r of the features against column j of the weight matrix. -/
theorem dense_at (r : Fin 100000) (j : Fin 128) :
    val_main_v30 (F := Ideal) x0 x2 (ix2 r j) = Gcn.lin (Gcn.arr2 x0) (Gcn.arr2 x2) r j := by
  rw [val_main_v30_apply]
  unfold Gcn.lin Gcn.arr2
  refine Finset.sum_congr rfl fun k _ => ?_
  rw [lidx30_at, ridx30_at]

/-- A word that is not negative is not below zero, so the wrap keeps it. -/
theorem wrap_keeps (w : BitVec 32) (h : 0 ≤ w.toInt) :
    Scalar.select (IntOp.cmpi .slt w 0#32) (IntOp.addi w 100000#32) w = w := by
  have hc : IntOp.cmpi .slt w 0#32 = 0#1 := by
    unfold IntOp.cmpi
    have hs : w.slt 0#32 = false := by
      simp only [BitVec.slt, BitVec.toInt_zero, decide_eq_false_iff_not, not_lt]
      exact h
    rw [hs]
    rfl
  rw [hc, select_zero]

/-- The wrapped source word of an edge whose source word is not negative is the source word. -/
theorem wrapped_src (e : Fin 1700000) (h : 0 ≤ (val_main_v3 (F := Ideal) x1 (ix1 e)).toInt) :
    val_main_v35 (F := Ideal) x1 (ix1 e) = val_main_v3 (F := Ideal) x1 (ix1 e) := by
  rw [val_main_v35_apply, val_main_v32_apply, val_main_v34_apply, val_main_v31_apply, val_main_c_6_apply,
    val_main_v33_apply, val_main_c_7_apply]
  exact wrap_keeps _ h

/-- The gathered rows: entry (e, j) is the dense transform's row at the edge's source, column j. -/
theorem gathered_at (e : Fin 1700000) (j : Fin 128) (h : 0 ≤ (val_main_v3 (F := Ideal) x1 (ix1 e)).toInt) :
    val_main_v37 (F := Ideal) x0 x1 x2 (ix2 e j) = val_main_v30 (F := Ideal) x0 x2 (ix2 (s x1 e) j) := by
  have hs : s x1 e = IndexOpsLib.clampRow 100000 (by decide) (val_main_v3 (F := Ideal) x1 (ix1 e)) := rfl
  unfold val_main_v37
  rw [hs, IndexOpsLib.gather_rows (N := 100000) (C := 128) (E := 1700000) (w := 32) (by decide)
    gather_S100000x128_S1700000x1_S1700000x128_1_0_n_n_0_1_1128 rfl rfl rfl rfl rfl
    (val_main_v30 (F := Ideal) x0 x2) (val_main_v36 (F := Ideal) x1) e j,
    val_main_v36_apply, idx36_col, wrapped_src x1 e h]

/-- The edges' weights along the columns: entry (e, j) is the weight of edge e. -/
theorem weight_at (e : Fin 1700000) (j : Fin 128) :
    val_main_v39 (F := Ideal) x1 (ix2 e j) = val_main_v29 (F := Ideal) x1 (ix1 e) := by
  rw [val_main_v39_apply, idx39_row, val_main_v38_apply, idx38_col]

/-- The zero array at any index. -/
theorem zeros_at (i : S100000x128.Idx) : val_main_v41 (F := Ideal) i = (0 : EReal) := by
  rw [val_main_v41_apply, val_main_cst_8_apply, Ideal.ofBits_def, Ideal.ofBits_zero_f32]

/-- The rectifier's zero array at any index. -/
theorem relu_zeros_at (i : S100000x128.Idx) : val_main_call1_v0 (F := Ideal) i = (0 : EReal) := by
  rw [val_main_call1_v0_apply, val_main_call1_cst_apply, Ideal.ofBits_def, Ideal.ofBits_zero_f32]

/-- The bias along the rows: entry (n, j) is the bias at j. -/
theorem bias_at (n : Fin 100000) (j : Fin 128) :
    val_main_v45 (F := Ideal) x3 (ix2 n j) = Gcn.arr1 x3 j := by
  rw [val_main_v45_apply, idx45_col, val_main_v44_apply, idx44_row]
  rfl

/-- The target column at (e, 0), read signed, is the row number edge e adds into. -/
theorem target_at (e : Fin 1700000) :
    (val_main_v42 (F := Ideal) x1 (ix2 e (0 : Fin 1))).toInt = t x1 e := by
  rw [val_main_v42_apply, idx42_col]
  show (val_main_v6 (F := Ideal) x1 (ix1 e)).toInt = Gcn.tgtInt (val_main_v6 (F := Ideal) x1) e
  generalize val_main_v6 (F := Ideal) x1 = c
  rfl

/-- The accumulating scatter of rows at an entry, for any operand, column of ids and updates: the operand's entry
    plus the updates of the rows whose id, read signed, is n. -/
theorem scatter_rows_read (z : (⟨S100000x128, .f32⟩ : BufTy).Contents (Elt Ideal))
    (c : (⟨S1700000x1, .i32⟩ : BufTy).Contents (Elt Ideal)) (u : (⟨S1700000x128, .f32⟩ : BufTy).Contents (Elt Ideal))
    (n : Fin 100000) (j : Fin 128) :
    Host.scatterAdd (F := Ideal) (φ := .f32) scatter_S100000x128_S1700000x1_S1700000x128_1_0_0_1 z c u (ix2 n j)
      = z (ix2 n j)
        + ∑ e ∈ Finset.univ.filter (fun e : Fin 1700000 => (c (ix2 e (0 : Fin 1))).toInt = (n.val : ℤ)), u (ix2 e j) :=
  IndexOpsLib.scatterAdd_rows (N := 100000) (C := 128) (E := 1700000) (w := 32)
    scatter_S100000x128_S1700000x1_S1700000x128_1_0_0_1 rfl rfl rfl rfl z c u n j

/-- The accumulated array is the accumulating scatter of the weighted rows into the zero array at the target column. -/
theorem scatter_stage (n : Fin 100000) (j : Fin 128) :
    val_main_v43 (F := Ideal) x0 x1 x2 (ix2 n j)
      = Host.scatterAdd (F := Ideal) (φ := .f32) scatter_S100000x128_S1700000x1_S1700000x128_1_0_0_1
          (val_main_v41 (F := Ideal)) (val_main_v42 (F := Ideal) x1) (val_main_v40 (F := Ideal) x0 x1 x2) (ix2 n j) := by
  unfold val_main_v43
  rfl

/-- The accumulated rows: entry (n, j) is the sum, over the edges whose target word is n, of the weighted rows. -/
theorem scattered_at (n : Fin 100000) (j : Fin 128) :
    val_main_v43 (F := Ideal) x0 x1 x2 (ix2 n j)
      = ∑ e ∈ Finset.univ.filter (fun e : Fin 1700000 => t x1 e = (n.val : ℤ)),
          val_main_v40 (F := Ideal) x0 x1 x2 (ix2 e j) := by
  rw [scatter_stage, scatter_rows_read, zeros_at, zero_add]
  refine Finset.sum_congr (Finset.filter_congr fun e _ => ?_) fun e _ => rfl
  rw [target_at]

/-- A weighted row: entry (e, j) of the updates is the dense transform's row at the edge's source times the edge's
    weight, here a product of two row weights. -/
theorem update_at (d : Fin 1700000 → Fin 100000) (e : Fin 1700000) (j : Fin 128)
    (h0 : 0 ≤ (val_main_v3 (F := Ideal) x1 (ix1 e)).toInt)
    (hw : val_main_v29 (F := Ideal) x1 (ix1 e) = dn x1 (s x1 e) * dn x1 (d e)) :
    val_main_v40 (F := Ideal) x0 x1 x2 (ix2 e j)
      = Gcn.lin (Gcn.arr2 x0) (Gcn.arr2 x2) (s x1 e) j * (dn x1 (s x1 e) * dn x1 (d e)) := by
  rw [val_main_v40_apply, Ideal.mulf_def, gathered_at x0 x1 x2 e j h0, weight_at, dense_at, hw]

/-- Entry (n, j) of the first layer's output (after the bias and the rectifier), given the edges' weights. -/
theorem layer1 (hsrc : ∀ e : Fin 1700000, 0 ≤ (val_main_v3 (F := Ideal) x1 (ix1 e)).toInt ∧ (val_main_v3 (F := Ideal) x1 (ix1 e)).toInt < 100000)
    (d : Fin 1700000 → Fin 100000)
    (hnorm : ∀ e : Fin 1700000, val_main_v29 (F := Ideal) x1 (ix1 e) = dn x1 (s x1 e) * dn x1 (d e))
    (n : Fin 100000) (j : Fin 128) :
    val_main_v47 (F := Ideal) x0 x1 x2 x3 (ix2 n j)
      = Gcn.layerInside (s x1) (t x1) d (dn x1) (Gcn.arr2 x0) (Gcn.arr2 x2) (Gcn.arr1 x3) n j := by
  rw [val_main_v47_apply, val_main_v46_apply, Ideal.maximumf_def, Ideal.addf_def, relu_zeros_at, scattered_at, bias_at]
  unfold Gcn.layerInside
  rw [Finset.sum_congr rfl fun e _ => update_at x0 x1 x2 d e j (hsrc e).1 (hnorm e)]

end Cert.ReferenceIdeal.RefLayer1

end
-- ==== Proof.RefLayer2.lean ====
/-
  The reference's second layer: the first layer's output against the second weight matrix, the rows gathered at
  the source words, each multiplied by its edge's weight, added into a zero array at the target words, plus the
  bias, rectified. With the edges' weights given as products of two row weights this is `Gcn.layerInside` of the
  first layer's output.
-/
import proofs.«407854_j1202590843008_2_alg».proof.Proof.RefRead
import proofs.«407854_j1202590843008_2_alg».proof.Proof.GcnMath
import proofs.«407854_j1202590843008_2_alg».proof.Proof.GcnIndex
import proofs.«407854_j1202590843008_2_alg».proof.Proof.LibScatter
import proofs.«407854_j1202590843008_2_alg».proof.Proof.LibGather2
import Idealize.ShloMosaic.Lib.StableHlo.Predicate
import Idealize.ShloMosaic.Lib.Pipeline.Value
import Idealize.ShloMosaic.Lib.ValueIdx
import Idealize.ShloMosaic.PureOps.Ideal.Laws

noncomputable section

namespace Cert.ReferenceIdeal.RefLayer2

open Cert.ReferenceIdeal Cert.ReferenceIdeal.Gen Cert.ReferenceIdeal.ReadP
open Idealize.ShloMosaic Idealize.ShloMosaic.TcCoe Idealize.ShloMosaic.ValueIdx Idealize.SL.Sem

/- the argument arrays, as the generated stage functions take them -/
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x16, .f32⟩ : BufTy).Contents (Elt Ideal)) (x7 : (⟨S16, .f32⟩ : BufTy).Contents (Elt Ideal))

/-- The row an edge reads. -/
abbrev s (e : Fin 1700000) : Fin 100000 := Gcn.srcRow 100000 (by decide) (val_main_v3 (F := Ideal) x1) e
/-- The row number an edge adds into. -/
abbrev t (e : Fin 1700000) : ℤ := Gcn.tgtInt (val_main_v6 (F := Ideal) x1) e
/-- Row `n`'s weight. -/
abbrev dn (n : Fin 100000) : EReal := val_main_v14 (F := Ideal) x1 (ix1 n)

/-- A signed word that is not negative is not below the zero word. -/
theorem cmpi_slt_zero_of_nonneg (w : BitVec 32) (h : 0 ≤ w.toInt) : IntOp.cmpi .slt w 0#32 = 0#1 := by
  have hb : w.slt 0#32 = false := by
    unfold BitVec.slt
    rw [BitVec.toInt_zero]
    exact decide_eq_false (not_lt.2 h)
  unfold IntOp.cmpi
  show BitVec.ofBool (w.slt 0#32) = 0#1
  rw [hb]; rfl

/-- The array of zeros the sums are added into reads 0 at every entry. -/
theorem zeros_read (n : Fin 100000) (j : Fin 128) : val_main_v59 (F := Ideal) (ix2 n j) = 0 := by
  rw [val_main_v59_apply, val_main_cst_11_apply, Ideal.ofBits_def, Ideal.ofBits_zero_f32]

/-- The rectifier's array of zeros reads 0 at every entry. -/
theorem rectifier_zeros_read (n : Fin 100000) (j : Fin 128) : val_main_call2_v0 (F := Ideal) (ix2 n j) = 0 := by
  rw [val_main_call2_v0_apply, val_main_call2_cst_apply, Ideal.ofBits_def, Ideal.ofBits_zero_f32]

/-- The bias broadcast along the rows reads, at (n, j), the bias of column j. -/
theorem bias_read (n : Fin 100000) (j : Fin 128) : val_main_v63 (F := Ideal) x5 (ix2 n j) = x5 (ix1 j) := by
  have hi : idx_main_v62 (idx_main_v63 (ix2 n j)) = ix1 j :=
    funext fun a => Fin.ext (by match a with | ⟨0, _⟩ => rfl)
  rw [val_main_v63_apply, val_main_v62_apply, hi]

/-- The column of target words reads, at (e, 0), the target word of edge e. -/
theorem target_read (e : Fin 1700000) :
    val_main_v60 (F := Ideal) x1 (ix2 e (0 : Fin 1)) = val_main_v6 (F := Ideal) x1 (ix1 e) := by
  have hi : idx_main_v60 (ix2 e (0 : Fin 1)) = ix1 e :=
    funext fun a => Fin.ext (by match a with | ⟨0, _⟩ => rfl)
  rw [val_main_v60_apply, hi]

/-- The edges' weights broadcast along the columns read, at (e, j), the weight of edge e. -/
theorem weight_read (e : Fin 1700000) (j : Fin 128) :
    val_main_v57 (F := Ideal) x1 (ix2 e j) = val_main_v29 (F := Ideal) x1 (ix1 e) := by
  have hi : idx_main_v56 (idx_main_v57 (ix2 e j)) = ix1 e :=
    funext fun a => Fin.ext (by match a with | ⟨0, _⟩ => rfl)
  rw [val_main_v57_apply, val_main_v56_apply, hi]

/-- A source word that is not negative is kept by the wrap-around, so the column of wrapped source words reads, at
    (e, 0), the source word of edge e. -/
theorem wrapped_source_read (hsrc : ∀ e : Fin 1700000, 0 ≤ (val_main_v3 (F := Ideal) x1 (ix1 e)).toInt ∧ (val_main_v3 (F := Ideal) x1 (ix1 e)).toInt < 100000)
    (e : Fin 1700000) :
    val_main_v54 (F := Ideal) x1 (ix2 e (0 : Fin 1)) = val_main_v3 (F := Ideal) x1 (ix1 e) := by
  have hi : idx_main_v54 (ix2 e (0 : Fin 1)) = ix1 e :=
    funext fun a => Fin.ext (by match a with | ⟨0, _⟩ => rfl)
  rw [val_main_v54_apply, hi, val_main_v53_apply, val_main_v50_apply, val_main_v49_apply, val_main_c_9_apply,
    cmpi_slt_zero_of_nonneg _ (hsrc e).1, select_zero]

/-- Entry (m, j) of the dense transform is row m of the layer's input against column j of the weight matrix. -/
theorem lin_read (m : Fin 100000) (j : Fin 128) :
    val_main_v48 (F := Ideal) x0 x1 x2 x3 x4 (ix2 m j)
      = Gcn.lin (Gcn.arr2 (val_main_v47 (F := Ideal) x0 x1 x2 x3)) (Gcn.arr2 x4) m j := by
  rw [val_main_v48_apply]
  unfold Gcn.lin Gcn.arr2
  refine Finset.sum_congr rfl fun k _ => ?_
  have hl : lidx_main_v48 (ix2 m j) k = ix2 m k :=
    funext fun a => Fin.ext (by match a with | ⟨0, _⟩ => rfl | ⟨1, _⟩ => rfl)
  have hr : ridx_main_v48 (ix2 m j) k = ix2 k j :=
    funext fun a => Fin.ext (by match a with | ⟨0, _⟩ => rfl | ⟨1, _⟩ => rfl)
  rw [hl, hr]

/-- The gathered rows: entry (e, j) is the dense transform at the row edge e reads. -/
theorem gather_read (hsrc : ∀ e : Fin 1700000, 0 ≤ (val_main_v3 (F := Ideal) x1 (ix1 e)).toInt ∧ (val_main_v3 (F := Ideal) x1 (ix1 e)).toInt < 100000)
    (e : Fin 1700000) (j : Fin 128) :
    val_main_v55 (F := Ideal) x0 x1 x2 x3 x4 (ix2 e j) = val_main_v48 (F := Ideal) x0 x1 x2 x3 x4 (ix2 (s x1 e) j) := by
  unfold val_main_v55
  rw [IndexOpsLib.gather_rows (by decide : 0 < 100000) _ rfl rfl rfl rfl rfl, wrapped_source_read x1 hsrc e]
  rfl

/-- Entry (n, j) of the second layer's output (after the bias and the rectifier), given the edges' weights. -/
theorem layer2 (hsrc : ∀ e : Fin 1700000, 0 ≤ (val_main_v3 (F := Ideal) x1 (ix1 e)).toInt ∧ (val_main_v3 (F := Ideal) x1 (ix1 e)).toInt < 100000)
    (d : Fin 1700000 → Fin 100000)
    (hnorm : ∀ e : Fin 1700000, val_main_v29 (F := Ideal) x1 (ix1 e) = dn x1 (s x1 e) * dn x1 (d e))
    (n : Fin 100000) (j : Fin 128) :
    val_main_v65 (F := Ideal) x0 x1 x2 x3 x4 x5 (ix2 n j)
      = Gcn.layerInside (s x1) (t x1) d (dn x1) (Gcn.arr2 (val_main_v47 (F := Ideal) x0 x1 x2 x3)) (Gcn.arr2 x4) (Gcn.arr1 x5) n j := by
  rw [val_main_v65_apply, val_main_v64_apply, rectifier_zeros_read, bias_read]
  unfold val_main_v61
  rw [Host.scatterAdd, Ideal.hostScatterAdd_def, IndexOpsLib.scatterAdd_rows _ rfl rfl rfl rfl, zeros_read]
  simp only [Ideal.addf_def, Ideal.maximumf_def, zero_add]
  unfold Gcn.layerInside Gcn.arr1
  refine congrArg (fun z : EReal => max (z + x5 (ix1 j)) 0) ?_
  refine Finset.sum_congr (Finset.filter_congr fun e _ => ?_) fun e _ => ?_
  · rw [target_read]
    exact Iff.rfl
  · rw [val_main_v58_apply, Ideal.mulf_def, gather_read x0 x1 x2 x3 x4 hsrc, weight_read, hnorm, lin_read]

end Cert.ReferenceIdeal.RefLayer2

end
-- ==== Proof.RefSoftmax.lean ====
/-
  The reference's classifier: the second layer's output against the classifier matrix, plus the bias, and each
  row's softmax — the row's maximum (taken from −∞), the exponentials of the differences, their sum, the quotient.
-/
import proofs.«407854_j1202590843008_2_alg».proof.Proof.RefRead
import proofs.«407854_j1202590843008_2_alg».proof.Proof.GcnMath
import proofs.«407854_j1202590843008_2_alg».proof.Proof.GcnIndex
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefSoftmax

open Cert.ReferenceIdeal Cert.ReferenceIdeal.Gen Cert.ReferenceIdeal.ReadP
open Idealize.ShloMosaic Idealize.ShloMosaic.TcCoe Idealize.ShloMosaic.ValueIdx Idealize.SL.Sem

/- the argument arrays, as the generated stage functions take them -/
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x16, .f32⟩ : BufTy).Contents (Elt Ideal)) (x7 : (⟨S16, .f32⟩ : BufTy).Contents (Elt Ideal))

/-- The row an edge reads. -/
abbrev s (e : Fin 1700000) : Fin 100000 := Gcn.srcRow 100000 (by decide) (val_main_v3 (F := Ideal) x1) e
/-- The row number an edge adds into. -/
abbrev t (e : Fin 1700000) : ℤ := Gcn.tgtInt (val_main_v6 (F := Ideal) x1) e
/-- Row `n`'s weight. -/
abbrev dn (n : Fin 100000) : EReal := val_main_v14 (F := Ideal) x1 (ix1 n)

/-! ### The stages' index functions at (n, c) -/

/-- The left operand of the product at (n, c), term k: row n, column k. -/
theorem lidx_product (n : Fin 100000) (c : Fin 16) (k : Fin 128) : lidx_main_v66 (ix2 n c) k = ix2 n k :=
  funext fun a => Fin.ext (by match a with | ⟨0, _⟩ => rfl | ⟨1, _⟩ => rfl)

/-- The right operand of the product at (n, c), term k: row k, column c. -/
theorem ridx_product (n : Fin 100000) (c : Fin 16) (k : Fin 128) : ridx_main_v66 (ix2 n c) k = ix2 k c :=
  funext fun a => Fin.ext (by match a with | ⟨0, _⟩ => rfl | ⟨1, _⟩ => rfl)

/-- The bias laid along the rows reads, at (n, c), entry c. -/
theorem idx_bias (n : Fin 100000) (c : Fin 16) : idx_main_v67 (idx_main_v68 (ix2 n c)) = ix1 c :=
  funext fun a => Fin.ext (by match a with | ⟨0, _⟩ => rfl)

/-- The row maximum laid along the columns reads, at (n, c), entry n. -/
theorem idx_rowMax (n : Fin 100000) (c : Fin 16) : idx_main_v73 (idx_main_v74 (ix2 n c)) = ix1 n :=
  funext fun a => Fin.ext (by match a with | ⟨0, _⟩ => rfl)

/-- The row sum laid along the columns reads, at (n, c), entry n. -/
theorem idx_rowSum (n : Fin 100000) (c : Fin 16) : idx_main_v78 (idx_main_v79 (ix2 n c)) = ix1 n :=
  funext fun a => Fin.ext (by match a with | ⟨0, _⟩ => rfl)

/-- Term k of row n's sum: entry (n, k). -/
theorem idx_sumTerm (n : Fin 100000) (k : Fin 16) : idx_main_v77 (ix1 n) k = ix2 n k :=
  funext fun a => Fin.ext (by match a with | ⟨0, _⟩ => rfl | ⟨1, _⟩ => rfl)

/-- Row n with column k put back is (n, k). -/
theorem lift_row (h : S100000x16.Reduces [1] S100000) (n : Fin 100000) (k : Fin (S100000x16.size 1)) :
    h.lift (ix1 n) k = ix2 n (⟨k.val, k.isLt⟩ : Fin 16) := by
  funext a; apply Fin.ext
  fin_cases a <;> rfl

/-- The word of −∞ is the bottom element. -/
theorem ofBits_negInf : Ideal.ofBits .f32 0xFF800000#32 = (⊥ : EReal) := by simp [Ideal.ofBits, Ideal.ieee]

/-! ### The stages at (n, c) -/

/-- The logits: the product with the classifier matrix, plus the bias. -/
theorem logit_apply (n : Fin 100000) (c : Fin 16) :
    val_main_v69 (F := Ideal) x0 x1 x2 x3 x4 x5 x6 x7 (ix2 n c)
      = Gcn.lin (Gcn.arr2 (val_main_v65 (F := Ideal) x0 x1 x2 x3 x4 x5)) (Gcn.arr2 x6) n c + Gcn.arr1 x7 c := by
  rw [val_main_v69_apply, val_main_v66_apply, val_main_v68_apply, val_main_v67_apply]
  generalize val_main_v65 (F := Ideal) x0 x1 x2 x3 x4 x5 = Y
  simp only [lidx_product, ridx_product, idx_bias, Ideal.addf_def, Gcn.lin, Gcn.arr2, Gcn.arr1]

/-- From −∞ the maximum-reduce along the columns of any [100000 × 16] array is, at row n, that row's maximum. -/
theorem hostReduce_max_row (L : (⟨S100000x16, .f32⟩ : BufTy).Contents (Elt Ideal)) (n : Fin 100000) :
    Host.reduce (FloatOps.maximumf (F := Ideal) (φ := .f32)) L (val_main_cst_12 (F := Ideal))
        reducesTo_S100000x16_S100000_d1 h_S_ (ix1 n)
      = Finset.univ.fold max (⊥ : EReal) (fun c' : Fin 16 => L (ix2 n c')) := by
  have hR : S100000x16.Reduces [1] S100000 := by decide
  have hf : (L ∘ hR.lift (ix1 n)) = fun c' : Fin 16 => L (ix2 n c') :=
    funext fun k => congrArg L (lift_row hR n k)
  rw [Host.reduce_eq_fold_single (FloatOps.maximumf (F := Ideal) (φ := .f32)) L _ reducesTo_S100000x16_S100000_d1 hR h_S_]
  simp only [val_main_cst_12_apply, Ideal.ofBits_def, ofBits_negInf]
  exact congrArg (fun f => Finset.fold max (⊥ : EReal) f (Finset.univ : Finset (Fin 16))) hf

/-- Row n's maximum, taken from −∞, of the logits. -/
theorem rowMax_apply (n : Fin 100000) :
    val_main_v72 (F := Ideal) x0 x1 x2 x3 x4 x5 x6 x7 (ix1 n)
      = Finset.univ.fold max (⊥ : EReal) (fun c' : Fin 16 => val_main_v69 (F := Ideal) x0 x1 x2 x3 x4 x5 x6 x7 (ix2 n c')) := by
  rw [val_main_v72_apply, val_main_v71_apply, val_main_cst_13_apply]
  unfold val_main_v70
  generalize val_main_v69 (F := Ideal) x0 x1 x2 x3 x4 x5 x6 x7 = L
  rw [hostReduce_max_row]
  simp only [Ideal.ofBits_def, Ideal.maximumf_def, ofBits_negInf, max_bot_left]

/-- The exponential of a logit less its row's maximum. -/
theorem expo_apply (n : Fin 100000) (c : Fin 16) :
    val_main_v76 (F := Ideal) x0 x1 x2 x3 x4 x5 x6 x7 (ix2 n c)
      = Ideal.exp (val_main_v69 (F := Ideal) x0 x1 x2 x3 x4 x5 x6 x7 (ix2 n c) - val_main_v72 (F := Ideal) x0 x1 x2 x3 x4 x5 x6 x7 (ix1 n)) := by
  rw [val_main_v76_apply, val_main_v75_apply, val_main_v74_apply, val_main_v73_apply, idx_rowMax]
  simp only [Ideal.hostUnary_exp_def, Ideal.subf_def]

/-- The divisor at (n, c): the sum of row n's exponentials. -/
theorem rowSum_apply (n : Fin 100000) (c : Fin 16) :
    val_main_v79 (F := Ideal) x0 x1 x2 x3 x4 x5 x6 x7 (ix2 n c)
      = ∑ c' : Fin 16, val_main_v76 (F := Ideal) x0 x1 x2 x3 x4 x5 x6 x7 (ix2 n c') := by
  rw [val_main_v79_apply, val_main_v78_apply, idx_rowSum, val_main_v77_apply, val_main_cst_14_apply]
  simp only [Ideal.ofBits_def, Ideal.ofBits_zero_f32, zero_add, idx_sumTerm]

/-- Entry (n, c) of the result, from the second layer's output. -/
theorem tail (n : Fin 100000) (c : Fin 16) :
    val_main_v80 (F := Ideal) x0 x1 x2 x3 x4 x5 x6 x7 (ix2 n c)
      = Gcn.classify (Gcn.arr2 (val_main_v65 (F := Ideal) x0 x1 x2 x3 x4 x5)) (Gcn.arr2 x6) (Gcn.arr1 x7) n c := by
  rw [val_main_v80_apply, rowSum_apply]
  simp only [Ideal.hostDivf_def, expo_apply, rowMax_apply, logit_apply, Gcn.classify, Gcn.softmaxRow]

end Cert.ReferenceIdeal.RefSoftmax

end
-- ==== Proof.RefValue.lean ====
/-
  The idealized reference's result as a function of its arguments.

  The reference builds the same two vectors of edge words and the same row weights, then for each layer gathers the
  transformed rows at the source words, multiplies each by the product of its source's and its target's weight, adds
  them at the target words, adds the bias and rectifies (`Gcn.layerInside`), and ends with the classifier and a row
  softmax. Where every source word names a row, and since an edge that adds into row `n` has `n` as its target, the
  weights come out of the sums (`Gcn.netInside_eq_netOutside`).
-/
import proofs.«407854_j1202590843008_2_alg».proof.Proof.RefRun
import proofs.«407854_j1202590843008_2_alg».proof.Proof.RefRead
import proofs.«407854_j1202590843008_2_alg».proof.Proof.GcnMath
import proofs.«407854_j1202590843008_2_alg».proof.Proof.GcnIndex
import proofs.«407854_j1202590843008_2_alg».proof.Proof.RefNorm
import proofs.«407854_j1202590843008_2_alg».proof.Proof.RefLayer1
import proofs.«407854_j1202590843008_2_alg».proof.Proof.RefLayer2
import proofs.«407854_j1202590843008_2_alg».proof.Proof.RefSoftmax

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- The result, entry by entry, when every source word names a row. -/
theorem value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x16, .f32⟩ : BufTy).Contents (Elt Ideal)) (x7 : (⟨S16, .f32⟩ : BufTy).Contents (Elt Ideal))
    (hsrc : ∀ e : Fin 1700000, 0 ≤ (val_main_v3 (F := Ideal) x1 (ix1 e)).toInt ∧ (val_main_v3 (F := Ideal) x1 (ix1 e)).toInt < 100000)
    (n : Fin 100000) (c : Fin 16) :
    val_main_v80 (F := Ideal) x0 x1 x2 x3 x4 x5 x6 x7 (ix2 n c)
      = Gcn.netOutside (Gcn.srcRow 100000 (by decide) (val_main_v3 (F := Ideal) x1)) (Gcn.tgtInt (val_main_v6 (F := Ideal) x1))
          (fun n : Fin 100000 => val_main_v14 (F := Ideal) x1 (ix1 n))
          (Gcn.arr2 x0) (Gcn.arr2 x2) (Gcn.arr1 x3) (Gcn.arr2 x4) (Gcn.arr1 x5) (Gcn.arr2 x6) (Gcn.arr1 x7) n c := by
  -- the edges' weights are products of two row weights, the second at the row the edge adds into
  have hnorm : ∀ e : Fin 1700000, val_main_v29 (F := Ideal) x1 (ix1 e)
      = RefNorm.dn x1 (RefNorm.s x1 e) * RefNorm.dn x1 (RefNorm.dRow x1 e) := fun e => RefNorm.norm_apply x1 hsrc e
  -- the two layers, weights inside the sums
  have hL1 : Gcn.arr2 (val_main_v47 (F := Ideal) x0 x1 x2 x3)
      = Gcn.layerInside (RefNorm.s x1) (RefNorm.t x1) (RefNorm.dRow x1) (RefNorm.dn x1) (Gcn.arr2 x0) (Gcn.arr2 x2) (Gcn.arr1 x3) :=
    funext fun p => funext fun q => RefLayer1.layer1 x0 x1 x2 x3 hsrc (RefNorm.dRow x1) hnorm p q
  have hL2 : Gcn.arr2 (val_main_v65 (F := Ideal) x0 x1 x2 x3 x4 x5)
      = Gcn.layerInside (RefNorm.s x1) (RefNorm.t x1) (RefNorm.dRow x1) (RefNorm.dn x1)
          (Gcn.arr2 (val_main_v47 (F := Ideal) x0 x1 x2 x3)) (Gcn.arr2 x4) (Gcn.arr1 x5) :=
    funext fun p => funext fun q => RefLayer2.layer2 x0 x1 x2 x3 x4 x5 hsrc (RefNorm.dRow x1) hnorm p q
  rw [RefSoftmax.tail x0 x1 x2 x3 x4 x5 x6 x7 n c, hL2, hL1]
  -- the weights come out of the sums
  exact congrFun (congrFun (Gcn.netInside_eq_netOutside (RefNorm.s x1) (RefNorm.t x1) (RefNorm.dRow x1) (RefNorm.dn x1)
    (fun e p h => RefNorm.dRow_of_tgt x1 e p h) (RefNorm.dn_ok x1)
    (Gcn.arr2 x0) (Gcn.arr2 x2) (Gcn.arr1 x3) (Gcn.arr2 x4) (Gcn.arr1 x5) (Gcn.arr2 x6) (Gcn.arr1 x7)) n) c

end Cert.ReferenceIdeal.RefValue

end
-- ==== Proof.RefSrcRange.lean ====
/-
  Every source word names a row, when the edge list's first row does: the vector of source words is that row
  followed by 0 … 99999 (the self loops), so an entry is an entry of the row or one of those numbers.
-/
import proofs.«407854_j1202590843008_2_alg».proof.Proof.RefRead
import Idealize.ShloMosaic.Lib.StableHlo.Predicate
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- Every source word names a row, when the edge list's first row does. -/
theorem srcWords_in_range (x1 : (⟨S2x1600000, .i32⟩ : BufTy).Contents (Elt Ideal))
    (h : ∀ e : Fin 1600000, 0 ≤ (x1 (ix2 (0 : Fin 2) e)).toInt ∧ (x1 (ix2 (0 : Fin 2) e)).toInt < 100000)
    (e : Fin 1700000) :
    0 ≤ (val_main_v3 (F := Ideal) x1 (ix1 e)).toInt ∧ (val_main_v3 (F := Ideal) x1 (ix1 e)).toInt < 100000 := by
  by_cases he : e.val < 1600000
  · -- an entry of the first piece: the edge list's row 0 at the same position
    have hread : val_main_v3 (F := Ideal) x1 (ix1 e)
        = val_main_v2 (F := Ideal) x1 (ix1 (⟨e.val, he⟩ : Fin 1600000)) := by
      unfold val_main_v3
      exact concatenate_pair_apply_left 0 _ _ concatenates_S1600000_S100000_S1700000_d0 (ix1 e) rfl
        (ix1 (⟨e.val, he⟩ : Fin 1600000)) (fun b => by match b with | ⟨0, _⟩ => rfl)
    have hidx : idx_main_v1 (idx_main_v2 (ix1 (⟨e.val, he⟩ : Fin 1600000)))
        = ix2 (0 : Fin 2) (⟨e.val, he⟩ : Fin 1600000) := by
      funext a
      match a with
      | ⟨0, _⟩ => rfl
      | ⟨1, _⟩ => exact Fin.ext (Nat.mod_eq_of_lt he)
    rw [hread, val_main_v2_apply, val_main_v1_apply, hidx]
    exact h ⟨e.val, he⟩
  · -- an entry of the second piece: the number e − 1600000, which is below 100000
    have hk : e.val - 1600000 < 100000 := by have := e.isLt; omega
    have hread : val_main_v3 (F := Ideal) x1 (ix1 e)
        = val_main_v0 (F := Ideal) (ix1 (⟨e.val - 1600000, hk⟩ : Fin 100000)) := by
      unfold val_main_v3
      exact concatenate_pair_apply_right 0 _ _ concatenates_S1600000_S100000_S1700000_d0 (ix1 e) rfl rfl
        (ix1 (⟨e.val - 1600000, hk⟩ : Fin 100000))
        (fun b hb => absurd (Subsingleton.elim _ _) hb)
        (by show (e.val - 1600000) + 1600000 = e.val; omega)
    rw [hread, val_main_v0_apply]
    show 0 ≤ (BitVec.ofNat 32 (e.val - 1600000)).toInt ∧ (BitVec.ofNat 32 (e.val - 1600000)).toInt < 100000
    rw [StableHlo.Predicate.toInt_ofNat_small _ (by omega)]
    constructor <;> omega

end Cert.ReferenceIdeal.RefValue

end
-- ==== Proof.PreDecode.lean ====
/-
  What the precondition says of the edge list: every entry of its first row — the edges' sources — is a row number,
  0 ≤ source < 100000. (The precondition is a conjunction of "every entry of this float array is finite", one per
  float argument, and of this range test; only the range test is read here.)
-/
import proofs.«407854_j1202590843008_2_alg».proof.Pre_finite_inputs
import Idealize.ShloMosaic.Lib.StableHlo.Predicate
import Idealize.ShloMosaic.Lib.ReduceAll
import Idealize.ShloMosaic.Lib.ValueIdx

namespace Cert.Pre_finite_inputs.Decode

open Cert.Pre_finite_inputs
open Idealize.ShloMosaic Idealize.ShloMosaic.ValueIdx

variable [Cert.Pre_finite_inputs.Facts]

/-- The scalar shape has one index. -/
instance subsingleton_scalar_idx : Subsingleton S_.Idx := ⟨fun a b => funext fun d => d.elim0⟩

/-- The zero word reads signed as 0. -/
theorem toInt_zero32 : (0#32 : BitVec 32).toInt = 0 := by decide

/-- The word 100000 reads signed as 100000. -/
theorem toInt_100000 : (100000#32 : BitVec 32).toInt = 100000 := by decide

/-- Row 0 of the edge list, kept as a [1 × 1600000] array, reads at (0, e) the edge list at (0, e). -/
theorem row0_apply (x1 : IVec S2x1600000 32) (e : Fin 1600000) :
    extractStridedSlice S1x1600000 ![0, 0] x1 Facts.slices_S2x1600000_S1x1600000_0_0 (ix2 (0 : Fin 1) e)
      = x1 (ix2 (0 : Fin 2) e) := by
  unfold extractStridedSlice
  refine congrArg x1 (funext fun a => Fin.ext ?_)
  match a with
  | ⟨0, _⟩ => rfl
  | ⟨1, _⟩ => show 0 + e.val = e.val; omega

/-- The last conjunct of the precondition alone: if the tail of the chain (the range test joined to whatever came before)
    is 1, every source is at least 0 and below 100000, read signed. -/
theorem tail_src_in_range (x1 : IVec S2x1600000 32) (v : IVec S_ 1)
    (h : fn_part2 (F := Ideal) x1 v ix0 = 1#1) (e : Fin 1600000) :
    0 ≤ (x1 (ix2 (0 : Fin 2) e)).toInt ∧ (x1 (ix2 (0 : Fin 2) e)).toInt < 100000 := by
  unfold fn_part2 at h
  dsimp only at h
  change IntOp.andi _ _ = 1#1 at h
  -- the conjunction is 1: so is the all-reduction of the range test
  obtain ⟨-, hall⟩ := IntOp.andi_eq_one.1 h
  -- an all-reduction that is 1 met a 1 at every index, in particular at (0, e)
  have hat := Host.reduce_andi_all _ _ _ _ _ hall (ix2 (0 : Fin 1) e)
  change IntOp.andi (IntOp.cmpi .sge _ _) (IntOp.cmpi .slt _ _) = 1#1 at hat
  obtain ⟨hge, hlt⟩ := IntOp.andi_eq_one.1 hat
  rw [IntOp.cmpi_sge] at hge
  rw [IntOp.cmpi_slt] at hlt
  -- the broadcast constants read 0 and 100000 everywhere; the slice reads the edge list's row 0
  change (0#32 : BitVec 32).toInt ≤ _ at hge
  change _ < (100000#32 : BitVec 32).toInt at hlt
  rw [row0_apply, toInt_zero32] at hge
  rw [row0_apply, toInt_100000] at hlt
  exact ⟨hge, hlt⟩

/-- Under the precondition every source of the edge list is a row number. -/
theorem src_in_range (x0 : FVec Ideal S100000x128 .f32) (x1 : IVec S2x1600000 32) (x2 : FVec Ideal S128x128 .f32)
    (x3 : FVec Ideal S128 .f32) (x4 : FVec Ideal S128x128 .f32) (x5 : FVec Ideal S128 .f32) (x6 : FVec Ideal S128x16 .f32)
    (x7 : FVec Ideal S16 .f32)
    (h : fn (F := Ideal) x0 x1 x2 x3 x4 x5 x6 x7 = fun _ => 1#1) (e : Fin 1600000) :
    0 ≤ (x1 (ix2 (0 : Fin 2) e)).toInt ∧ (x1 (ix2 (0 : Fin 2) e)).toInt < 100000 := by
  -- the precondition is the seven finiteness tests joined, then joined to the range test: keep only that last joint
  have h0 : fn (F := Ideal) x0 x1 x2 x3 x4 x5 x6 x7 ix0 = 1#1 := congrFun h ix0
  unfold fn fn_part1 at h0
  exact tail_src_in_range x1 _ h0 e

end Cert.Pre_finite_inputs.Decode
-- ==== Proof.Bridge.lean ====
/-
  The two programs build the same things from the edge list before anything else: the two vectors of edge words
  (the list's two rows, each followed by 0 … 99999) and the rows' weights, by the same operations. So what the
  idealized kernel holds in those buffers when its first region starts is what the idealized reference computes
  at the corresponding stages, of the same edge list.
-/
import proofs.«407854_j1202590843008_2_alg».proof.Proof.Gen.KernelIdeal.Frame
import proofs.«407854_j1202590843008_2_alg».proof.Proof.RefRead
import Idealize.ShloMosaic.Lib.StableHlo.Run

set_option maxRecDepth 16384

noncomputable section

namespace Cert.Bridge

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ) (ρ : Dev nD → PrngReg)

set_option maxHeartbeats 4000000 in
/-- The kernel's source words are the reference's, of the kernel's edge list. -/
theorem srcW_eq (c : Dev nD) :
    (W3 m ρ c (Proc.devRef .tc main_v3) : (⟨S1700000, .i32⟩ : BufTy).Contents (Elt F))
      = Cert.ReferenceIdeal.ReadP.val_main_v3 (F := F) (m ((c.tc : Thread nD τ).loc main_arg1)) :=
  calc (W3 m ρ c (Proc.devRef .tc main_v3) : (⟨S1700000, .i32⟩ : BufTy).Contents (Elt F))
    _ = W2 m ρ c (Proc.devRef .tc main_v3) := StableHlo.after_of_forall_not_mem (b := Proc.devRef .tc main_v3) _ _ (List.forall_iff_forall_mem.mp (by
          simp only [Cert.KernelIdeal.Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [Cert.KernelIdeal.Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := by
      show StableHlo.after hostOps0 (W0 m ρ c) (Proc.devRef .tc main_v3) = _
      after_results
      rfl

set_option maxHeartbeats 4000000 in
/-- The kernel's target words are the reference's, of the kernel's edge list. -/
theorem dstW_eq (c : Dev nD) :
    (W3 m ρ c (Proc.devRef .tc main_v6) : (⟨S1700000, .i32⟩ : BufTy).Contents (Elt F))
      = Cert.ReferenceIdeal.ReadP.val_main_v6 (F := F) (m ((c.tc : Thread nD τ).loc main_arg1)) :=
  calc (W3 m ρ c (Proc.devRef .tc main_v6) : (⟨S1700000, .i32⟩ : BufTy).Contents (Elt F))
    _ = W2 m ρ c (Proc.devRef .tc main_v6) := StableHlo.after_of_forall_not_mem (b := Proc.devRef .tc main_v6) _ _ (List.forall_iff_forall_mem.mp (by
          simp only [Cert.KernelIdeal.Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [Cert.KernelIdeal.Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := by
      show StableHlo.after hostOps0 (W0 m ρ c) (Proc.devRef .tc main_v6) = _
      after_results
      rfl

/-- Operations run one line after another are their concatenation run as one. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

set_option maxHeartbeats 8000000 in
/-- The kernel's row weights are the reference's, of the kernel's edge list. -/
theorem dinv_eq (c : Dev nD) :
    (W3 m ρ c (Proc.devRef .tc main_v14) : (⟨S100000, .f32⟩ : BufTy).Contents (Elt F))
      = Cert.ReferenceIdeal.ReadP.val_main_v14 (F := F) (m ((c.tc : Thread nD τ).loc main_arg1)) :=
  calc (W3 m ρ c (Proc.devRef .tc main_v14) : (⟨S100000, .f32⟩ : BufTy).Contents (Elt F))
    _ = W2 m ρ c (Proc.devRef .tc main_v14) := StableHlo.after_of_forall_not_mem (b := Proc.devRef .tc main_v14) _ _ (List.forall_iff_forall_mem.mp (by
          simp only [Cert.KernelIdeal.Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := by
      show StableHlo.after hostOps0_1 (StableHlo.after hostOps0 (W0 m ρ c)) (Proc.devRef .tc main_v14) = _
      rw [← after_append]
      simp only [hostOps0, hostOps0_1, List.cons_append, List.nil_append]
      after_results
      rfl

end Cert.Bridge

end
-- ==== Proof.lean ====
/-
  A two-layer graph convolution with a row softmax on top, on 100000 nodes and 1600000 edges plus one self loop per
  node: the kernel against its reference, over the extended reals.

  Both programs weight an edge e from row s(e) into row n by w(s(e))·w(n), where w(n) = 1/√deg(n) (0 where the
  degree is 0). The reference multiplies each gathered row by that product before adding it into row n. The kernel
  takes the weights out of the sum: it scales every row by its own weight where the row is produced (inside the
  matrix-product kernels), adds the gathered rows unweighted, and multiplies the sum by w(n) afterwards, together
  with the bias and the rectifier of the layer. Since w(n) is non-negative and never +∞ it distributes over any sum
  of extended reals, and multiplication is associative: the two are one function (`Gcn.netInside_eq_netOutside`).

  The precondition also asks that every edge's SOURCE is a row number, 0 ≤ source < 100000. Outside that range the
  reference indexes its table out of range (the gather clamps the index), while the kernel's gather fills the row
  with a not-a-number word: there the two differ, and the claim is made for edge lists that index the table.

  The pieces: what each of the kernel's three regions leaves in its array (`Region0/1/2`), what the host computes
  between them (`Keep`, `Agg1`, `Agg2`), chained into the kernel's result (`HostWalk.kernel_value`); the
  reference's result stage by stage (`RefNorm`, `RefLayer1/2`, `RefSoftmax`, chained in `RefValue.value`); that the
  two programs build the same edge words and weights (`Bridge`); and the range of the source words under the
  precondition (`Decode.src_in_range`, `RefValue.srcWords_in_range`).
-/
import proofs.«407854_j1202590843008_2_alg».proof.Defs
import proofs.«407854_j1202590843008_2_alg».proof.Proof.Gen.Kernel
import proofs.«407854_j1202590843008_2_alg».proof.Proof.Gen.Kernel.Skeleton
import proofs.«407854_j1202590843008_2_alg».proof.Proof.Gen.Kernel.Launch
import proofs.«407854_j1202590843008_2_alg».proof.Proof.Gen.Kernel.Points
import proofs.«407854_j1202590843008_2_alg».proof.Proof.Gen.Kernel.Frame
import proofs.«407854_j1202590843008_2_alg».proof.Proof.Gen.KernelIdeal
import proofs.«407854_j1202590843008_2_alg».proof.Proof.Gen.KernelIdeal.Skeleton
import proofs.«407854_j1202590843008_2_alg».proof.Proof.Gen.KernelIdeal.Launch
import proofs.«407854_j1202590843008_2_alg».proof.Proof.Gen.KernelIdeal.Points
import proofs.«407854_j1202590843008_2_alg».proof.Proof.Gen.KernelIdeal.Frame
import proofs.«407854_j1202590843008_2_alg».proof.Proof.Gen.ReferenceIdeal
import proofs.«407854_j1202590843008_2_alg».proof.Proof.Gen.Pre_finite_inputs
import proofs.«407854_j1202590843008_2_alg».proof.Proof.KernelRun
import proofs.«407854_j1202590843008_2_alg».proof.Proof.KWalk
import proofs.«407854_j1202590843008_2_alg».proof.Proof.RefRun
import proofs.«407854_j1202590843008_2_alg».proof.Proof.RefRead
import proofs.«407854_j1202590843008_2_alg».proof.Proof.RefValue
import proofs.«407854_j1202590843008_2_alg».proof.Proof.RefSrcRange
import proofs.«407854_j1202590843008_2_alg».proof.Proof.PreDecode
import proofs.«407854_j1202590843008_2_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

section Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Under the precondition every source word of the kernel's edge list names a row. -/
theorem src_words_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1700000) :
    0 ≤ (Cert.ReferenceIdeal.ReadP.val_main_v3 (F := Ideal) (m ((c.tc : Thread Cert.KernelIdeal.nD Cert.KernelIdeal.τ).loc Cert.KernelIdeal.main_arg1)) (ix1 e)).toInt
      ∧ (Cert.ReferenceIdeal.ReadP.val_main_v3 (F := Ideal) (m ((c.tc : Thread Cert.KernelIdeal.nD Cert.KernelIdeal.τ).loc Cert.KernelIdeal.main_arg1)) (ix1 e)).toInt < 100000 :=
  Cert.ReferenceIdeal.RefValue.srcWords_in_range _
    (fun e' => Cert.Pre_finite_inputs.Decode.src_in_range _ _ _ _ _ _ _ _ (hpre c) e') e

/-- The kernel's result array and the reference's are one function of the arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v29),
    Cert.KernelIdeal.ValueRun.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  have hsrc := src_words_in_range m hpre c
  funext i
  obtain ⟨n, c', rfl⟩ : ∃ (n : Fin 100000) (c' : Fin 16), i = ix2 n c' := ⟨i 0, i 1, eq_ix2 i⟩
  rw [Cert.ReferenceIdeal.ReadP.val_main_v80_eq m' c, a0, a1, a2, a3, a4, a5, a6, a7]
  refine (Cert.ReferenceIdeal.RefValue.value _ _ _ _ _ _ _ _ hsrc n c').trans ?_
  -- the kernel builds the reference's edge words and weights
  have hs : Cert.KernelIdeal.HostWalk.srcW m ρ c
      = Cert.ReferenceIdeal.ReadP.val_main_v3 (F := Ideal) (m ((c.tc : Thread Cert.KernelIdeal.nD Cert.KernelIdeal.τ).loc Cert.KernelIdeal.main_arg1)) :=
    Cert.Bridge.srcW_eq (F := Ideal) m ρ c
  have hd : Cert.KernelIdeal.HostWalk.dstW m ρ c
      = Cert.ReferenceIdeal.ReadP.val_main_v6 (F := Ideal) (m ((c.tc : Thread Cert.KernelIdeal.nD Cert.KernelIdeal.τ).loc Cert.KernelIdeal.main_arg1)) :=
    Cert.Bridge.dstW_eq (F := Ideal) m ρ c
  have hw : Cert.KernelIdeal.HostWalk.dinv m ρ c
      = fun p : Fin 100000 => Cert.ReferenceIdeal.ReadP.val_main_v14 (F := Ideal) (m ((c.tc : Thread Cert.KernelIdeal.nD Cert.KernelIdeal.τ).loc Cert.KernelIdeal.main_arg1)) (ix1 p) :=
    funext fun p => congrFun (Cert.Bridge.dinv_eq (F := Ideal) m ρ c) (ix1 p)
  refine Eq.symm ((Cert.KernelIdeal.HostWalk.kernel_value m ρ c (by intro e; rw [hs]; exact hsrc e) n c').trans ?_)
  rw [hs, hd, hw]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
